-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1 : Shape := ⟨2, ![10000, 1]⟩
abbrev S2x160000 : Shape := ⟨2, ![2, 160000]⟩
abbrev S160000 : Shape := ⟨1, ![160000]⟩
abbrev S1x128 : Shape := ⟨2, ![1, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S_ : Shape := ⟨0, ![]⟩

class Facts : Prop where
  bcast_S_S10000x1 : S_.BroadcastsInDim S10000x1 (![] : Fin 0 → Fin S10000x1.rank)
  reducesTo_S10000x1_S_d0_1 : S10000x1.ReducesTo [0, 1] S_
  h_S_ : 0 < S_.numel
  bcast_S_S160000 : S_.BroadcastsInDim S160000 (![] : Fin 0 → Fin S160000.rank)
  reducesTo_S160000_S_d0 : S160000.ReducesTo [0] S_
  bcast_S_S1x128 : S_.BroadcastsInDim S1x128 (![] : Fin 0 → Fin S1x128.rank)
  reducesTo_S1x128_S_d0_1 : S1x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x512 : S_.BroadcastsInDim S256x512 (![] : Fin 0 → Fin S256x512.rank)
  reducesTo_S256x512_S_d0_1 : S256x512.ReducesTo [0, 1] S_
  bcast_S_S512 : S_.BroadcastsInDim S512 (![] : Fin 0 → Fin S512.rank)
  reducesTo_S512_S_d0 : S512.ReducesTo [0] S_
  bcast_S_S2x160000 : S_.BroadcastsInDim S2x160000 (![] : Fin 0 → Fin S2x160000.rank)
  reducesTo_S2x160000_S_d0_1 : S2x160000.ReducesTo [0, 1] S_

variable [Facts]

def fn_part2 {F : FTy → Type} [FloatOps F] (main_arg1 : IVec S2x160000 32) (main_arg8 : FVec F S512 .f32) (main_v33 : IVec S_ 1) : IVec S_ 1 :=
  let main_v34 : FVec F S512 .f32 := Host.absf main_arg8
  let main_cst_12 : FVec F S_ .f32 := constant S_ .f32 0x7F800000#32
  let main_v35 : FVec F S512 .f32 := broadcastInDim S512 ![] bcast_S_S512 main_cst_12
  let main_v36 : IVec S512 1 := cmpf .olt main_v34 main_v35
  let main_c_13 : IVec S_ 1 := constantI S_ 1 1#1
  let main_v37 : IVec S_ 1 := (fun x v => Host.reduce IntOp.andi x v reducesTo_S512_S_d0 h_S_) main_v36 main_c_13
  let main_v38 : IVec S_ 1 := andi main_v33 main_v37
  let main_c_14 : IVec S_ 32 := constantI S_ 32 0#32
  let main_v39 : IVec S2x160000 32 := broadcastInDim S2x160000 ![] bcast_S_S2x160000 main_c_14
  let main_v40 : IVec S2x160000 1 := cmpi .sge main_arg1 main_v39
  let main_c_15 : IVec S_ 1 := constantI S_ 1 1#1
  let main_v41 : IVec S_ 1 := (fun x v => Host.reduce IntOp.andi x v reducesTo_S2x160000_S_d0_1 h_S_) main_v40 main_c_15
  let main_v42 : IVec S_ 1 := andi main_v38 main_v41
  let main_c_16 : IVec S_ 32 := constantI S_ 32 10000#32
  let main_v43 : IVec S2x160000 32 := broadcastInDim S2x160000 ![] bcast_S_S2x160000 main_c_16
  let main_v44 : IVec S2x160000 1 := cmpi .slt main_arg1 main_v43
  let main_c_17 : IVec S_ 1 := constantI S_ 1 1#1
  let main_v45 : IVec S_ 1 := (fun x v => Host.reduce IntOp.andi x v reducesTo_S2x160000_S_d0_1 h_S_) main_v44 main_c_17
  let main_v46 : IVec S_ 1 := andi main_v42 main_v45
  main_v46

def fn_part1 {F : FTy → Type} [FloatOps F] (main_arg1 : IVec S2x160000 32) (main_arg5 : FVec F S128x256 .f32) (main_arg6 : FVec F S256 .f32) (main_arg7 : FVec F S256x512 .f32) (main_arg8 : FVec F S512 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x512 .f32 := Host.absf main_arg7
  let main_cst_10 : FVec F S_ .f32 := constant S_ .f32 0x7F800000#32
  let main_v30 : FVec F S256x512 .f32 := broadcastInDim S256x512 ![] bcast_S_S256x512 main_cst_10
  let main_v31 : IVec S256x512 1 := cmpf .olt main_v29 main_v30
  let main_c_11 : IVec S_ 1 := constantI S_ 1 1#1
  let main_v32 : IVec S_ 1 := (fun x v => Host.reduce IntOp.andi x v reducesTo_S256x512_S_d0_1 h_S_) main_v31 main_c_11
  let main_v33 : IVec S_ 1 := andi main_v28 main_v32
  fn_part2 (F := F) main_arg1 main_arg8 main_v33

def fn {F : FTy → Type} [FloatOps F] (main_arg0 : FVec F S10000x1 .f32) (main_arg1 : IVec S2x160000 32) (main_arg2 : FVec F S160000 .f32) (main_arg3 : FVec F S1x128 .f32) (main_arg4 : FVec F S128 .f32) (main_arg5 : FVec F S128x256 .f32) (main_arg6 : FVec F S256 .f32) (main_arg7 : FVec F S256x512 .f32) (main_arg8 : FVec F S512 .f32) : IVec S_ 1 :=
  let main_v0 : FVec F S10000x1 .f32 := Host.absf main_arg0
  let main_cst : FVec F S_ .f32 := constant S_ .f32 0x7F800000#32
  let main_v1 : FVec F S10000x1 .f32 := broadcastInDim S10000x1 ![] bcast_S_S10000x1 main_cst
  let main_v2 : IVec S10000x1 1 := cmpf .olt main_v0 main_v1
  let main_c : IVec S_ 1 := constantI S_ 1 1#1
  let main_v3 : IVec S_ 1 := (fun x v => Host.reduce IntOp.andi x v reducesTo_S10000x1_S_d0_1 h_S_) main_v2 main_c
  let main_v4 : FVec F S160000 .f32 := Host.absf main_arg2
  let main_cst_0 : FVec F S_ .f32 := constant S_ .f32 0x7F800000#32
  let main_v5 : FVec F S160000 .f32 := broadcastInDim S160000 ![] bcast_S_S160000 main_cst_0
  let main_v6 : IVec S160000 1 := cmpf .olt main_v4 main_v5
  let main_c_1 : IVec S_ 1 := constantI S_ 1 1#1
  let main_v7 : IVec S_ 1 := (fun x v => Host.reduce IntOp.andi x v reducesTo_S160000_S_d0 h_S_) main_v6 main_c_1
  let main_v8 : IVec S_ 1 := andi main_v3 main_v7
  let main_v9 : FVec F S1x128 .f32 := Host.absf main_arg3
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_v13 main_v16
-- ==== Kernel.lean ====
abbrev S10000x1 : Shape := ⟨2, ![10000, 1]⟩
abbrev S2x160000 : Shape := ⟨2, ![2, 160000]⟩
abbrev S160000 : Shape := ⟨1, ![160000]⟩
abbrev S1x128 : Shape := ⟨2, ![1, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S1x160000 : Shape := ⟨2, ![1, 160000]⟩
abbrev S_ : Shape := ⟨0, ![]⟩
abbrev S160000x1 : Shape := ⟨2, ![160000, 1]⟩
abbrev S10000x128 : Shape := ⟨2, ![10000, 128]⟩
abbrev S10240x128 : Shape := ⟨2, ![10240, 128]⟩
abbrev S10240x10240 : Shape := ⟨2, ![10240, 10240]⟩
abbrev S160000x2 : Shape := ⟨2, ![160000, 2]⟩
abbrev S1x256 : Shape := ⟨2, ![1, 256]⟩
abbrev S10240x256 : Shape := ⟨2, ![10240, 256]⟩
abbrev S1024x2048 : Shape := ⟨2, ![1024, 2048]⟩
abbrev S2048x128 : Shape := ⟨2, ![2048, 128]⟩
abbrev S1024x256 : Shape := ⟨2, ![1024, 256]⟩
abbrev S1024x128 : Shape := ⟨2, ![1024, 128]⟩
abbrev S1x512 : Shape := ⟨2, ![1, 512]⟩
abbrev S10240x512 : Shape := ⟨2, ![10240, 512]⟩
abbrev S1024x5120 : Shape := ⟨2, ![1024, 5120]⟩
abbrev S5120x256 : Shape := ⟨2, ![5120, 256]⟩
abbrev S1024x512 : Shape := ⟨2, ![1024, 512]⟩
abbrev S10000x512 : Shape := ⟨2, ![10000, 512]⟩

abbrev nBuf : Space → Nat
  | .hbm => 64
  | .vmem => 20
  | .smem => 0
  | _ => 0

abbrev bufTy : (tb : Table) → Fin (tcTables nBuf tb) → BufTy
  | .hbm, ⟨0, _⟩ => ⟨S10000x1, .f32⟩
  | .hbm, ⟨1, _⟩ => ⟨S2x160000, .i32⟩
  | .hbm, ⟨2, _⟩ => ⟨S160000, .f32⟩
  | .hbm, ⟨3, _⟩ => ⟨S1x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S256x512, .f32⟩
  | .hbm, ⟨8, _⟩ => ⟨S512, .f32⟩
  | .hbm, ⟨9, _⟩ => ⟨S1x160000, .i32⟩
  | .hbm, ⟨10, _⟩ => ⟨S160000, .i32⟩
  | .hbm, ⟨11, _⟩ => ⟨S1x160000, .i32⟩
  | .hbm, ⟨12, _⟩ => ⟨S160000, .i32⟩
  | .hbm, ⟨13, _⟩ => ⟨S_, .i32⟩
  | .hbm, ⟨14, _⟩ => ⟨S160000, .i32⟩
  | .hbm, ⟨15, _⟩ => ⟨S160000, .i1⟩
  | .hbm, ⟨16, _⟩ => ⟨S_, .i32⟩
  | .hbm, ⟨17, _⟩ => ⟨S160000, .i32⟩
  | .hbm, ⟨18, _⟩ => ⟨S160000, .i32⟩
  | .hbm, ⟨19, _⟩ => ⟨S160000, .i32⟩
  | .hbm, ⟨20, _⟩ => ⟨S160000x1, .i32⟩
  | .hbm, ⟨21, _⟩ => ⟨S160000x1, .f32⟩
  | .hbm, ⟨22, _⟩ => ⟨S160000x1, .f32⟩
  | .hbm, ⟨23, _⟩ => ⟨S160000x1, .f32⟩
  | .hbm, ⟨24, _⟩ => ⟨S_, .f32⟩
  | .hbm, ⟨25, _⟩ => ⟨S10000x1, .f32⟩
  | .hbm, ⟨26, _⟩ => ⟨S160000x1, .i32⟩
  | .hbm, ⟨27, _⟩ => ⟨S10000x1, .f32⟩
  | .hbm, ⟨28, _⟩ => ⟨S10000x128, .f32⟩
  | .hbm, ⟨29, _⟩ => ⟨S1x128, .f32⟩
  | .hbm, ⟨30, _⟩ => ⟨S10000x128, .f32⟩
  | .hbm, ⟨31, _⟩ => ⟨S10000x128, .f32⟩
  | .hbm, ⟨32, _⟩ => ⟨S_, .i32⟩
  | .hbm, ⟨33, _⟩ => ⟨S_, .f32⟩
  | .hbm, ⟨34, _⟩ => ⟨S10240x128, .f32⟩
  | .hbm, ⟨35, _⟩ => ⟨S10240x128, .bf16⟩
  | .hbm, ⟨36, _⟩ => ⟨S_, .f32⟩
  | .hbm, ⟨37, _⟩ => ⟨S10240x10240, .f32⟩
  | .hbm, ⟨38, _⟩ => ⟨S_, .i32⟩
  | .hbm, ⟨39, _⟩ => ⟨S160000, .i32⟩
  | .hbm, ⟨40, _⟩ => ⟨S160000, .i1⟩
  | .hbm, ⟨41, _⟩ => ⟨S_, .i32⟩
  | .hbm, ⟨42, _⟩ => ⟨S160000, .i32⟩
  | .hbm, ⟨43, _⟩ => ⟨S160000, .i32⟩
  | .hbm, ⟨44, _⟩ => ⟨S160000, .i32⟩
  | .hbm, ⟨45, _⟩ => ⟨S_, .i32⟩
  | .hbm, ⟨46, _⟩ => ⟨S160000, .i32⟩
  | .hbm, ⟨47, _⟩ => ⟨S160000, .i1⟩
  | .hbm, ⟨48, _⟩ => ⟨S_, .i32⟩
  | .hbm, ⟨49, _⟩ => ⟨S160000, .i32⟩
  | .hbm, ⟨50, _⟩ => ⟨S160000, .i32⟩
  | .hbm, ⟨51, _⟩ => ⟨S160000, .i32⟩
  | .hbm, ⟨52, _⟩ => ⟨S160000x1, .i32⟩
  | .hbm, ⟨53, _⟩ => ⟨S160000x1, .i32⟩
  | .hbm, ⟨54, _⟩ => ⟨S160000x2, .i32⟩
  | .hbm, ⟨55, _⟩ => ⟨S10240x10240, .f32⟩
  | .hbm, ⟨56, _⟩ => ⟨S128x256, .bf16⟩
  | .hbm, ⟨57, _⟩ => ⟨S256x512, .bf16⟩
  | .hbm, ⟨58, _⟩ => ⟨S1x256, .f32⟩
  | .hbm, ⟨59, _⟩ => ⟨S10240x256, .bf16⟩
  | .hbm, ⟨60, _⟩ => ⟨S10240x10240, .bf16⟩
  | .hbm, ⟨61, _⟩ => ⟨S1x512, .f32⟩
  | .hbm, ⟨62, _⟩ => ⟨S10240x512, .f32⟩
  | .hbm, ⟨63, _⟩ => ⟨S10000x512, .f32⟩
  | .local _ .vmem, ⟨0, _⟩ => ⟨S1024x2048, .f32⟩
  | .local _ .vmem, ⟨1, _⟩ => ⟨S1024x2048, .f32⟩
  | .local _ .vmem, ⟨2, _⟩ => ⟨S2048x128, .bf16⟩
  | .local _ .vmem, ⟨3, _⟩ => ⟨S2048x128, .bf16⟩
  | .local _ .vmem, ⟨4, _⟩ => ⟨S128x256, .bf16⟩
  | .local _ .vmem, ⟨5, _⟩ => ⟨S1x256, .f32⟩
  | .local _ .vmem, ⟨6, _⟩ => ⟨S1024x256, .bf16⟩
  | .local _ .vmem, ⟨7, _⟩ => ⟨S1024x256, .bf16⟩
  | .local _ .vmem, ⟨8, _⟩ => ⟨S1024x2048, .bf16⟩
  | .local _ .vmem, ⟨9, _⟩ => ⟨S1024x2048, .bf16⟩
  | .local _ .vmem, ⟨10, _⟩ => ⟨S1024x128, .f32⟩
  | .local _ .vmem, ⟨11, _⟩ => ⟨S1024x5120, .bf16⟩
  | .local _ .vmem, ⟨12, _⟩ => ⟨S1024x5120, .bf16⟩
  | .local _ .vmem, ⟨13, _⟩ => ⟨S5120x256, .bf16⟩
  | .local _ .vmem, ⟨14, _⟩ => ⟨S5120x256, .bf16⟩
  | .local _ .vmem, ⟨15, _⟩ => ⟨S256x512, .bf16⟩
  | .local _ .vmem, ⟨16, _⟩ => ⟨S1x512, .f32⟩
  | .local _ .vmem, ⟨17, _⟩ => ⟨S1024x512, .f32⟩
  | .local _ .vmem, ⟨18, _⟩ => ⟨S1024x512, .f32⟩
  | .local _ .vmem, ⟨19, _⟩ => ⟨S1024x256, .f32⟩
  | _, _ => ⟨S10000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_call0_v0 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_c_3 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_5 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40_0 : Ref sig .tc := ⟨.hbm, 59, rfl⟩
abbrev main_v40_1 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17

abbrev nD : Nat := 1
abbrev τ : Topo := Topo.v7x

variable {F : FTy → Type} [FloatOps F]

abbrev grid0 : Pipeline.Grid := ⟨2, ![10, 5], ![false, false]⟩

def k0_cond2 (i : grid0.Coords) : BitVec 1 :=
  let arg1 : BitVec 32 := BitVec.ofNat 32 (i 1).val
  let c4_i32 : BitVec 32 := 4#32
  let v15 : BitVec 1 := Scalar.cmpi .eq arg1 c4_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![10, 2], ![false, false]⟩

def k1_cond2 (i : grid1.Coords) : BitVec 1 :=
  let arg1 : BitVec 32 := BitVec.ofNat 32 (i 1).val
  let c1_i32 : BitVec 32 := 1#32
  let v13 : BitVec 1 := Scalar.cmpi .eq arg1 c1_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x5120 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S5120x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S256x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x1 : S_.BroadcastsInDim S10000x1 (![] : Fin 0 → Fin S10000x1.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  pads_S10000x128_S10240x128_02400_000 : S10000x128.Pads (![0, 0] : Fin 2 → Nat) ![240, 0] ![0, 0] S10240x128
  h_S_ : 0 < S_.numel
  bitsLt_bf16_f32 : FTy.bits .bf16 < FTy.bits .f32
  bcast_S_S10240x10240 : S_.BroadcastsInDim S10240x10240 (![] : Fin 0 → Fin S10240x10240.rank)
  concatenates_S160000x1_S160000x1_S160000x2_d1 : Shape.Concatenates [S160000x1, S160000x1] S160000x2 1
  shapeCasts_S256_S1x256 : S256.ShapeCasts S1x256
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  packedbf16_S1024x2048_S1024x2048_0_0 : (Rect.unit (s := S1024x2048) ![0, 0] S1024x2048.size inb_S1024x2048_S1024x2048_0_0).PackedRows (EltTy.packing .bf16)
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  iota_S1024x256_d0_w32 : S1024x256.Iotas .tc 32 [0]
  inb_S1024x256_S1024x256_0_0 : ∀ a, (![0, 0] : Fin 2 → Nat) a + S1024x256.size a ≤ S1024x256.size a
  h_S1024x256 : 0 < S1024x256.numel
  packedbf16_S1024x256_S1024x256_0_0 : (Rect.unit (s := S1024x256) ![0, 0] S1024x256.size inb_S1024x256_S1024x256_0_0).PackedRows (EltTy.packing .bf16)
  shapeCasts_S512_S1x512 : S512.ShapeCasts S1x512
  shapeCasts_S1024x256_S1024x256 : S1024x256.ShapeCasts S1024x256
  inb_S1024x5120_S1024x5120_0_0 : ∀ a, (![0, 0] : Fin 2 → Nat) a + S1024x5120.size a ≤ S1024x5120.size a
  h_S1024x5120 : 0 < S1024x5120.numel
  shapeCasts_S1024x5120_S1024x5120 : S1024x5120.ShapeCasts S1024x5120
  inb_S5120x256_S5120x256_0_0 : ∀ a, (![0, 0] : Fin 2 → Nat) a + S5120x256.size a ≤ S5120x256.size a
  h_S5120x256 : 0 < S5120x256.numel
  shapeCasts_S5120x256_S5120x256 : S5120x256.ShapeCasts S5120x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  iota_S1024x512_d0_w32 : S1024x512.Iotas .tc 32 [0]
  inb_S1024x512_S1024x512_0_0 : ∀ a, (![0, 0] : Fin 2 → Nat) a + S1024x512.size a ≤ S1024x512.size a
  h_S1024x512 : 0 < S1024x512.numel
  slices_S10240x512_S10000x512_0_0 : S10240x512.Slices ![0, 0] S10000x512
  gather_S10000x1_S160000x1_S160000x1_1_0_n_n_0_1_11_wf : GatherDims.WF S10000x1 S160000x1 S160000x1 [1] [0] [] [0] [] 1 ![1, 1]
  scatter_S10000x1_S160000x1_S160000x1_1_0_0_1_wf : ScatterDims.WF S10000x1 S160000x1 S160000x1 [1] [0] [0] 1
  dot_S10000x1_S1x128_S10000x128_1_0_0_1_n_n_wf : DotDims.WF S10000x1 S1x128 S10000x128 [1] [0] [0] [1] [] []
  scatter_S10240x10240_S160000x2_S160000_n_01_01_1_wf : ScatterDims.WF S10240x10240 S160000x2 S160000 [] [0, 1] [0, 1] 1
  dot_S1024x2048_S2048x128_S1024x128_1_0_0_1_n_n_wf : DotDims.WF S1024x2048 S2048x128 S1024x128 [1] [0] [0] [1] [] []
  dot_S1024x128_S128x256_S1024x256_1_0_0_1_n_n_wf : DotDims.WF S1024x128 S128x256 S1024x256 [1] [0] [0] [1] [] []
  dot_S1024x5120_S5120x256_S1024x256_1_0_0_1_n_n_wf : DotDims.WF S1024x5120 S5120x256 S1024x256 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S10240x10240.size a
  hwx0_0 : ∀ i : grid0.Coords, EltTy.bits .f32 = 32 ∨ (Rect.block (s := S10240x10240) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S10240x128.size a
  hwx0_1 : ∀ i : grid0.Coords, EltTy.bits .bf16 = 32 ∨ (Rect.block (s := S10240x128) S2048x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S10240x256.size a
  hwx0_4 : ∀ i : grid0.Coords, EltTy.bits .bf16 = 32 ∨ (Rect.block (s := S10240x256) S1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S10240x10240.size a
  hwx0_5 : ∀ i : grid0.Coords, EltTy.bits .bf16 = 32 ∨ (Rect.block (s := S10240x10240) S1024x2048.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x5120.size a ≤ S10240x10240.size a
  hwx1_0 : ∀ i : grid1.Coords, EltTy.bits .bf16 = 32 ∨ (Rect.block (s := S10240x10240) S1024x5120.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5120x256.size a ≤ S10240x256.size a
  hwx1_1 : ∀ i : grid1.Coords, EltTy.bits .bf16 = 32 ∨ (Rect.block (s := S10240x256) S5120x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S256x512.size a
  hwx1_2 : ∀ i : grid1.Coords, EltTy.bits .bf16 = 32 ∨ (Rect.block (s := S256x512) S256x512.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x512.size a ≤ S1x512.size a
  hwx1_3 : ∀ i : grid1.Coords, EltTy.bits .f32 = 32 ∨ (Rect.block (s := S1x512) S1x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x512.size a ≤ S10240x512.size a
  hwx1_4 : ∀ i : grid1.Coords, EltTy.bits .f32 = 32 ∨ (Rect.block (s := S10240x512) S1024x512.size (cc1_transform_4 i) (hinb1_4 i)).WholeWords (EltTy.packing .f32)

variable [Facts₀]

def gather_S10000x1_S160000x1_S160000x1_1_0_n_n_0_1_11 : GatherDims S10000x1 S160000x1 S160000x1 where
  offsetDims := [1]
  collapsedSliceDims := [0]
  operandBatchingDims := []
  startIndicesBatchingDims := []
  startIndexMap := [0]
  indexVectorDim := 1
  sliceSizes := ![1, 1]
  wf := gather_S10000x1_S160000x1_S160000x1_1_0_n_n_0_1_11_wf
def scatter_S10000x1_S160000x1_S160000x1_1_0_0_1 : ScatterDims S10000x1 S160000x1 S160000x1 where
  updateWindowDims := [1]
  insertedWindowDims := [0]
  scatterDimsToOperandDims := [0]
  indexVectorDim := 1
  wf := scatter_S10000x1_S160000x1_S160000x1_1_0_0_1_wf
def dot_S10000x1_S1x128_S10000x128_1_0_0_1_n_n : DotDims S10000x1 S1x128 S10000x128 where
  lhsContracting := [1]
  rhsContracting := [0]
  lhsNonContracting := [0]
  rhsNonContracting := [1]
  lhsBatch := []
  rhsBatch := []
  wf := dot_S10000x1_S1x128_S10000x128_1_0_0_1_n_n_wf
def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x256_S1024x256_1_0_0_1_n_n : DotDims S1024x128 S128x256 S1024x256 where
  lhsContracting := [1]
  rhsContracting := [0]
  lhsNonContracting := [0]
  rhsNonContracting := [1]
  lhsBatch := []
  rhsBatch := []
  wf := dot_S1024x128_S128x256_S1024x256_1_0_0_1_n_n_wf
def dot_S1024x5120_S5120x256_S1024x256_1_0_0_1_n_n : DotDims S1024x5120 S5120x256 S1024x256 where
  lhsContracting := [1]
  rhsContracting := [0]
  lhsNonContracting := [0]
  rhsNonContracting := [1]
  lhsBatch := []
  rhsBatch := []
  wf := dot_S1024x5120_S5120x256_S1024x256_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v36) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v37) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v40_0) S1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v40_1) S1024x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun _ => false | ⟨_ + 6, h⟩ => absurd h (Nat.not_lt.2 (Nat.le_add_left _ _))

abbrev win1_0 : Pipeline.Window sig grid1 :=
  Pipeline.Window.ofSpec (Memref.whole main_v40_1) S1024x5120.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40_0) S5120x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S256x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1024x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S10000x1 : Shape := ⟨2, ![10000, 1]⟩
abbrev S2x160000 : Shape := ⟨2, ![2, 160000]⟩
abbrev S160000 : Shape := ⟨1, ![160000]⟩
abbrev S1x128 : Shape := ⟨2, ![1, 128]⟩
abbrev S128 : Shape := ⟨1, ![128]⟩
abbrev S128x256 : Shape := ⟨2, ![128, 256]⟩
abbrev S256 : Shape := ⟨1, ![256]⟩
abbrev S256x512 : Shape := ⟨2, ![256, 512]⟩
abbrev S512 : Shape := ⟨1, ![512]⟩
abbrev S1x160000 : Shape := ⟨2, ![1, 160000]⟩
abbrev S10000x128 : Shape := ⟨2, ![10000, 128]⟩
abbrev S_ : Shape := ⟨0, ![]⟩
abbrev S160000x1 : Shape := ⟨2, ![160000, 1]⟩
abbrev S160000x128 : Shape := ⟨2, ![160000, 128]⟩
abbrev S10000x256 : Shape := ⟨2, ![10000, 256]⟩
abbrev S160000x256 : Shape := ⟨2, ![160000, 256]⟩
abbrev S1x256 : Shape := ⟨2, ![1, 256]⟩
abbrev S10000x512 : Shape := ⟨2, ![10000, 512]⟩
abbrev S160000x512 : Shape := ⟨2, ![160000, 512]⟩
abbrev S1x512 : Shape := ⟨2, ![1, 512]⟩

abbrev nBuf : Space → Nat
  | .hbm => 81
  | .vmem => 0
  | .smem => 0
  | _ => 0

abbrev bufTy : (tb : Table) → Fin (tcTables nBuf tb) → BufTy
  | .hbm, ⟨0, _⟩ => ⟨S10000x1, .f32⟩
  | .hbm, ⟨1, _⟩ => ⟨S2x160000, .i32⟩
  | .hbm, ⟨2, _⟩ => ⟨S160000, .f32⟩
  | .hbm, ⟨3, _⟩ => ⟨S1x128, .f32⟩
  | .hbm, ⟨4, _⟩ => ⟨S128, .f32⟩
  | .hbm, ⟨5, _⟩ => ⟨S128x256, .f32⟩
  | .hbm, ⟨6, _⟩ => ⟨S256, .f32⟩
  | .hbm, ⟨7, _⟩ => ⟨S256x512, .f32⟩
  | .hbm, ⟨8, _⟩ => ⟨S512, .f32⟩
  | .hbm, ⟨9, _⟩ => ⟨S1x160000, .i32⟩
  | .hbm, ⟨10, _⟩ => ⟨S160000, .i32⟩
  | .hbm, ⟨11, _⟩ => ⟨S1x160000, .i32⟩
  | .hbm, ⟨12, _⟩ => ⟨S160000, .i32⟩
  | .hbm, ⟨13, _⟩ => ⟨S10000x128, .f32⟩
  | .hbm, ⟨14, _⟩ => ⟨S_, .i32⟩
  | .hbm, ⟨15, _⟩ => ⟨S160000, .i32⟩
  | .hbm, ⟨16, _⟩ => ⟨S160000, .i1⟩
  | .hbm, ⟨17, _⟩ => ⟨S_, .i32⟩
  | .hbm, ⟨18, _⟩ => ⟨S160000, .i32⟩
  | .hbm, ⟨19, _⟩ => ⟨S160000, .i32⟩
  | .hbm, ⟨20, _⟩ => ⟨S160000, .i32⟩
  | .hbm, ⟨21, _⟩ => ⟨S160000x1, .i32⟩
  | .hbm, ⟨22, _⟩ => ⟨S160000x128, .f32⟩
  | .hbm, ⟨23, _⟩ => ⟨S160000x1, .f32⟩
  | .hbm, ⟨24, _⟩ => ⟨S160000x128, .f32⟩
  | .hbm, ⟨25, _⟩ => ⟨S160000x128, .f32⟩
  | .hbm, ⟨26, _⟩ => ⟨S_, .f32⟩
  | .hbm, ⟨27, _⟩ => ⟨S10000x128, .f32⟩
  | .hbm, ⟨28, _⟩ => ⟨S160000x1, .i32⟩
  | .hbm, ⟨29, _⟩ => ⟨S10000x128, .f32⟩
  | .hbm, ⟨30, _⟩ => ⟨S1x128, .f32⟩
  | .hbm, ⟨31, _⟩ => ⟨S10000x128, .f32⟩
  | .hbm, ⟨32, _⟩ => ⟨S10000x128, .f32⟩
  | .hbm, ⟨33, _⟩ => ⟨S10000x256, .f32⟩
  | .hbm, ⟨34, _⟩ => ⟨S_, .i32⟩
  | .hbm, ⟨35, _⟩ => ⟨S160000, .i32⟩
  | .hbm, ⟨36, _⟩ => ⟨S160000, .i1⟩
  | .hbm, ⟨37, _⟩ => ⟨S_, .i32⟩
  | .hbm, ⟨38, _⟩ => ⟨S160000, .i32⟩
  | .hbm, ⟨39, _⟩ => ⟨S160000, .i32⟩
  | .hbm, ⟨40, _⟩ => ⟨S160000, .i32⟩
  | .hbm, ⟨41, _⟩ => ⟨S160000x1, .i32⟩
  | .hbm, ⟨42, _⟩ => ⟨S160000x256, .f32⟩
  | .hbm, ⟨43, _⟩ => ⟨S160000x1, .f32⟩
  | .hbm, ⟨44, _⟩ => ⟨S160000x256, .f32⟩
  | .hbm, ⟨45, _⟩ => ⟨S160000x256, .f32⟩
  | .hbm, ⟨46, _⟩ => ⟨S_, .f32⟩
  | .hbm, ⟨47, _⟩ => ⟨S10000x256, .f32⟩
  | .hbm, ⟨48, _⟩ => ⟨S160000x1, .i32⟩
  | .hbm, ⟨49, _⟩ => ⟨S10000x256, .f32⟩
  | .hbm, ⟨50, _⟩ => ⟨S1x256, .f32⟩
  | .hbm, ⟨51, _⟩ => ⟨S10000x256, .f32⟩
  | .hbm, ⟨52, _⟩ => ⟨S10000x256, .f32⟩
  | .hbm, ⟨53, _⟩ => ⟨S10000x512, .f32⟩
  | .hbm, ⟨54, _⟩ => ⟨S_, .i32⟩
  | .hbm, ⟨55, _⟩ => ⟨S160000, .i32⟩
  | .hbm, ⟨56, _⟩ => ⟨S160000, .i1⟩
  | .hbm, ⟨57, _⟩ => ⟨S_, .i32⟩
  | .hbm, ⟨58, _⟩ => ⟨S160000, .i32⟩
  | .hbm, ⟨59, _⟩ => ⟨S160000, .i32⟩
  | .hbm, ⟨60, _⟩ => ⟨S160000, .i32⟩
  | .hbm, ⟨61, _⟩ => ⟨S160000x1, .i32⟩
  | .hbm, ⟨62, _⟩ => ⟨S160000x512, .f32⟩
  | .hbm, ⟨63, _⟩ => ⟨S160000x1, .f32⟩
  | .hbm, ⟨64, _⟩ => ⟨S160000x512, .f32⟩
  | .hbm, ⟨65, _⟩ => ⟨S160000x512, .f32⟩
  | .hbm, ⟨66, _⟩ => ⟨S_, .f32⟩
  | .hbm, ⟨67, _⟩ => ⟨S10000x512, .f32⟩
  | .hbm, ⟨68, _⟩ => ⟨S160000x1, .i32⟩
  | .hbm, ⟨69, _⟩ => ⟨S10000x512, .f32⟩
  | .hbm, ⟨70, _⟩ => ⟨S1x512, .f32⟩
  | .hbm, ⟨71, _⟩ => ⟨S10000x512, .f32⟩
  | .hbm, ⟨72, _⟩ => ⟨S10000x512, .f32⟩
  | .hbm, ⟨73, _⟩ => ⟨S10000x512, .f32⟩
  | .hbm, ⟨74, _⟩ => ⟨S10000x512, .f32⟩
  | .hbm, ⟨75, _⟩ => ⟨S_, .f32⟩
  | .hbm, ⟨76, _⟩ => ⟨S10000x512, .f32⟩
  | .hbm, ⟨77, _⟩ => ⟨S10000x512, .f32⟩
  | .hbm, ⟨78, _⟩ => ⟨S_, .f32⟩
  | .hbm, ⟨79, _⟩ => ⟨S10000x512, .f32⟩
  | .hbm, ⟨80, _⟩ => ⟨S10000x512, .f32⟩
  | _, _ => ⟨S10000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_c_5 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_6 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_7 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S160000x1_S160000x128_0_1 : S160000x1.BroadcastsInDim S160000x128 (![0, 1] : Fin 2 → Fin S160000x128.rank)
  bcast_S_S10000x128 : S_.BroadcastsInDim S10000x128 (![] : Fin 0 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S160000x1_S160000x256_0_1 : S160000x1.BroadcastsInDim S160000x256 (![0, 1] : Fin 2 → Fin S160000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S160000x1_S160000x512_0_1 : S160000x1.BroadcastsInDim S160000x512 (![0, 1] : Fin 2 → Fin S160000x512.rank)
  bcast_S_S10000x512 : S_.BroadcastsInDim S10000x512 (![] : Fin 0 → Fin S10000x512.rank)
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  dot_S10000x1_S1x128_S10000x128_1_0_0_1_n_n_wf : DotDims.WF S10000x1 S1x128 S10000x128 [1] [0] [0] [1] [] []
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  dot_S10000x128_S128x256_S10000x256_1_0_0_1_n_n_wf : DotDims.WF S10000x128 S128x256 S10000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  dot_S10000x256_S256x512_S10000x512_1_0_0_1_n_n_wf : DotDims.WF S10000x256 S256x512 S10000x512 [1] [0] [0] [1] [] []
  gather_S10000x512_S160000x1_S160000x512_1_0_n_n_0_1_1512_wf : GatherDims.WF S10000x512 S160000x1 S160000x512 [1] [0] [] [0] [] 1 ![1, 512]
  scatter_S10000x512_S160000x1_S160000x512_1_0_0_1_wf : ScatterDims.WF S10000x512 S160000x1 S160000x512 [1] [0] [0] 1

variable [Facts₀]

def dot_S10000x1_S1x128_S10000x128_1_0_0_1_n_n : DotDims S10000x1 S1x128 S10000x128 where
  lhsContracting := [1]
  rhsContracting := [0]
  lhsNonContracting := [0]
  rhsNonContracting := [1]
  lhsBatch := []
  rhsBatch := []
  wf := dot_S10000x1_S1x128_S10000x128_1_0_0_1_n_n_wf
def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S10000x256_S256x512_S10000x512_1_0_0_1_n_n : DotDims S10000x256 S256x512 S10000x512 where
  lhsContracting := [1]
  rhsContracting := [0]
  lhsNonContracting := [0]
  rhsNonContracting := [1]
  lhsBatch := []
  rhsBatch := []
  wf := dot_S10000x256_S256x512_S10000x512_1_0_0_1_n_n_wf
def gather_S10000x512_S160000x1_S160000x512_1_0_n_n_0_1_1512 : GatherDims S10000x512 S160000x1 S160000x512 where
  offsetDims := [1]
  collapsedSliceDims := [0]
  operandBatchingDims := []
  startIndicesBatchingDims := []
  startIndexMap := [0]
  indexVectorDim := 1
  sliceSizes := ![1, 512]
  wf := gather_S10000x512_S160000x1_S160000x512_1_0_n_n_0_1_1512_wf
def scatter_S10000x512_S160000x1_S160000x512_1_0_0_1 : ScatterDims S10000x512 S160000x1 S160000x512 where
  updateWindowDims := [1]
  insertedWindowDims := [0]
  scatterDimsToOperandDims := [0]
  indexVectorDim := 1
  wf := scatter_S10000x512_S160000x1_S160000x512_1_0_0_1_wf

class Facts : Prop extends Facts₀ where

variable [Facts]
-- ==== Proof.K.Run.lean ====
/-
  The run of the kernel's @main through its two regions, with the result read back.

  @main is a list of items: three stretches of host operations, the first aggregation pass, one host stretch, the
  second aggregation pass, a last host stretch. Between two items a core holds every unscoped buffer whole at a
  valuation computed from the launch memory (the host stretches' results, and what each region leaves in its output
  arrays). Given a record of each region over those states, the run terminates and the final memory holds the
  result buffer at the last valuation and every argument unchanged.
-/
import proofs.«408395_j7919919694206_3_alg».proof.Proof.Gen.Kernel.Regions

noncomputable section

namespace Cert.Kernel.Run

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The run of @main given the two regions' records: for any rest states the launch makes on every core and that end
    owing nothing, any contents the regions leave and any proof data, every weakly fair execution from memory `m` with
    zero counters terminates, and every final memory holds the RESULT buffer at the last valuation's contents and each
    argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c)) :
    θ_run defs (onTc (τ := τ) (main (F := F))) ⟨m, fun _ => 0, ρ⟩ (fun r => ∀ c : Dev nD,
      r.2.mem ((c.tc : Thread nD τ).loc main_v43) = V7 m outs c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, .rfl, .rfl, hpre0 c, hpost0 c, hpre1 c, hpost1 c, sep_mono .rfl (hE2 c)⟩)
    (hinit := ?_) (QY := fun c s => s.mem ((c.tc : Thread nD τ).loc main_v43) = V7 m outs c main_v43 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v43) (Finset.mem_filter.mpr ⟨StableHlo.devRef_mem_tcRefs main_v43, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c),
        (h (Proc.devRef .tc main_arg2) (Finset.mem_filter.mpr ⟨StableHlo.devRef_mem_tcRefs main_arg2, by decide⟩)).trans (V7_main_arg2 m outs c),
        (h (Proc.devRef .tc main_arg3) (Finset.mem_filter.mpr ⟨StableHlo.devRef_mem_tcRefs main_arg3, by decide⟩)).trans (V7_main_arg3 m outs c),
        (h (Proc.devRef .tc main_arg4) (Finset.mem_filter.mpr ⟨StableHlo.devRef_mem_tcRefs main_arg4, by decide⟩)).trans (V7_main_arg4 m outs c),
        (h (Proc.devRef .tc main_arg5) (Finset.mem_filter.mpr ⟨StableHlo.devRef_mem_tcRefs main_arg5, by decide⟩)).trans (V7_main_arg5 m outs c),
        (h (Proc.devRef .tc main_arg6) (Finset.mem_filter.mpr ⟨StableHlo.devRef_mem_tcRefs main_arg6, by decide⟩)).trans (V7_main_arg6 m outs c),
        (h (Proc.devRef .tc main_arg7) (Finset.mem_filter.mpr ⟨StableHlo.devRef_mem_tcRefs main_arg7, by decide⟩)).trans (V7_main_arg7 m outs c),
        (h (Proc.devRef .tc main_arg8) (Finset.mem_filter.mpr ⟨StableHlo.devRef_mem_tcRefs main_arg8, by decide⟩)).trans (V7_main_arg8 m outs c)⟩
    · iexact HSI

end Cert.Kernel.Run

end
-- ==== Proof.K.R0Data.lean ====
/-
  Region 0 (the first aggregation pass): what the pipeline's buffers hold point by point.

  The grid is 10 row tiles by 5 column tiles of the dense edge-weight operator, walked row tile by row tile.
  At a point the body rewrites the operator's tile in the narrow format into the second output's buffer, adds
  the tile's product with the matching rows of the previous layer's features to an accumulator kept in scratch
  (reset at the first column tile of a row tile), and at the last column tile of a row tile projects the
  accumulator through the weights, adds the bias, zeroes the rows past the node count and stores the result
  into the first output's buffer. The accumulator after point `n` is therefore a recursion on `n`
  (`acc0`): the partial product sum over the column tiles of the current row tile seen so far.
-/
import proofs.«408395_j7919919694206_3_alg».proof.Proof.Gen.Kernel.Skeleton
import proofs.«408395_j7919919694206_3_alg».proof.Proof.Gen.Kernel.Launch
import proofs.«408395_j7919919694206_3_alg».proof.Proof.Gen.Kernel.Points
import Idealize.ShloMosaic.Lib.Tactic
import Idealize.ShloMosaic.Lib.Pipeline.Kit
import Idealize.ShloMosaic.Lib.Pipeline.Frame
import Idealize.ShloMosaic.Lib.Pipeline.Regions

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c.tc : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at point `n`: the point's product added to zero at the first column tile
    of a row tile (`n % 5 = 0`) and to what the point before left otherwise. -/
def acc0 (c : Dev nD) : (n : Nat) → (h : n < cfg0.N) → Vec F S1024x128 .f32
  | 0, h => k0_pay3 (iblk0 V c 0 ⟨0, h⟩) (k0_pay2 (F := F)) (iblk0 V c 1 ⟨0, h⟩)
  | n + 1, h => k0_pay3 (iblk0 V c 0 ⟨n + 1, h⟩)
      (if (n + 1) % 5 = 0 then (k0_pay2 (F := F)) else acc0 c n (Nat.lt_of_succ_lt h)) (iblk0 V c 1 ⟨n + 1, h⟩)

/-- What the scratch accumulator holds BEFORE point `t` (`t` ranging to the point count inclusive): nothing
    stated before the first point, else the accumulator after point `t - 1`. -/
def AccIs (c : Dev nD) (t : Fin (cfg0.N + 1)) (f : Buf (Elt F) ((c : Thread nD τ).loc cc0_scratch0)) : Prop :=
  ∀ (n : Nat) (h : n < cfg0.N), t.val = n + 1 → f = acc0 V c n h

/-- The core's scoped buffers other than this region's staging buffers and its accumulator: the second
    region's staging buffers and accumulator, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's invariant before point `t`: the accumulator's buffer whole at contents that are the recursion's
    (`AccIs`), the other scoped buffers at some contents, the generator register at some state. -/
def Φ0 (c : Dev nD) (t : Fin (cfg0.N + 1)) : sProp 𝕄 :=
  iprop((∃ f : Buf (Elt F) ((c : Thread nD τ).loc cc0_scratch0), ⌜AccIs V c t f⌝ ∗ ((c : Thread nD τ).loc cc0_scratch0) ↦{fullShare} f)
    ∗ others0 (F := F) c ∗ ∃ r, prngReg c r)

/-- The proof data of region 0 on core `c`: the arrays as the region finds them; after the body at point `t`
    each input's buffer at its block, the second output's at the tile in the narrow format, the first output's
    at the projected accumulator (stated at every point, read only where the block is written back); the
    invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay4 (grid0.coords t) (acc0 V c t.val t.isLt) (iblk0 V c 2 t) (iblk0 V c 3 t)
    | ⟨5, _⟩ => k0_pay1 (iblk0 V c 0 t)
  Φ t := Φ0 V c t
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay4 (grid0.coords t) (acc0 V c t.val t.isLt) (iblk0 V c 2 t) (iblk0 V c 3 t) := by dsimp only [dat0]
theorem after0_5 (c : Dev nD) (t : Fin cfg0.N) : (dat0 V c).after 5 t = k0_pay1 (iblk0 V c 0 t) := by dsimp only [dat0]
theorem Φ_eq0 (c : Dev nD) (t : Fin (cfg0.N + 1)) : (dat0 V c).Φ t = Φ0 V c t := by dsimp only [dat0]

end Cert.Kernel.R0

end
-- ==== Proof.K.R0Frame.lean ====
/-
  Region 0 (the first aggregation pass): the body's triple at every grid point.

  The grid is 10 row tiles by 5 column tiles. At every point the body rewrites the operator's tile in the narrow
  format into the second output's buffer and adds the tile's product with the matching feature rows to the
  accumulator kept in scratch; at the first column tile of a row tile it first resets the accumulator, and at the
  last one it projects the accumulator, adds the bias, masks the rows past the node count and stores the result
  into the first output's buffer. So there are three control cases, by the column-tile coordinate: first (0),
  middle (1, 2, 3) and last (4). Each case's run is stated once over arbitrary whole staging memrefs and contents;
  the obligation at a point picks the case by the point's position modulo 5 and reads the accumulator's contents
  off the recursion `acc0`.
-/
import proofs.«408395_j7919919694206_3_alg».proof.Proof.K.R0Data
import proofs.«408395_j7919919694206_3_alg».proof.Proof.Gen.Kernel.Skeleton
import proofs.«408395_j7919919694206_3_alg».proof.Proof.Gen.Kernel.Launch
import proofs.«408395_j7919919694206_3_alg».proof.Proof.Gen.Kernel.Points
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value
import Idealize.ShloMosaic.Lib.Pipeline.Regions

noncomputable section

namespace Cert.Kernel.R0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c.tc : Thread nD τ).loc b))

/-! ## What the body finds in the input windows' buffers -/

/-- An input window's current staging buffer holds its block at every point, fetched there or not: unfetched, the
    block index has not moved and the body left the block in place. The four input windows are uncut and never idle. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The body's two conditions, in closed form over the grid -/

/-- The condition of the first conditional (reset the accumulator): the column-tile coordinate is 0. -/
abbrev cond1 (i : grid0.Coords) : Prop :=
  (Scalar.cmpi .ne (Scalar.extui (Scalar.cmpi .eq (BitVec.ofNat 32 (i 1).val) 0#32)) 0#32) = 1#1
/-- The condition of the second conditional (project and store the first output): the column-tile coordinate is 4. -/
abbrev cond2 (i : grid0.Coords) : Prop := k0_cond2 i = 1#1

/-- The first holds at the points ≡ 0 (mod 5), -/
theorem hcond1 : ∀ t : Fin cfg0.N, cond1 (grid0.coords t) ↔ t.val % 5 = 0 :=
  (by decide +kernel : ∀ t : Fin grid0.N, cond1 (grid0.coords t) ↔ t.val % 5 = 0)
/-- the second at the points ≡ 4 (mod 5): both decided over the grid's 50 points. -/
theorem hcond2 : ∀ t : Fin cfg0.N, cond2 (grid0.coords t) ↔ t.val % 5 = 4 :=
  (by decide +kernel : ∀ t : Fin grid0.N, cond2 (grid0.coords t) ↔ t.val % 5 = 4)

/-- The first output's window is idle exactly where the second condition fails. -/
theorem idle0_4 : ∀ t : Fin cfg0.N, cfg0.idle 4 (grid0.coords t) = true ↔ ¬ t.val % 5 = 4 :=
  (by decide +kernel : ∀ t : Fin grid0.N, idle0 4 (grid0.coords t) = true ↔ ¬ t.val % 5 = 4)

/-! ## Whole-buffer accesses

Every access of the body is through the unit-stride rectangle at offset zero of the buffer's own sizes. -/

theorem hz2 : (![0, 0] : Fin 2 → Nat) = fun _ => 0 := funext fun a => by fin_cases a <;> rfl

section Whole
variable {sg : RefSig} {κ : Kind} {sp : Space} {S : Shape} {e : EltTy} {Val : EltTy → Type}

/-- A load through it reads the view's contents. -/
theorem readAt_unit_zero (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- A store through it, last, leaves its payload whatever was stored before. -/
theorem read_writes_cons_unit_zero [∀ e, Nonempty (Val e)] (v : View sg κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)

end Whole

/-! ## The body's run, case by case

Each on whole staging memrefs: the inputs' at contents `x0 … x3` come back as they were; the second output's buffer
ends at the tile in the narrow format; the accumulator's and the first output's as the case says. The printed
function is its skeleton: its loads and stores in order over the named payloads. What each buffer ends holding is
read off the last store through it, a whole-buffer one; a load after such a store reads the store's payload. -/

set_option maxHeartbeats 1000000 in
/-- FIRST column tile (the reset taken, the projection not): the accumulator, from anything, ends at the tile's
    product added to zero; the first output's buffer is not touched. -/
theorem run_first (c : Dev nD) (E : Set ℕ) (i : grid0.Coords) (arg2 : Memref sig .tc .vmem S1024x2048 .f32) (harg2 : arg2.IsWhole) (arg3 : Memref sig .tc .vmem S2048x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1024x256 .bf16) (harg6 : arg6.IsWhole) (arg7 : Memref sig .tc .vmem S1024x2048 .bf16) (harg7 : arg7.IsWhole) (arg8 : Memref sig .tc .vmem S1024x128 .f32) (harg8 : arg8.IsWhole)
    (hc1 : cond1 i) (hc2 : ¬ cond2 i)
    (x0 : Vec F S1024x2048 .f32) (x1 : Vec F S2048x128 .bf16) (x2 : Vec F S128x256 .bf16) (x3 : Vec F S1x256 .f32)
    (x4 : Vec F S1024x256 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare (k0_pay1 x0)
            ∗ owns (c : Thread nD τ) arg8 fullShare (k0_pay3 x0 (k0_pay2 (F := F)) x1)) -∗ K ⟨⟩))
      ⊢ wp frame (wpE (defs₀ (F := F)) Variants.none c none) E (cc0__agg_kernel_fused_cast i arg2 harg2 arg3 harg3 arg4 harg4 arg5 harg5 arg6 harg6 arg7 harg7 arg8 harg8) K := by
  simp only [cc0__agg_kernel_fused_cast_eq_skeleton]; unfold cc0__agg_kernel_fused_cast_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_cons_unit_zero _ _ hz2, readAt_unit_zero _ _ hz2]
  iexists _; isplitr
  swap; · iexact H8
  ipureintro
  sl_unfold_run_names
  rw [read_writes_cons_unit_zero _ _ hz2, View.readCov_unit_zero _ hz2, readAt_unit_zero _ _ hz2, readAt_unit_zero _ _ hz2]

set_option maxHeartbeats 1000000 in
/-- MIDDLE column tiles (neither conditional taken): the accumulator goes from `xs` to the tile's product added to
    `xs`; the first output's buffer is not touched. -/
theorem run_mid (c : Dev nD) (E : Set ℕ) (i : grid0.Coords) (arg2 : Memref sig .tc .vmem S1024x2048 .f32) (harg2 : arg2.IsWhole) (arg3 : Memref sig .tc .vmem S2048x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1024x256 .bf16) (harg6 : arg6.IsWhole) (arg7 : Memref sig .tc .vmem S1024x2048 .bf16) (harg7 : arg7.IsWhole) (arg8 : Memref sig .tc .vmem S1024x128 .f32) (harg8 : arg8.IsWhole)
    (hc1 : ¬ cond1 i) (hc2 : ¬ cond2 i)
    (x0 : Vec F S1024x2048 .f32) (x1 : Vec F S2048x128 .bf16) (x2 : Vec F S128x256 .bf16) (x3 : Vec F S1x256 .f32)
    (x4 : Vec F S1024x256 .bf16) (xs : Vec F S1024x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare (k0_pay1 x0)
            ∗ owns (c : Thread nD τ) arg8 fullShare (k0_pay3 x0 xs x1)) -∗ K ⟨⟩))
      ⊢ wp frame (wpE (defs₀ (F := F)) Variants.none c none) E (cc0__agg_kernel_fused_cast i arg2 harg2 arg3 harg3 arg4 harg4 arg5 harg5 arg6 harg6 arg7 harg7 arg8 harg8) K := by
  simp only [cc0__agg_kernel_fused_cast_eq_skeleton]; unfold cc0__agg_kernel_fused_cast_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, Hk⟩
  subst hf0; subst hf1; subst hf2; subst hf3; subst hf4; subst hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_cons_unit_zero _ _ hz2, readAt_unit_zero _ _ hz2]
  iexists _; isplitr
  swap; · iexact H8
  ipureintro
  rw [read_writes_cons_unit_zero _ _ hz2, readAt_unit_zero _ _ hz2, readAt_unit_zero _ _ hz2, readAt_unit_zero _ _ hz2]

set_option maxHeartbeats 1000000 in
/-- LAST column tile (the reset not taken, the projection taken): the accumulator goes from `xs` to the tile's
    product added to `xs`, and the first output's buffer, from anything, ends at the projection of that. -/
theorem run_last (c : Dev nD) (E : Set ℕ) (i : grid0.Coords) (arg2 : Memref sig .tc .vmem S1024x2048 .f32) (harg2 : arg2.IsWhole) (arg3 : Memref sig .tc .vmem S2048x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1024x256 .bf16) (harg6 : arg6.IsWhole) (arg7 : Memref sig .tc .vmem S1024x2048 .bf16) (harg7 : arg7.IsWhole) (arg8 : Memref sig .tc .vmem S1024x128 .f32) (harg8 : arg8.IsWhole)
    (hc1 : ¬ cond1 i) (hc2 : cond2 i)
    (x0 : Vec F S1024x2048 .f32) (x1 : Vec F S2048x128 .bf16) (x2 : Vec F S128x256 .bf16) (x3 : Vec F S1x256 .f32)
    (xs : Vec F S1024x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay4 i (k0_pay3 x0 xs x1) x2 x3) ∗ owns (c : Thread nD τ) arg7 fullShare (k0_pay1 x0)
            ∗ owns (c : Thread nD τ) arg8 fullShare (k0_pay3 x0 xs x1)) -∗ K ⟨⟩))
      ⊢ wp frame (wpE (defs₀ (F := F)) Variants.none c none) E (cc0__agg_kernel_fused_cast i arg2 harg2 arg3 harg3 arg4 harg4 arg5 harg5 arg6 harg6 arg7 harg7 arg8 harg8) K := by
  simp only [cc0__agg_kernel_fused_cast_eq_skeleton]; unfold cc0__agg_kernel_fused_cast_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f8, %hf8, H8⟩, Hk⟩
  subst hf0; subst hf1; subst hf2; subst hf3; subst hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_writes_cons_unit_zero _ _ hz2, View.readCov_unit_zero _ hz2, readAt_unit_zero _ _ hz2,
      readAt_unit_zero _ _ hz2, readAt_unit_zero _ _ hz2, readAt_unit_zero _ _ hz2, readAt_unit_zero _ _ hz2]
  isplitl [H5]
  · iexists _; isplitr
    swap; · iexact H5
    ipureintro
    rw [read_writes_cons_unit_zero _ _ hz2, readAt_unit_zero _ _ hz2]
  iexists _; isplitr
  swap; · iexact H8
  ipureintro
  sl_unfold_run_names
  rw [read_writes_cons_unit_zero _ _ hz2, readAt_unit_zero _ _ hz2, readAt_unit_zero _ _ hz2, readAt_unit_zero _ _ hz2]

/-! ## The accumulator's recursion, one step -/

/-- After a point at the first column tile the accumulator holds the tile's product added to zero, -/
theorem accIs_first (c : Dev nD) (t : Fin cfg0.N) (h0 : t.val % 5 = 0) :
    AccIs V c t.succ (k0_pay3 (iblk0 V c 0 t) (k0_pay2 (F := F)) (iblk0 V c 1 t)) := by
  obtain ⟨m, hm⟩ := t
  intro n h e
  have hn : m = n := by simpa using e
  subst hn
  cases m with
  | zero => rw [acc0]
  | succ k => rw [acc0, if_pos h0]

/-- and after any other point the tile's product added to what the point before left. -/
theorem accIs_next (c : Dev nD) (t : Fin cfg0.N) (h0 : ¬ t.val % 5 = 0)
    (f : Buf (Elt F) ((c : Thread nD τ).loc cc0_scratch0)) (hf : AccIs V c t.castSucc f) :
    AccIs V c t.succ (k0_pay3 (iblk0 V c 0 t) f (iblk0 V c 1 t)) := by
  obtain ⟨m, hm⟩ := t
  intro n h e
  have hn : m = n := by simpa using e
  subst hn
  cases m with
  | zero => exact absurd (Nat.zero_mod 5) h0
  | succ k => rw [acc0, if_neg h0, hf k (Nat.lt_of_succ_lt hm) rfl]

/-- The invariant with the accumulator's buffer as a whole memref owned at its contents. -/
theorem Φ0_owns (c : Dev nD) (t : Fin (cfg0.N + 1)) :
    Φ0 V c t = iprop((∃ f : Buf (Elt F) ((c : Thread nD τ).loc cc0_scratch0), ⌜AccIs V c t f⌝ ∗ owns (c : Thread nD τ) (Memref.whole cc0_scratch0) fullShare f)
      ∗ others0 (F := F) c ∗ ∃ r, prngReg c r) := by
  unfold Φ0; simp only [owns_whole]

/-! ## The body obligation, at a generic point -/

/-- The inputs' windows and the second output's are never idle; -/
theorem live0_0 (t : Fin cfg0.N) : cfg0.idle 0 (grid0.coords t) = false := rfl
theorem live0_1 (t : Fin cfg0.N) : cfg0.idle 1 (grid0.coords t) = false := rfl
theorem live0_2 (t : Fin cfg0.N) : cfg0.idle 2 (grid0.coords t) = false := rfl
theorem live0_3 (t : Fin cfg0.N) : cfg0.idle 3 (grid0.coords t) = false := rfl
theorem live0_5 (t : Fin cfg0.N) : cfg0.idle 5 (grid0.coords t) = false := rfl

/-- so the body hands each back at the contents the proof data state: the inputs' blocks as found, the tile in the
    narrow format. -/
theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2 (c : Dev nD) (t : Fin cfg0.N) :
    (dat0 V c).leavesExact 2 t = owns (c : Thread nD τ) (st0_2 t) fullShare (iblk0 V c 2 t) := by
  unfold Dat.leavesExact; rw [live0_2 t, after0_2]
theorem leaves0_3 (c : Dev nD) (t : Fin cfg0.N) :
    (dat0 V c).leavesExact 3 t = owns (c : Thread nD τ) (st0_3 t) fullShare (iblk0 V c 3 t) := by
  unfold Dat.leavesExact; rw [live0_3 t, after0_3]
theorem leaves0_5 (c : Dev nD) (t : Fin cfg0.N) :
    (dat0 V c).leavesExact 5 t = owns (c : Thread nD τ) (st0_5 t) fullShare (k0_pay1 (iblk0 V c 0 t)) := by
  unfold Dat.leavesExact; rw [live0_5 t, after0_5]

/-- The first output's window is live at the last column tile, where the body hands it back at the projected
    accumulator, -/
theorem leaves0_4_last (c : Dev nD) (t : Fin cfg0.N) (h4 : t.val % 5 = 4) :
    (dat0 V c).leavesExact 4 t = owns (c : Thread nD τ) (st0_4 t) fullShare
      (k0_pay4 (grid0.coords t) (acc0 V c t.val t.isLt) (iblk0 V c 2 t) (iblk0 V c 3 t)) := by
  unfold Dat.leavesExact
  rw [show cfg0.idle 4 (grid0.coords t) = false from Bool.eq_false_iff.mpr fun h => (idle0_4 t).mp h h4, after0_4]

/-- and idle and not written back elsewhere, where the body hands it back as found. -/
theorem leaves0_4_idle (c : Dev nD) (t : Fin cfg0.N) (h4 : ¬ t.val % 5 = 4) :
    (dat0 V c).leavesExact 4 t = iprop(∃ d, owns (c : Thread nD τ) (st0_4 t) fullShare ((dat0 V c).before 4 t d)) :=
  Dat.leavesExact_idle (dat0 V c) 4 t ((idle0_4 t).mpr h4) (Bool.eq_false_iff.mpr fun h => h4 ((flush0_4 t).mp h))

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 2000000 in
/-- The body at any point. The inputs' memrefs hold their blocks; the point's position modulo 5 says which case it
    is in, and that case's run applies. The invariant hands the body the accumulator at what the point before left
    (at anything at a first column tile) and takes it back at this point's step of the recursion; the other scoped
    buffers, the generator register and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    Φ_eq0, Φ_eq0, Φ0_owns, Φ0_owns, leaves0_0, leaves0_1, leaves0_2, leaves0_3, leaves0_5]
  by_cases h0 : t.val % 5 = 0
  · have h4 : ¬ t.val % 5 = 4 := by omega
    rw [leaves0_4_idle V c t h4]
    iintro ⟨⟨⟨%f, -, HS⟩, Hoth, Hg⟩, Ho, ⟨%d0, H0⟩, ⟨%d1, H1⟩, ⟨%d2, H2⟩, ⟨%d3, H3⟩, ⟨%d4, H4⟩, ⟨%d5, H5⟩⟩
    iapply (run_first c Set.univ (grid0.coords t) _ _ _ _ _ _ _ _ _ _ _ _ _ _ ((hcond1 t).mpr h0) (fun h => h4 ((hcond2 t).mp h))
      (iblk0 V c 0 t) (iblk0 V c 1 t) (iblk0 V c 2 t) (iblk0 V c 3 t) ((dat0 V c).before 4 t d4) _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, H5, HS⟩
    isplitl [HS Hoth Hg]
    · isplitl [HS]
      · iexists _; isplitr
        swap; · iexact HS
        ipureintro; exact accIs_first V c t h0
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexists d4; iexact H4
    iexact H5
  · by_cases h4 : t.val % 5 = 4
    · rw [leaves0_4_last V c t h4]
      iintro ⟨⟨⟨%f, %hf, HS⟩, Hoth, Hg⟩, Ho, ⟨%d0, H0⟩, ⟨%d1, H1⟩, ⟨%d2, H2⟩, ⟨%d3, H3⟩, ⟨%d4, H4⟩, ⟨%d5, H5⟩⟩
      have hacc : k0_pay3 (iblk0 V c 0 t) f (iblk0 V c 1 t) = acc0 V c t.val t.isLt :=
        accIs_next V c t h0 f hf t.val t.isLt (Fin.val_succ t)
      rw [← hacc]
      iapply (run_last c Set.univ (grid0.coords t) _ _ _ _ _ _ _ _ _ _ _ _ _ _ (fun h => h0 ((hcond1 t).mp h)) ((hcond2 t).mpr h4)
        (iblk0 V c 0 t) (iblk0 V c 1 t) (iblk0 V c 2 t) (iblk0 V c 3 t) f _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hoth Hg]
      · isplitl [HS]
        · iexists _; isplitr
          swap; · iexact HS
          ipureintro; exact accIs_next V c t h0 f hf
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [leaves0_4_idle V c t h4]
      iintro ⟨⟨⟨%f, %hf, HS⟩, Hoth, Hg⟩, Ho, ⟨%d0, H0⟩, ⟨%d1, H1⟩, ⟨%d2, H2⟩, ⟨%d3, H3⟩, ⟨%d4, H4⟩, ⟨%d5, H5⟩⟩
      iapply (run_mid c Set.univ (grid0.coords t) _ _ _ _ _ _ _ _ _ _ _ _ _ _ (fun h => h0 ((hcond1 t).mp h)) (fun h => h4 ((hcond2 t).mp h))
        (iblk0 V c 0 t) (iblk0 V c 1 t) (iblk0 V c 2 t) (iblk0 V c 3 t) ((dat0 V c).before 4 t d4) f _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hoth Hg]
      · isplitl [HS]
        · iexists _; isplitr
          swap; · iexact HS
          ipureintro; exact accIs_next V c t h0 f hf
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexists d4; iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the region and out of it -/

/-- What the launch hands the region is the invariant before the first point: nothing is stated of the accumulator there. -/
theorem hin0 (c : Dev nD) :
    iprop((∃ r, prngReg c r) ∗ Pipeline.scopedRest (Ix := Unit) (Name := ℕ) (U := UR sig nD τ) (Lvl := ℕ) (Val := Elt F) spec0 c)
      ⊢ (dat0 (F := F) V c).Φ 0 := by
  rw [Φ_eq0, scopedRest0_eq]; unfold Φ0 others0
  iintro ⟨Hg, ⟨%f, Hs⟩, Hrest⟩
  isplitl [Hs]
  · iexists f; isplitr
    · ipureintro; intro n h e; exact absurd e (by simp)
    iexact Hs
  isplitl [Hrest]; · iexact Hrest
  iexact Hg

/-- After the last point the invariant gives it back: the accumulator's named contents are forgotten. -/
theorem hout0 (c : Dev nD) :
    (dat0 (F := F) V c).Φ (Fin.last cfg0.N)
      ⊢ iprop((∃ r, prngReg c r) ∗ Pipeline.scopedRest (Ix := Unit) (Name := ℕ) (U := UR sig nD τ) (Lvl := ℕ) (Val := Elt F) spec0 c) := by
  rw [Φ_eq0, scopedRest0_eq]; unfold Φ0 others0
  iintro ⟨⟨%f, -, Hs⟩, Hrest, Hg⟩
  isplitl [Hg]; · iexact Hg
  isplitl [Hs]; · iexists f; iexact Hs
  iexact Hrest

/-- info: 'Cert.Kernel.R0.body_obligation0' depends on axioms: [propext, Classical.choice, Quot.sound] -/
#guard_msgs in #print axioms body_obligation0
/-- info: 'Cert.Kernel.R0.hin0' depends on axioms: [propext, Classical.choice, Quot.sound] -/
#guard_msgs in #print axioms hin0
/-- info: 'Cert.Kernel.R0.hout0' depends on axioms: [propext, Classical.choice, Quot.sound] -/
#guard_msgs in #print axioms hout0

end Cert.Kernel.R0

end
-- ==== Proof.K.R1Data.lean ====
/-
  Region 1 (the second aggregation pass): what the pipeline's buffers hold point by point.

  The grid is 10 row tiles by 2 column tiles of the dense edge-weight operator in the narrow format. At a point
  the body adds the tile's product with the matching rows of the previous layer's features to an accumulator
  kept in scratch (reset at the first column tile of a row tile), and at the last column tile projects the
  accumulator through the weights, adds the bias, applies the logistic function, zeroes the rows past the node
  count and stores the result into the output's buffer. The accumulator after point `n` is a recursion on
  `n` (`acc1`).
-/
import proofs.«408395_j7919919694206_3_alg».proof.Proof.Gen.Kernel.Skeleton
import proofs.«408395_j7919919694206_3_alg».proof.Proof.Gen.Kernel.Launch
import proofs.«408395_j7919919694206_3_alg».proof.Proof.Gen.Kernel.Points
import Idealize.ShloMosaic.Lib.Tactic
import Idealize.ShloMosaic.Lib.Pipeline.Kit
import Idealize.ShloMosaic.Lib.Pipeline.Frame
import Idealize.ShloMosaic.Lib.Pipeline.Regions

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c.tc : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at point `n`: the point's product added to zero at the first column tile
    of a row tile (`n % 2 = 0`) and to what the point before left otherwise. -/
def acc1 (c : Dev nD) : (n : Nat) → (h : n < cfg1.N) → Vec F S1024x256 .f32
  | 0, h => k1_pay2 (k1_pay1 (F := F)) (iblk1 V c 0 ⟨0, h⟩) (iblk1 V c 1 ⟨0, h⟩)
  | n + 1, h => k1_pay2 (if (n + 1) % 2 = 0 then (k1_pay1 (F := F)) else acc1 c n (Nat.lt_of_succ_lt h))
      (iblk1 V c 0 ⟨n + 1, h⟩) (iblk1 V c 1 ⟨n + 1, h⟩)

/-- What the scratch accumulator holds BEFORE point `t`: nothing stated before the first point, else the
    accumulator after point `t - 1`. -/
def AccIs (c : Dev nD) (t : Fin (cfg1.N + 1)) (f : Buf (Elt F) ((c : Thread nD τ).loc cc1_scratch0)) : Prop :=
  ∀ (n : Nat) (h : n < cfg1.N), t.val = n + 1 → f = acc1 V c n h

/-- The core's scoped buffers other than this region's staging buffers and its accumulator: the first region's
    staging buffers and accumulator, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- The region's invariant before point `t`: the other scoped buffers at some contents, the accumulator's buffer
    whole at contents that are the recursion's (`AccIs`), the generator register at some state. -/
def Φ1 (c : Dev nD) (t : Fin (cfg1.N + 1)) : sProp 𝕄 :=
  iprop(others1 (F := F) c
    ∗ (∃ f : Buf (Elt F) ((c : Thread nD τ).loc cc1_scratch0), ⌜AccIs V c t f⌝ ∗ ((c : Thread nD τ).loc cc1_scratch0) ↦{fullShare} f)
    ∗ ∃ r, prngReg c r)

/-- The proof data of region 1 on core `c`: the arrays as the region finds them; after the body at point `t`
    each input's buffer at its block, the output's at the projected accumulator (stated at every point, read
    only where the block is written back); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (grid1.coords t) (acc1 V c t.val t.isLt) (iblk1 V c 2 t) (iblk1 V c 3 t)
  Φ t := Φ1 V c t
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (grid1.coords t) (acc1 V c t.val t.isLt) (iblk1 V c 2 t) (iblk1 V c 3 t) := by dsimp only [dat1]
theorem Φ_eq1 (c : Dev nD) (t : Fin (cfg1.N + 1)) : (dat1 V c).Φ t = Φ1 V c t := by dsimp only [dat1]

end Cert.Kernel.R1

end
-- ==== Proof.K.R1Frame.lean ====
/-
  Region 1 (the second aggregation pass): the body's triple at every grid point, and the invariant at the region's
  two ends.

  The grid is 10 row tiles by 2 column tiles, and the body branches twice on the column tile. At the first column
  tile of a row tile it resets the accumulator to zero, adds the tile's product with the matching feature rows, and
  stores nothing into the output's buffer, which it hands back as it found it. At the last column tile it adds the
  tile's product to what the point before left, then projects the accumulator through the weights, adds the bias,
  applies the logistic function, zeroes the rows past the node count and stores that into the output's buffer. Every
  load and store is through the whole buffer, so a load reads the contents and a store leaves its payload.

  Each control case is one triple on whole buffers, with the two conditions decided from the case's hypothesis; the
  conditions are decided in closed form over the grid (the column tile is the point's position modulo 2). At a generic
  point the two cases are joined by the parity of the position: the accumulator's contents before the point are the
  recursion's value at the point before (`AccIs`), and after it the recursion's value at the point (`acc1` unfolded one
  step). Before the first point nothing is stated of the accumulator, and after the last its contents are forgotten.
-/
import proofs.«408395_j7919919694206_3_alg».proof.Proof.K.R1Data
import Idealize.ShloMosaic.Lib.Pipeline.FrameBody
import Idealize.ShloMosaic.Lib.Pipeline.Value

noncomputable section

namespace Cert.Kernel.R1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition (reset the accumulator), from the grid coordinates. -/
abbrev cond1_1 (i : grid1.Coords) : Prop :=
  (Scalar.cmpi .ne (Scalar.extui (Scalar.cmpi .eq (BitVec.ofNat 32 (i 1).val) 0#32)) 0#32) = 1#1

/-- It holds exactly at the first column tile of a row tile. -/
theorem hcond1_1 : ∀ t : Fin cfg1.N, cond1_1 (grid1.coords t) ↔ t.val % 2 = 0 :=
  (by decide +kernel : ∀ t : Fin grid1.N, cond1_1 (grid1.coords t) ↔ t.val % 2 = 0)

/-- The second conditional's condition (project and store) holds exactly at the last column tile. -/
theorem hcond1_2 : ∀ t : Fin cfg1.N, k1_cond2 (grid1.coords t) = 1#1 ↔ t.val % 2 = 1 :=
  (by decide +kernel : ∀ t : Fin grid1.N, k1_cond2 (grid1.coords t) = 1#1 ↔ t.val % 2 = 1)

/-- The zero offsets, however spelt. -/
theorem hz2 : (![0, 0] : Fin 2 → Nat) = fun _ => 0 := funext fun a => by fin_cases a <;> rfl

set_option maxHeartbeats 1000000 in
/-- The body where the first conditional is taken and the second is not: the inputs and the idle output are handed back
    as found, the accumulator ends at the point's product added to zero. -/
theorem run1_reset (c : Dev nD) (E : Set ℕ) (i : grid1.Coords)
    (arg2 : Memref sig .tc .vmem S1024x5120 .bf16) (harg2 : arg2.IsWhole)
    (arg3 : Memref sig .tc .vmem S5120x256 .bf16) (harg3 : arg3.IsWhole)
    (arg4 : Memref sig .tc .vmem S256x512 .bf16) (harg4 : arg4.IsWhole)
    (arg5 : Memref sig .tc .vmem S1x512 .f32) (harg5 : arg5.IsWhole)
    (arg6 : Memref sig .tc .vmem S1024x512 .f32) (harg6 : arg6.IsWhole)
    (arg7 : Memref sig .tc .vmem S1024x256 .f32) (harg7 : arg7.IsWhole)
    (hc1 : cond1_1 i) (hc2 : ¬ k1_cond2 i = 1#1)
    (x0 : Vec F S1024x5120 .bf16) (x1 : Vec F S5120x256 .bf16) (x2 : Vec F S256x512 .bf16) (x3 : Vec F S1x512 .f32)
    (xi4 : Vec F S1024x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xi4
            ∗ owns (c : Thread nD τ) arg7 fullShare (k1_pay2 (k1_pay1 (F := F)) x0 x1)) -∗ K ⟨⟩))
      ⊢ wp frame (wpE (defs₀ (F := F)) Variants.none c none) E
          (cc1__agg_kernel_plain i arg2 harg2 arg3 harg3 arg4 harg4 arg5 harg5 arg6 harg6 arg7 harg7) K := by
  simp only [cc1__agg_kernel_plain_eq_skeleton]; unfold cc1__agg_kernel_plain_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H7
  ipureintro
  sl_unfold_run_names
  rw [View.read_writes_eq_canon _ _ _ (fun y => ⟨_, List.mem_cons_self, View.mem_set_unit_zero hz2 inb_S1024x256_S1024x256_0_0 y⟩),
    View.canon_cons_unit_zero hz2, View.readAt_eq_ld, View.readAt_eq_ld, View.ld_unit_zero hz2, View.ld_unit_zero hz2,
    View.readCov_unit_zero _ hz2]

set_option maxHeartbeats 1000000 in
/-- The body where the first conditional is not taken and the second is: the inputs are handed back as found, the
    accumulator ends at the point's product added to what it held, and the output's buffer at the projection of that. -/
theorem run1_step (c : Dev nD) (E : Set ℕ) (i : grid1.Coords)
    (arg2 : Memref sig .tc .vmem S1024x5120 .bf16) (harg2 : arg2.IsWhole)
    (arg3 : Memref sig .tc .vmem S5120x256 .bf16) (harg3 : arg3.IsWhole)
    (arg4 : Memref sig .tc .vmem S256x512 .bf16) (harg4 : arg4.IsWhole)
    (arg5 : Memref sig .tc .vmem S1x512 .f32) (harg5 : arg5.IsWhole)
    (arg6 : Memref sig .tc .vmem S1024x512 .f32) (harg6 : arg6.IsWhole)
    (arg7 : Memref sig .tc .vmem S1024x256 .f32) (harg7 : arg7.IsWhole)
    (hc1 : ¬ cond1_1 i) (hc2 : k1_cond2 i = 1#1)
    (x0 : Vec F S1024x5120 .bf16) (x1 : Vec F S5120x256 .bf16) (x2 : Vec F S256x512 .bf16) (x3 : Vec F S1x512 .f32)
    (xs : Vec F S1024x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay3 i (k1_pay2 xs x0 x1) x2 x3)
            ∗ owns (c : Thread nD τ) arg7 fullShare (k1_pay2 xs x0 x1)) -∗ K ⟨⟩))
      ⊢ wp frame (wpE (defs₀ (F := F)) Variants.none c none) E
          (cc1__agg_kernel_plain i arg2 harg2 arg3 harg3 arg4 harg4 arg5 harg5 arg6 harg6 arg7 harg7) K := by
  simp only [cc1__agg_kernel_plain_eq_skeleton]; unfold cc1__agg_kernel_plain_skel
  unfold owns
  iintro ⟨⟨%f0, %hf0, H0⟩, ⟨%f1, %hf1, H1⟩, ⟨%f2, %hf2, H2⟩, ⟨%f3, %hf3, H3⟩, ⟨%d4, %f4, -, H4⟩, ⟨%f7, %hf7, H7⟩, Hk⟩
  subst hf0; subst hf1; subst hf2; subst hf3; subst hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (fun y => ⟨_, List.mem_cons_self, View.mem_set_unit_zero hz2 inb_S1024x512_S1024x512_0_0 y⟩),
      View.canon_unit_zero hz2, View.readAt_eq_ld, View.readAt_eq_ld, View.ld_unit_zero hz2, View.ld_unit_zero hz2,
      View.readCov_unit_zero _ hz2, View.readAt_eq_ld, View.readAt_eq_ld, View.readAt_eq_ld,
      View.ld_unit_zero hz2, View.ld_unit_zero hz2, View.ld_unit_zero hz2]
  iexists _; isplitr
  swap; · iexact H7
  ipureintro
  sl_unfold_run_names
  rw [View.read_writes_eq_canon _ _ _ (fun y => ⟨_, List.mem_cons_self, View.mem_set_unit_zero hz2 inb_S1024x256_S1024x256_0_0 y⟩),
    View.canon_unit_zero hz2, View.readAt_eq_ld, View.readAt_eq_ld, View.readAt_eq_ld,
    View.ld_unit_zero hz2, View.ld_unit_zero hz2, View.ld_unit_zero hz2]

/-- The same two runs with the accumulator the kernel's own scratch buffer, held whole (a whole buffer owned at
    contents is its points-to). -/
theorem run1_reset_scr (c : Dev nD) (E : Set ℕ) (i : grid1.Coords)
    (arg2 : Memref sig .tc .vmem S1024x5120 .bf16) (harg2 : arg2.IsWhole)
    (arg3 : Memref sig .tc .vmem S5120x256 .bf16) (harg3 : arg3.IsWhole)
    (arg4 : Memref sig .tc .vmem S256x512 .bf16) (harg4 : arg4.IsWhole)
    (arg5 : Memref sig .tc .vmem S1x512 .f32) (harg5 : arg5.IsWhole)
    (arg6 : Memref sig .tc .vmem S1024x512 .f32) (harg6 : arg6.IsWhole)
    (hc1 : cond1_1 i) (hc2 : ¬ k1_cond2 i = 1#1)
    (x0 : Vec F S1024x5120 .bf16) (x1 : Vec F S5120x256 .bf16) (x2 : Vec F S256x512 .bf16) (x3 : Vec F S1x512 .f32)
    (xi4 : Vec F S1024x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4
        ∗ (∃ f : Buf (Elt F) ((c : Thread nD τ).loc cc1_scratch0), ((c : Thread nD τ).loc cc1_scratch0) ↦{fullShare} f)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xi4
            ∗ ((c : Thread nD τ).loc cc1_scratch0) ↦{fullShare} (k1_pay2 (k1_pay1 (F := F)) x0 x1)) -∗ K ⟨⟩))
      ⊢ wp frame (wpE (defs₀ (F := F)) Variants.none c none) E
          (cc1__agg_kernel_plain i arg2 harg2 arg3 harg3 arg4 harg4 arg5 harg5 arg6 harg6 (Memref.whole cc1_scratch0) (Memref.isWhole_whole _)) K := by
  have h := run1_reset c E i arg2 harg2 arg3 harg3 arg4 harg4 arg5 harg5 arg6 harg6 (Memref.whole cc1_scratch0) (Memref.isWhole_whole _)
    hc1 hc2 x0 x1 x2 x3 xi4 K
  simp only [owns_whole] at h
  exact h

theorem run1_step_scr (c : Dev nD) (E : Set ℕ) (i : grid1.Coords)
    (arg2 : Memref sig .tc .vmem S1024x5120 .bf16) (harg2 : arg2.IsWhole)
    (arg3 : Memref sig .tc .vmem S5120x256 .bf16) (harg3 : arg3.IsWhole)
    (arg4 : Memref sig .tc .vmem S256x512 .bf16) (harg4 : arg4.IsWhole)
    (arg5 : Memref sig .tc .vmem S1x512 .f32) (harg5 : arg5.IsWhole)
    (arg6 : Memref sig .tc .vmem S1024x512 .f32) (harg6 : arg6.IsWhole)
    (hc1 : ¬ cond1_1 i) (hc2 : k1_cond2 i = 1#1)
    (x0 : Vec F S1024x5120 .bf16) (x1 : Vec F S5120x256 .bf16) (x2 : Vec F S256x512 .bf16) (x3 : Vec F S1x512 .f32)
    (xs : Vec F S1024x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (((c : Thread nD τ).loc cc1_scratch0) ↦{fullShare} xs)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay3 i (k1_pay2 xs x0 x1) x2 x3)
            ∗ ((c : Thread nD τ).loc cc1_scratch0) ↦{fullShare} (k1_pay2 xs x0 x1)) -∗ K ⟨⟩))
      ⊢ wp frame (wpE (defs₀ (F := F)) Variants.none c none) E
          (cc1__agg_kernel_plain i arg2 harg2 arg3 harg3 arg4 harg4 arg5 harg5 arg6 harg6 (Memref.whole cc1_scratch0) (Memref.isWhole_whole _)) K := by
  have h := run1_step c E i arg2 harg2 arg3 harg3 arg4 harg4 arg5 harg5 arg6 harg6 (Memref.whole cc1_scratch0) (Memref.isWhole_whole _)
    hc1 hc2 x0 x1 x2 x3 xs K
  simp only [owns_whole] at h
  exact h

variable (V : (c : Dev nD) → (b : Ref sig .tc) → Buf (Elt F) ((c : Thread nD τ).loc b))

/-! ## What the body finds in the inputs' buffers and where the output is idle -/

/-- Each input's current staging buffer holds its block at every point, fetched there or not: unfetched, the block
    index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- At the first column tile of a row tile the output is idle and not written back; at the last it is stored. -/
theorem idleAt1_4 : ∀ t : Fin cfg1.N, t.val % 2 = 0 → cfg1.idle 4 (grid1.coords t) = true :=
  (by decide +kernel : ∀ t : Fin grid1.N, t.val % 2 = 0 → idle1 4 (grid1.coords t) = true)
theorem liveAt1_4 : ∀ t : Fin cfg1.N, t.val % 2 = 1 → cfg1.idle 4 (grid1.coords t) = false :=
  (by decide +kernel : ∀ t : Fin grid1.N, t.val % 2 = 1 → idle1 4 (grid1.coords t) = false)
theorem noFlush1_4 (t : Fin cfg1.N) (h : t.val % 2 = 0) : (cfg1.win 4).flush t = false :=
  Bool.eq_false_iff.mpr fun hf => by have := (flush1_4 t).mp hf; omega

/-- The inputs are never idle: each is handed back at its block. -/
theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (st1_3 t) fullShare (iblk1 V c 3 t) := by
  unfold Dat.leavesExact; rw [show cfg1.idle 3 (cfg1.grid.coords t) = false from rfl, after1_3]

/-! ## The accumulator's recursion, one step at a time -/

/-- At the first column tile of a row tile the accumulator is the point's product added to zero. -/
theorem acc1_reset (c : Dev nD) (t : Fin cfg1.N) (h : t.val % 2 = 0) :
    acc1 V c t.val t.isLt = k1_pay2 (k1_pay1 (F := F)) (iblk1 V c 0 t) (iblk1 V c 1 t) := by
  obtain ⟨n, hn⟩ := t
  cases n with
  | zero => dsimp only; rw [acc1]
  | succ n => dsimp only at h ⊢; rw [acc1, if_pos h]

/-- At the last it is the point's product added to what the point before left. -/
theorem acc1_step (c : Dev nD) (t : Fin cfg1.N) (h : t.val % 2 = 1) :
    acc1 V c t.val t.isLt
      = k1_pay2 (acc1 V c (t.val - 1) (Nat.lt_of_le_of_lt (Nat.sub_le _ _) t.isLt)) (iblk1 V c 0 t) (iblk1 V c 1 t) := by
  obtain ⟨n, hn⟩ := t
  cases n with
  | zero => dsimp only at h; omega
  | succ n => dsimp only at h ⊢; rw [acc1, if_neg (by omega)]; rfl

/-- Before the first point nothing is stated of the accumulator. -/
theorem accIs_zero (c : Dev nD) (f : Buf (Elt F) ((c : Thread nD τ).loc cc1_scratch0)) : AccIs V c 0 f :=
  fun n h e => absurd e (by rw [Fin.val_zero]; omega)

/-- After point `t` the accumulator is the recursion's value there. -/
theorem accIs_succ (c : Dev nD) (t : Fin cfg1.N) : AccIs V c t.succ (acc1 V c t.val t.isLt) := by
  intro n h e
  have hn : n = t.val := by rw [Fin.val_succ] at e; omega
  subst hn; rfl

/-- Before a later point it is the recursion's value at the point before. -/
theorem accIs_castSucc (c : Dev nD) (t : Fin cfg1.N) (f : Buf (Elt F) ((c : Thread nD τ).loc cc1_scratch0))
    (hf : AccIs V c t.castSucc f) (ht : t.val ≠ 0) :
    f = acc1 V c (t.val - 1) (Nat.lt_of_le_of_lt (Nat.sub_le _ _) t.isLt) :=
  hf (t.val - 1) _ (by rw [Fin.coe_castSucc]; omega)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 1600000 in
/-- The body at any point: the inputs' buffers hold their blocks; by the column tile's parity the point resets the
    accumulator and leaves the output untouched, or adds into what the point before left and stores the projection;
    either way the accumulator ends at the recursion's value at the point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [leaves1_0, leaves1_1, leaves1_2, leaves1_3]
  rw [Φ_eq1, Φ_eq1]; unfold Φ1
  rcases Nat.mod_two_eq_zero_or_one t.val with h | h
  · rw [Dat.leavesExact_idle (dat1 V c) 4 t (idleAt1_4 t h) (noFlush1_4 t h)]
    iintro ⟨⟨Hoth, ⟨%f, %hf, Hs⟩, Hg⟩, Ho, ⟨%d0, H0⟩, ⟨%d1, H1⟩, ⟨%d2, H2⟩, ⟨%d3, H3⟩, ⟨%d4, H4⟩⟩
    iapply (run1_reset_scr c Set.univ (grid1.coords t) _ _ _ _ _ _ _ _ _ _ ((hcond1_1 t).mpr h)
      (fun h2 => by have := (hcond1_2 t).mp h2; omega)
      (iblk1 V c 0 t) (iblk1 V c 1 t) (iblk1 V c 2 t) (iblk1 V c 3 t) ((dat1 V c).before 4 t d4) _)
    isplitl [H0]; · iexact H0
    isplitl [H1]; · iexact H1
    isplitl [H2]; · iexact H2
    isplitl [H3]; · iexact H3
    isplitl [H4]; · iexact H4
    isplitl [Hs]; · iexists f; iexact Hs
    iintro ⟨H0, H1, H2, H3, H4, Hs⟩
    isplitl [Hoth Hs Hg]
    · isplitl [Hoth]; · iexact Hoth
      isplitl [Hs]
      · iexists _; isplitr
        swap; · iexact Hs
        ipureintro
        rw [← acc1_reset V c t h]; exact accIs_succ V c t
      iexact Hg
    isplitl [Ho]; · iexact Ho
    isplitl [H0]; · iexact H0
    isplitl [H1]; · iexact H1
    isplitl [H2]; · iexact H2
    isplitl [H3]; · iexact H3
    iexists d4; iexact H4
  · have ht : t.val ≠ 0 := by omega
    rw [show (dat1 V c).leavesExact 4 t = owns (c : Thread nD τ) (st1_4 t) fullShare ((dat1 V c).after 4 t) from by
      unfold Dat.leavesExact; rw [liveAt1_4 t h], after1_4, acc1_step V c t h]
    iintro ⟨⟨Hoth, ⟨%f, %hf, Hs⟩, Hg⟩, Ho, ⟨%d0, H0⟩, ⟨%d1, H1⟩, ⟨%d2, H2⟩, ⟨%d3, H3⟩, ⟨%d4, H4⟩⟩
    obtain rfl := accIs_castSucc V c t f hf ht
    iapply (run1_step_scr c Set.univ (grid1.coords t) _ _ _ _ _ _ _ _ _ _
      (fun h1 => by have := (hcond1_1 t).mp h1; omega) ((hcond1_2 t).mpr h)
      (iblk1 V c 0 t) (iblk1 V c 1 t) (iblk1 V c 2 t) (iblk1 V c 3 t)
      (acc1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hoth Hs Hg]
    · isplitl [Hoth]; · iexact Hoth
      isplitl [Hs]
      · iexists _; isplitr
        swap; · iexact Hs
        ipureintro
        rw [← acc1_step V c t h]; exact accIs_succ V c t
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region — the generator register and the scoped buffers that are no staging buffer of
    the region, each whole at some contents — is the invariant before the first point: nothing is stated of the
    accumulator there. -/
theorem hin1 (c : Dev nD) :
    iprop((∃ r, prngReg c r) ∗ Pipeline.scopedRest (Ix := Unit) (Name := ℕ) (U := UR sig nD τ) (Lvl := ℕ) (Val := Elt F) spec1 c)
      ⊢ (dat1 (F := F) V c).Φ 0 := by
  rw [Φ_eq1, scopedRest1_eq]; unfold Φ1 others1
  iintro ⟨Hp, H0, H1, H2, H3, H4, H5, H6, H7, H8, H9, H10, ⟨%f, Hs⟩⟩
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [Hs]
  · iexists f; isplitr; · ipureintro; exact accIs_zero V c f
    iexact Hs
  iexact Hp

/-- After the last point the invariant gives them back: what the accumulator holds is forgotten. -/
theorem hout1 (c : Dev nD) :
    (dat1 (F := F) V c).Φ (Fin.last cfg1.N)
      ⊢ iprop((∃ r, prngReg c r) ∗ Pipeline.scopedRest (Ix := Unit) (Name := ℕ) (U := UR sig nD τ) (Lvl := ℕ) (Val := Elt F) spec1 c) := by
  rw [Φ_eq1, scopedRest1_eq]; unfold Φ1 others1
  iintro ⟨⟨H0, H1, H2, H3, H4, H5, H6, H7, H8, H9, H10⟩, ⟨%f, -, Hs⟩, Hp⟩
  isplitl [Hp]; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists f; iexact Hs

end Cert.Kernel.R1

end
-- ==== Proof.K.Launch.lean ====
/-
  The launch: the two aggregation passes as regions of @main, and the run.

  What a region leaves: its input arrays as it found them and each output array at the pipeline's account of the
  write-backs (the fold of the flushed blocks). The first pass is entered from the host prefix's results and leaves the
  second layer's features and the operator in the narrow format; the second pass is entered from those (and the host
  operations between) and leaves the third layer. The scratch accumulators are tracked inside each region's invariant
  and forgotten at its ends; the generator register and the core's (empty) dues ride along.
-/
import proofs.«408395_j7919919694206_3_alg».proof.Proof.K.Run
import proofs.«408395_j7919919694206_3_alg».proof.Proof.K.R0Frame
import proofs.«408395_j7919919694206_3_alg».proof.Proof.K.R1Frame
import Idealize.ShloMosaic.Lib.Pipeline.FrameSuffix
import Idealize.ShloMosaic.Lib.Pipeline.RegionsLoop

noncomputable section

namespace Cert.Kernel.Launch

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave -/

/-- The first pass's entry contents, read at the TensorCore's references. -/
abbrev E0 : (c : Dev nD) → (b : Ref sig .tc) → Buf (Elt F) ((c.tc : Thread nD τ).loc b) := fun c b => V3 m c b

/-- After the first pass: its arrays at what the pipeline leaves, every other buffer as entered. -/
def W4 (c : Dev nD) : Valuation τ sig (Elt F) :=
  Pipeline.withArrays spec0 c (V3 m c) fun w => (R0.dat0 (E0 m) c).arrAt w cfg0.N

/-- The unknowns of the valuations, chosen for the first pass only. -/
def outs4 : Outs (F := F) := fun _ r c => W4 m c r

/-- The second pass's entry contents. -/
abbrev E1 : (c : Dev nD) → (b : Ref sig .tc) → Buf (Elt F) ((c.tc : Thread nD τ).loc b) := fun c b => V5 m (outs4 m) c b

/-- After the second pass: its arrays at what the pipeline leaves, every other buffer as entered. -/
def W6 (c : Dev nD) : Valuation τ sig (Elt F) :=
  Pipeline.withArrays spec1 c (V5 m (outs4 m) c) fun w => (R1.dat1 (E1 m) c).arrAt w cfg1.N

/-- What the regions leave, item by item: after item 5 (the second pass) read off `W6`, before that off `W4`. -/
def outs : Outs (F := F) := fun J r c => if J = 6 then W6 m c r else W4 m c r

theorem outs_four (r : Ref sig .tc) (c : Dev nD) : outs m 4 r c = W4 m c r := if_neg (by decide)
theorem outs_six (r : Ref sig .tc) (c : Dev nD) : outs m 6 r c = W6 m c r := if_pos rfl

theorem W4_arr (c : Dev nD) (w : Fin cfg0.W) :
    W4 m c (Proc.devRef .tc (Pipeline.arrRef spec0 w)) = (R0.dat0 (E0 m) c).arrAt w cfg0.N := by
  unfold W4; exact Pipeline.withArrays_arr spec0 launch0.win.arr_inj c _ _ w
theorem W6_arr (c : Dev nD) (w : Fin cfg1.W) :
    W6 m c (Proc.devRef .tc (Pipeline.arrRef spec1 w)) = (R1.dat1 (E1 m) c).arrAt w cfg1.N := by
  unfold W6; exact Pipeline.withArrays_arr spec1 launch1.win.arr_inj c _ _ w

/-- The valuation after the first pass does not depend on the later choice. -/
theorem V4_outs (c : Dev nD) : V4 m (outs m) c = V4 m (outs4 m) c := by
  show Function.update (Function.update (V3 m c) main_v40_0 (outs m 4 main_v40_0 c)) main_v40_1 (outs m 4 main_v40_1 c) = _
  rw [outs_four, outs_four]
  rfl
theorem V5_outs (c : Dev nD) : V5 m (outs m) c = V5 m (outs4 m) c := by
  show StableHlo.after hostOps1 (V4 m (outs m) c) = StableHlo.after hostOps1 (V4 m (outs4 m) c)
  rw [V4_outs]

/-! ## What each region's arrays hold at its exit -/

/-- An input window's array is as the region found it (the pipeline never writes it). -/
theorem arrAt_in0 (c : Dev nD) (w : Fin cfg0.W) (hw : w.val < 4) :
    (R0.dat0 (E0 m) c).arrAt w cfg0.N = V3 m c (Pipeline.arrRef spec0 w) := by
  match w, hw with
  | ⟨0, _⟩, _ => exact ((R0.dat0 (E0 m) c).arrAt_in 0 rfl _).trans (R0.A_eq0 (E0 m) c 0)
  | ⟨1, _⟩, _ => exact ((R0.dat0 (E0 m) c).arrAt_in 1 rfl _).trans (R0.A_eq0 (E0 m) c 1)
  | ⟨2, _⟩, _ => exact ((R0.dat0 (E0 m) c).arrAt_in 2 rfl _).trans (R0.A_eq0 (E0 m) c 2)
  | ⟨3, _⟩, _ => exact ((R0.dat0 (E0 m) c).arrAt_in 3 rfl _).trans (R0.A_eq0 (E0 m) c 3)

theorem arrAt_in1 (c : Dev nD) (w : Fin cfg1.W) (hw : w.val < 4) :
    (R1.dat1 (E1 m) c).arrAt w cfg1.N = V5 m (outs4 m) c (Pipeline.arrRef spec1 w) := by
  match w, hw with
  | ⟨0, _⟩, _ => exact ((R1.dat1 (E1 m) c).arrAt_in 0 rfl _).trans (R1.A_eq1 (E1 m) c 0)
  | ⟨1, _⟩, _ => exact ((R1.dat1 (E1 m) c).arrAt_in 1 rfl _).trans (R1.A_eq1 (E1 m) c 1)
  | ⟨2, _⟩, _ => exact ((R1.dat1 (E1 m) c).arrAt_in 2 rfl _).trans (R1.A_eq1 (E1 m) c 2)
  | ⟨3, _⟩, _ => exact ((R1.dat1 (E1 m) c).arrAt_in 3 rfl _).trans (R1.A_eq1 (E1 m) c 3)

/-- At the first pass's exit each of its arrays holds what the pipeline leaves, -/
theorem hF0 (c : Dev nD) (w : Fin cfg0.W) :
    (R0.dat0 (E0 m) c).arrAt w cfg0.N = V4 m (outs m) c (Pipeline.arrRef spec0 w) := by
  match w with
  | ⟨0, _⟩ => exact (arrAt_in0 m c 0 (by decide)).trans (V4_of m (outs m) c _ (by decide)).symm
  | ⟨1, _⟩ => exact (arrAt_in0 m c 1 (by decide)).trans (V4_of m (outs m) c _ (by decide)).symm
  | ⟨2, _⟩ => exact (arrAt_in0 m c 2 (by decide)).trans (V4_of m (outs m) c _ (by decide)).symm
  | ⟨3, _⟩ => exact (arrAt_in0 m c 3 (by decide)).trans (V4_of m (outs m) c _ (by decide)).symm
  | ⟨4, _⟩ =>
    show _ = Function.update (Function.update (V3 m c) main_v40_0 (outs m 4 main_v40_0 c)) main_v40_1 (outs m 4 main_v40_1 c) (Proc.devRef .tc main_v40_0)
    rw [Function.update_of_ne (StableHlo.devRef_ne_of_ne (by decide)), Function.update_self, outs_four]
    exact (W4_arr m c 4).symm
  | ⟨5, _⟩ =>
    show _ = Function.update (Function.update (V3 m c) main_v40_0 (outs m 4 main_v40_0 c)) main_v40_1 (outs m 4 main_v40_1 c) (Proc.devRef .tc main_v40_1)
    rw [Function.update_self, outs_four]
    exact (W4_arr m c 5).symm
/-- and every other buffer what it held at entry. -/
theorem hrest0 (c : Dev nD) : ∀ b, b ∉ Finset.univ.image (Pipeline.arrRef spec0) → V4 m (outs m) c b = V3 m c b :=
  fun b hb => V4_of m (outs m) c b (by
    intro h
    rcases List.mem_cons.mp h with rfl | h
    · exact hb (Finset.mem_image.mpr ⟨4, Finset.mem_univ _, rfl⟩)
    · rcases List.mem_cons.mp h with rfl | h
      · exact hb (Finset.mem_image.mpr ⟨5, Finset.mem_univ _, rfl⟩)
      · exact absurd h (List.not_mem_nil))

/-- The valuation after the second pass, at the earlier choice of what the first pass leaves. -/
abbrev X6 (c : Dev nD) : Valuation τ sig (Elt F) := Function.update (V5 m (outs4 m) c) main_v42 (W6 m c main_v42)

theorem V6_outs (c : Dev nD) : V6 m (outs m) c = X6 m c := by
  show Function.update (V5 m (outs m) c) main_v42 (outs m 6 main_v42 c) = _
  rw [V5_outs, outs_six]

theorem hF1 (c : Dev nD) (w : Fin cfg1.W) :
    (R1.dat1 (E1 m) c).arrAt w cfg1.N = X6 m c (Pipeline.arrRef spec1 w) := by
  match w with
  | ⟨0, _⟩ => exact (arrAt_in1 m c 0 (by decide)).trans (Function.update_of_ne (StableHlo.devRef_ne_of_ne (by decide)) _ _).symm
  | ⟨1, _⟩ => exact (arrAt_in1 m c 1 (by decide)).trans (Function.update_of_ne (StableHlo.devRef_ne_of_ne (by decide)) _ _).symm
  | ⟨2, _⟩ => exact (arrAt_in1 m c 2 (by decide)).trans (Function.update_of_ne (StableHlo.devRef_ne_of_ne (by decide)) _ _).symm
  | ⟨3, _⟩ => exact (arrAt_in1 m c 3 (by decide)).trans (Function.update_of_ne (StableHlo.devRef_ne_of_ne (by decide)) _ _).symm
  | ⟨4, _⟩ =>
    show _ = Function.update (V5 m (outs4 m) c) main_v42 (W6 m c main_v42) (Proc.devRef .tc main_v42)
    rw [Function.update_self]
    exact (W6_arr m c 4).symm
theorem hrest1 (c : Dev nD) : ∀ b, b ∉ Finset.univ.image (Pipeline.arrRef spec1) → X6 m c b = V5 m (outs4 m) c b :=
  fun b hb => Function.update_of_ne (StableHlo.devRef_ne_of_ne (fun h => hb (Finset.mem_image.mpr ⟨4, Finset.mem_univ _, h.symm⟩))) _ _

/-! ## The proof data family and the thread state -/

/-- Both pipelines' proof data, each at its region's entry contents — a literal match on the pipeline index. -/
def pdats : (p : Fin 2) → (c : Dev nD) → Dat τ (Elt F) Unit ℕ (UR sig nD τ) ℕ (Pipeline.pin (pcfgs (F := F)) adm p) c
  | ⟨0, _⟩ => fun c => R0.dat0 (E0 m) c
  | ⟨1, _⟩ => fun c => R1.dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)

/-! ## The regions -/

set_option backward.isDefEq.respectTransparency.types false in
/-- Region 0 over the thread state: entered from every unscoped buffer at the entry valuation, left at the exit
    valuation. Its arrays are split out of the unscoped buffers at entry and put back at the pipeline's final contents
    at exit; the generator register enters the invariant and comes back; the scratch accumulator is tracked inside and
    forgotten at both ends; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (E0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (R0.dat0 (E0 m) c).Φ 0 from rfl]
    iintro ⟨Hp, -, Hr⟩
    iapply (R0.hin0 (E0 m) c)
    isplitl [Hp]; · iexact Hp
    iexact Hr
  hout c := by
    rw [Pipeline.ownSems0_none, show (pdats m 0 c).Φ (Fin.last _) = (R0.dat0 (E0 m) c).Φ (Fin.last cfg0.N) from rfl]
    iintro HΦ
    ihave H := (R0.hout0 (E0 m) c) $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the entry valuation, left at the exit
    valuation. Its arrays are split out of the unscoped buffers at entry and put back at the pipeline's final contents
    at exit; the generator register enters the invariant and comes back; the scratch accumulator is tracked inside and
    forgotten at both ends; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (E1 m) c).loose
  hwaits := Pipeline.hwaits_of_owed_zero _ _ _ _ L lv 1 fun _ _ => rfl
  pre c := iprop(StableHlo.held (c : Thread nD τ) (Pipeline.ucRefs τ sig) (V5 m (outs4 m) c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (R1.dat1 (E1 m) c).Φ 0 from rfl]
    iintro ⟨Hp, -, Hr⟩
    iapply (R1.hin1 (E1 m) c)
    isplitl [Hp]; · iexact Hp
    iexact Hr
  hout c := by
    rw [Pipeline.ownSems0_none, show (pdats m 1 c).Φ (Fin.last _) = (R1.dat1 (E1 m) c).Φ (Fin.last cfg1.N) from rfl]
    iintro HΦ
    ihave H := (R1.hout1 (E1 m) c) $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => X6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, and every final memory holds the
    result buffer at the last valuation's contents and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v43) = V7 m (outs m) c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Run.run_cond m (emb₁ : Emb (UR sig nD τ) 𝕄) () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
          ⊢ (bigSep Finset.univ fun c : Dev nD => R (F := F) c : sProp 𝕄) :=
        bigSep_mono fun c _ => (show (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
            ⊢ (R (F := F) c : sProp 𝕄) from by
          iintro ⟨-, HO, -, Hp, -⟩
          isplitl [Hp]; · iexists _; iexact Hp
          iexists ∅; iexact HO)
      iintro ⟨H, -⟩
      imodintro
      iapply hmono
      iexact H)
    (fun c => by iintro ⟨-, HO⟩; iexact HO)
    (reg0 m) (fun c => .rfl) (fun c => .rfl)
    (reg1 m) (fun c => by rw [V5_outs]; exact .rfl) (fun c => by rw [V6_outs]; exact .rfl)

/-- The frame: every argument ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.Kernel.Launch

end
-- ==== Proof.KI.Run.lean ====
/-
  The run of the kernel's @main through its two regions, with the result read back.

  @main is a list of items: three stretches of host operations, the first aggregation pass, one host stretch, the
  second aggregation pass, a last host stretch. Between two items a core holds every unscoped buffer whole at a
  valuation computed from the launch memory (the host stretches' results, and what each region leaves in its output
  arrays). Given a record of each region over those states, the run terminates and the final memory holds the
  result buffer at the last valuation and every argument unchanged.
-/
import proofs.«408395_j7919919694206_3_alg».proof.Proof.Gen.KernelIdeal.Regions

noncomputable section

namespace Cert.KernelIdeal.Run

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

variable (m : (ℓ : Loc nD τ sig) → Buf (Elt F) ℓ)

-- `θ_run_regions_kit_dev`'s implicit arguments are found by unifying its conclusion with this one, which takes unfolding
-- plain definitions in a metavariable's type
set_option backward.isDefEq.respectTransparency.types false in
/-- The run of @main given the two regions' records: for any rest states the launch makes on every core and that end
    owing nothing, any contents the regions leave and any proof data, every weakly fair execution from memory `m` with
    zero counters terminates, and every final memory holds the RESULT buffer at the last valuation's contents and each
    argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c)) :
    θ_run defs (onTc (τ := τ) (main (F := F))) ⟨m, fun _ => 0, ρ⟩ (fun r => ∀ c : Dev nD,
      r.2.mem ((c.tc : Thread nD τ).loc main_v43) = V7 m outs c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V7 m outs c))
    (hch := fun c => ⟨.rfl, .rfl, .rfl, hpre0 c, hpost0 c, hpre1 c, hpost1 c, sep_mono .rfl (hE2 c)⟩)
    (hinit := ?_) (QY := fun c s => s.mem ((c.tc : Thread nD τ).loc main_v43) = V7 m outs c main_v43 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V7 m outs c) s') $$ [Hh HSI]
    · isplitl [Hh] <;> iassumption
    icases Hr with ⟨%h, HSI⟩
    imodintro
    isplitr
    · ipureintro
      exact ⟨h (Proc.devRef .tc main_v43) (Finset.mem_filter.mpr ⟨StableHlo.devRef_mem_tcRefs main_v43, by decide⟩),
        (h (Proc.devRef .tc main_arg0) (Finset.mem_filter.mpr ⟨StableHlo.devRef_mem_tcRefs main_arg0, by decide⟩)).trans (V7_main_arg0 m outs c),
        (h (Proc.devRef .tc main_arg1) (Finset.mem_filter.mpr ⟨StableHlo.devRef_mem_tcRefs main_arg1, by decide⟩)).trans (V7_main_arg1 m outs c),
        (h (Proc.devRef .tc main_arg2) (Finset.mem_filter.mpr ⟨StableHlo.devRef_mem_tcRefs main_arg2, by decide⟩)).trans (V7_main_arg2 m outs c),
        (h (Proc.devRef .tc main_arg3) (Finset.mem_filter.mpr ⟨StableHlo.devRef_mem_tcRefs main_arg3, by decide⟩)).trans (V7_main_arg3 m outs c),
        (h (Proc.devRef .tc main_arg4) (Finset.mem_filter.mpr ⟨StableHlo.devRef_mem_tcRefs main_arg4, by decide⟩)).trans (V7_main_arg4 m outs c),
        (h (Proc.devRef .tc main_arg5) (Finset.mem_filter.mpr ⟨StableHlo.devRef_mem_tcRefs main_arg5, by decide⟩)).trans (V7_main_arg5 m outs c),
        (h (Proc.devRef .tc main_arg6) (Finset.mem_filter.mpr ⟨StableHlo.devRef_mem_tcRefs main_arg6, by decide⟩)).trans (V7_main_arg6 m outs c),
        (h (Proc.devRef .tc main_arg7) (Finset.mem_filter.mpr ⟨StableHlo.devRef_mem_tcRefs main_arg7, by decide⟩)).trans (V7_main_arg7 m outs c),
        (h (Proc.devRef .tc main_arg8) (Finset.mem_filter.mpr ⟨StableHlo.devRef_mem_tcRefs main_arg8, by decide⟩)).trans (V7_main_arg8 m outs c)⟩
    · iexact HSI

end Cert.KernelIdeal.Run

end
-- ==== Proof.KI.R0Data.lean ====
/-
  Region 0 (the first aggregation pass): what the pipeline's buffers hold point by point.

  The grid is 10 row tiles by 5 column tiles of the dense edge-weight operator, walked row tile by row tile.
  At a point the body rewrites the operator's tile in the narrow format into the second output's buffer, adds
  the tile's product with the matching rows of the previous layer's features to an accumulator kept in scratch
  (reset at the first column tile of a row tile), and at the last column tile of a row tile projects the
  accumulator through the weights, adds the bias, zeroes the rows past the node count and stores the result
  into the first output's buffer. The accumulator after point `n` is therefore a recursion on `n`
  (`acc0`): the partial product sum over the column tiles of the current row tile seen so far.
-/
import proofs.«408395_j7919919694206_3_alg».proof.Proof.Gen.KernelIdeal.Skeleton
import proofs.«408395_j7919919694206_3_alg».proof.Proof.Gen.KernelIdeal.Launch
import proofs.«408395_j7919919694206_3_alg».proof.Proof.Gen.KernelIdeal.Points
import Idealize.ShloMosaic.Lib.Tactic
import Idealize.ShloMosaic.Lib.Pipeline.Kit
import Idealize.ShloMosaic.Lib.Pipeline.Frame
import Idealize.ShloMosaic.Lib.Pipeline.Regions

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c.tc : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator after the body at point `n`: the point's product added to zero at the first column tile
    of a row tile (`n % 5 = 0`) and to what the point before left otherwise. -/
def acc0 (c : Dev nD) : (n : Nat) → (h : n < cfg0.N) → Vec F S1024x128 .f32
  | 0, h => k0_pay3 (iblk0 V c 0 ⟨0, h⟩) (k0_pay2 (F := F)) (iblk0 V c 1 ⟨0, h⟩)
  | n + 1, h => k0_pay3 (iblk0 V c 0 ⟨n + 1, h⟩)
      (if (n + 1) % 5 = 0 then (k0_pay2 (F := F)) else acc0 c n (Nat.lt_of_succ_lt h)) (iblk0 V c 1 ⟨n + 1, h⟩)

/-- What the scratch accumulator holds BEFORE point `t` (`t` ranging to the point count inclusive): nothing
    stated before the first point, else the accumulator after point `t - 1`. -/
def AccIs (c : Dev nD) (t : Fin (cfg0.N + 1)) (f : Buf (Elt F) ((c : Thread nD τ).loc cc0_scratch0)) : Prop :=
  ∀ (n : Nat) (h : n < cfg0.N), t.val = n + 1 → f = acc0 V c n h

/-- The core's scoped buffers other than this region's staging buffers and its accumulator: the second
    region's staging buffers and accumulator, each whole at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_scratch0), ((c : Thread nD τ).loc cc1_scratch0) ↦{fullShare} f))

/-- The region's invariant before point `t`: the accumulator's buffer whole at contents that are the recursion's
    (`AccIs`), the other scoped buffers at some contents, the generator register at some state. -/
def Φ0 (c : Dev nD) (t : Fin (cfg0.N + 1)) : sProp 𝕄 :=
  iprop((∃ f : Buf (Elt F) ((c : Thread nD τ).loc cc0_scratch0), ⌜AccIs V c t f⌝ ∗ ((c : Thread nD τ).loc cc0_scratch0) ↦{fullShare} f)
    ∗ others0 (F := F) c ∗ ∃ r, prngReg c r)

/-- The proof data of region 0 on core `c`: the arrays as the region finds them; after the body at point `t`
    each input's buffer at its block, the second output's at the tile in the narrow format, the first output's
    at the projected accumulator (stated at every point, read only where the block is written back); the
    invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay4 (grid0.coords t) (acc0 V c t.val t.isLt) (iblk0 V c 2 t) (iblk0 V c 3 t)
    | ⟨5, _⟩ => k0_pay1 (iblk0 V c 0 t)
  Φ t := Φ0 V c t
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay4 (grid0.coords t) (acc0 V c t.val t.isLt) (iblk0 V c 2 t) (iblk0 V c 3 t) := by dsimp only [dat0]
theorem after0_5 (c : Dev nD) (t : Fin cfg0.N) : (dat0 V c).after 5 t = k0_pay1 (iblk0 V c 0 t) := by dsimp only [dat0]
theorem Φ_eq0 (c : Dev nD) (t : Fin (cfg0.N + 1)) : (dat0 V c).Φ t = Φ0 V c t := by dsimp only [dat0]

end Cert.KernelIdeal.R0

end
-- ==== Proof.KI.R0Frame.lean ====
/-
  Region 0 (the first aggregation pass): the body's triple at every grid point.

  The grid is 10 row tiles by 5 column tiles. At every point the body rewrites the operator's tile in the narrow
  format into the second output's buffer and adds the tile's product with the matching feature rows to the
  accumulator kept in scratch; at the first column tile of a row tile it first resets the accumulator, and at the
  last one it projects the accumulator, adds the bias, masks the rows past the node count and stores the result
  into the first output's buffer. So there are three control cases, by the column-tile coordinate: first (0),
  middle (1, 2, 3) and last (4). Each case's run is stated once over arbitrary whole staging memrefs and contents;
  the obligation at a point picks the case by the point's position modulo 5 and reads the accumulator's contents
  off the recursion `acc0`.
-/
import proofs.«408395_j7919919694206_3_alg».proof.Proof.KI.R0Data
import proofs.«408395_j7919919694206_3_alg».proof.Proof.Gen.KernelIdeal.Skeleton
import proofs.«408395_j7919919694206_3_alg».proof.Proof.Gen.KernelIdeal.Launch
import proofs.«408395_j7919919694206_3_alg».proof.Proof.Gen.KernelIdeal.Points
import Idealize.ShloMosaic.Lib.Tactic
import Idealize.ShloMosaic.Lib.Pipeline.Kit
import Idealize.ShloMosaic.Lib.Pipeline.Frame
import Idealize.ShloMosaic.Lib.Pipeline.FrameBody
import Idealize.ShloMosaic.Lib.Pipeline.Value
import Idealize.ShloMosaic.Lib.Pipeline.Regions

noncomputable section

namespace Cert.KernelIdeal.R0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c.tc : Thread nD τ).loc b))

/-! ## What the body finds in the input windows' buffers -/

/-- An input window's current staging buffer holds its block at every point, fetched there or not: unfetched, the
    block index has not moved and the body left the block in place. The four input windows are uncut and never idle. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## The body's two conditions, in closed form over the grid -/

/-- The condition of the first conditional (reset the accumulator): the column-tile coordinate is 0. -/
abbrev cond1 (i : grid0.Coords) : Prop :=
  (Scalar.cmpi .ne (Scalar.extui (Scalar.cmpi .eq (BitVec.ofNat 32 (i 1).val) 0#32)) 0#32) = 1#1
/-- The condition of the second conditional (project and store the first output): the column-tile coordinate is 4. -/
abbrev cond2 (i : grid0.Coords) : Prop := k0_cond2 i = 1#1

/-- The first holds at the points ≡ 0 (mod 5), -/
theorem hcond1 : ∀ t : Fin cfg0.N, cond1 (grid0.coords t) ↔ t.val % 5 = 0 :=
  (by decide +kernel : ∀ t : Fin grid0.N, cond1 (grid0.coords t) ↔ t.val % 5 = 0)
/-- the second at the points ≡ 4 (mod 5): both decided over the grid's 50 points. -/
theorem hcond2 : ∀ t : Fin cfg0.N, cond2 (grid0.coords t) ↔ t.val % 5 = 4 :=
  (by decide +kernel : ∀ t : Fin grid0.N, cond2 (grid0.coords t) ↔ t.val % 5 = 4)

/-- The first output's window is idle exactly where the second condition fails. -/
theorem idle0_4 : ∀ t : Fin cfg0.N, cfg0.idle 4 (grid0.coords t) = true ↔ ¬ t.val % 5 = 4 :=
  (by decide +kernel : ∀ t : Fin grid0.N, idle0 4 (grid0.coords t) = true ↔ ¬ t.val % 5 = 4)

/-! ## Whole-buffer accesses

Every access of the body is through the unit-stride rectangle at offset zero of the buffer's own sizes. -/

theorem hz2 : (![0, 0] : Fin 2 → Nat) = fun _ => 0 := funext fun a => by fin_cases a <;> rfl

section Whole
variable {sg : RefSig} {κ : Kind} {sp : Space} {S : Shape} {e : EltTy} {Val : EltTy → Type}

/-- A load through it reads the view's contents. -/
theorem readAt_unit_zero (v : View sg κ sp S e) (f : v.ty.Contents Val) {off : Fin S.rank → Nat} (h : off = fun _ => 0)
    (inb : ∀ a, off a + S.size a ≤ S.size a) :
    v.readAt Val (Rect.unit off S.size inb).toLoadRect f = v.read Val f :=
  (View.readAt_eq_ld v f _).trans (View.ld_unit_zero h inb _)

/-- A store through it, last, leaves its payload whatever was stored before. -/
theorem read_writes_cons_unit_zero [∀ e, Nonempty (Val e)] (v : View sg κ sp S e) (f : v.ty.Contents Val)
    {off : Fin S.rank → Nat} (h : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w :=
  (View.read_writes_eq_canon v f _ fun y => ⟨_, List.mem_cons_self, View.mem_set_unit_zero h inb y⟩).trans
    (View.canon_cons_unit_zero h inb w L)

end Whole

/-! ## The body's run, case by case

Each on whole staging memrefs: the inputs' at contents `x0 … x3` come back as they were; the second output's buffer
ends at the tile in the narrow format; the accumulator's and the first output's as the case says. The printed
function is its skeleton: its loads and stores in order over the named payloads. What each buffer ends holding is
read off the last store through it, a whole-buffer one; a load after such a store reads the store's payload. -/

set_option maxHeartbeats 1000000 in
/-- FIRST column tile (the reset taken, the projection not): the accumulator, from anything, ends at the tile's
    product added to zero; the first output's buffer is not touched. -/
theorem run_first (c : Dev nD) (E : Set ℕ) (i : grid0.Coords) (arg2 : Memref sig .tc .vmem S1024x2048 .f32) (harg2 : arg2.IsWhole) (arg3 : Memref sig .tc .vmem S2048x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1024x256 .bf16) (harg6 : arg6.IsWhole) (arg7 : Memref sig .tc .vmem S1024x2048 .bf16) (harg7 : arg7.IsWhole) (arg8 : Memref sig .tc .vmem S1024x128 .f32) (harg8 : arg8.IsWhole)
    (hc1 : cond1 i) (hc2 : ¬ cond2 i)
    (x0 : Vec F S1024x2048 .f32) (x1 : Vec F S2048x128 .bf16) (x2 : Vec F S128x256 .bf16) (x3 : Vec F S1x256 .f32)
    (x4 : Vec F S1024x256 .bf16) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare (k0_pay1 x0)
            ∗ owns (c : Thread nD τ) arg8 fullShare (k0_pay3 x0 (k0_pay2 (F := F)) x1)) -∗ K ⟨⟩))
      ⊢ wp frame (wpE (defs₀ (F := F)) Variants.none c none) E (cc0__agg_kernel_fused_cast i arg2 harg2 arg3 harg3 arg4 harg4 arg5 harg5 arg6 harg6 arg7 harg7 arg8 harg8) K := by
  simp only [cc0__agg_kernel_fused_cast_eq_skeleton]; unfold cc0__agg_kernel_fused_cast_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d8, %f8, -, H8⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_cons_unit_zero _ _ hz2, readAt_unit_zero _ _ hz2]
  iexists _; isplitr
  swap; · iexact H8
  ipureintro
  sl_unfold_run_names
  rw [read_writes_cons_unit_zero _ _ hz2, View.readCov_unit_zero _ hz2, readAt_unit_zero _ _ hz2, readAt_unit_zero _ _ hz2]

set_option maxHeartbeats 1000000 in
/-- MIDDLE column tiles (neither conditional taken): the accumulator goes from `xs` to the tile's product added to
    `xs`; the first output's buffer is not touched. -/
theorem run_mid (c : Dev nD) (E : Set ℕ) (i : grid0.Coords) (arg2 : Memref sig .tc .vmem S1024x2048 .f32) (harg2 : arg2.IsWhole) (arg3 : Memref sig .tc .vmem S2048x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1024x256 .bf16) (harg6 : arg6.IsWhole) (arg7 : Memref sig .tc .vmem S1024x2048 .bf16) (harg7 : arg7.IsWhole) (arg8 : Memref sig .tc .vmem S1024x128 .f32) (harg8 : arg8.IsWhole)
    (hc1 : ¬ cond1 i) (hc2 : ¬ cond2 i)
    (x0 : Vec F S1024x2048 .f32) (x1 : Vec F S2048x128 .bf16) (x2 : Vec F S128x256 .bf16) (x3 : Vec F S1x256 .f32)
    (x4 : Vec F S1024x256 .bf16) (xs : Vec F S1024x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ (∃ d, owns (c : Thread nD τ) arg7 fullShare d)
        ∗ owns (c : Thread nD τ) arg8 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare (k0_pay1 x0)
            ∗ owns (c : Thread nD τ) arg8 fullShare (k0_pay3 x0 xs x1)) -∗ K ⟨⟩))
      ⊢ wp frame (wpE (defs₀ (F := F)) Variants.none c none) E (cc0__agg_kernel_fused_cast i arg2 harg2 arg3 harg3 arg4 harg4 arg5 harg5 arg6 harg6 arg7 harg7 arg8 harg8) K := by
  simp only [cc0__agg_kernel_fused_cast_eq_skeleton]; unfold cc0__agg_kernel_fused_cast_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f8, %hf8, H8⟩, Hk⟩
  subst hf0; subst hf1; subst hf2; subst hf3; subst hf4; subst hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [read_writes_cons_unit_zero _ _ hz2, readAt_unit_zero _ _ hz2]
  iexists _; isplitr
  swap; · iexact H8
  ipureintro
  rw [read_writes_cons_unit_zero _ _ hz2, readAt_unit_zero _ _ hz2, readAt_unit_zero _ _ hz2, readAt_unit_zero _ _ hz2]

set_option maxHeartbeats 1000000 in
/-- LAST column tile (the reset not taken, the projection taken): the accumulator goes from `xs` to the tile's
    product added to `xs`, and the first output's buffer, from anything, ends at the projection of that. -/
theorem run_last (c : Dev nD) (E : Set ℕ) (i : grid0.Coords) (arg2 : Memref sig .tc .vmem S1024x2048 .f32) (harg2 : arg2.IsWhole) (arg3 : Memref sig .tc .vmem S2048x128 .bf16) (harg3 : arg3.IsWhole) (arg4 : Memref sig .tc .vmem S128x256 .bf16) (harg4 : arg4.IsWhole) (arg5 : Memref sig .tc .vmem S1x256 .f32) (harg5 : arg5.IsWhole) (arg6 : Memref sig .tc .vmem S1024x256 .bf16) (harg6 : arg6.IsWhole) (arg7 : Memref sig .tc .vmem S1024x2048 .bf16) (harg7 : arg7.IsWhole) (arg8 : Memref sig .tc .vmem S1024x128 .f32) (harg8 : arg8.IsWhole)
    (hc1 : ¬ cond1 i) (hc2 : cond2 i)
    (x0 : Vec F S1024x2048 .f32) (x1 : Vec F S2048x128 .bf16) (x2 : Vec F S128x256 .bf16) (x3 : Vec F S1x256 .f32)
    (xs : Vec F S1024x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ (∃ d, owns (c : Thread nD τ) arg7 fullShare d)
        ∗ owns (c : Thread nD τ) arg8 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay4 i (k0_pay3 x0 xs x1) x2 x3) ∗ owns (c : Thread nD τ) arg7 fullShare (k0_pay1 x0)
            ∗ owns (c : Thread nD τ) arg8 fullShare (k0_pay3 x0 xs x1)) -∗ K ⟨⟩))
      ⊢ wp frame (wpE (defs₀ (F := F)) Variants.none c none) E (cc0__agg_kernel_fused_cast i arg2 harg2 arg3 harg3 arg4 harg4 arg5 harg5 arg6 harg6 arg7 harg7 arg8 harg8) K := by
  simp only [cc0__agg_kernel_fused_cast_eq_skeleton]; unfold cc0__agg_kernel_fused_cast_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f8, %hf8, H8⟩, Hk⟩
  subst hf0; subst hf1; subst hf2; subst hf3; subst hf8
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [read_writes_cons_unit_zero _ _ hz2, View.readCov_unit_zero _ hz2, readAt_unit_zero _ _ hz2,
      readAt_unit_zero _ _ hz2, readAt_unit_zero _ _ hz2, readAt_unit_zero _ _ hz2, readAt_unit_zero _ _ hz2]
  isplitl [H5]
  · iexists _; isplitr
    swap; · iexact H5
    ipureintro
    rw [read_writes_cons_unit_zero _ _ hz2, readAt_unit_zero _ _ hz2]
  iexists _; isplitr
  swap; · iexact H8
  ipureintro
  sl_unfold_run_names
  rw [read_writes_cons_unit_zero _ _ hz2, readAt_unit_zero _ _ hz2, readAt_unit_zero _ _ hz2, readAt_unit_zero _ _ hz2]

/-! ## The accumulator's recursion, one step -/

/-- After a point at the first column tile the accumulator holds the tile's product added to zero, -/
theorem accIs_first (c : Dev nD) (t : Fin cfg0.N) (h0 : t.val % 5 = 0) :
    AccIs V c t.succ (k0_pay3 (iblk0 V c 0 t) (k0_pay2 (F := F)) (iblk0 V c 1 t)) := by
  obtain ⟨m, hm⟩ := t
  intro n h e
  have hn : m = n := by simpa using e
  subst hn
  cases m with
  | zero => rw [acc0]
  | succ k => rw [acc0, if_pos h0]

/-- and after any other point the tile's product added to what the point before left. -/
theorem accIs_next (c : Dev nD) (t : Fin cfg0.N) (h0 : ¬ t.val % 5 = 0)
    (f : Buf (Elt F) ((c : Thread nD τ).loc cc0_scratch0)) (hf : AccIs V c t.castSucc f) :
    AccIs V c t.succ (k0_pay3 (iblk0 V c 0 t) f (iblk0 V c 1 t)) := by
  obtain ⟨m, hm⟩ := t
  intro n h e
  have hn : m = n := by simpa using e
  subst hn
  cases m with
  | zero => exact absurd (Nat.zero_mod 5) h0
  | succ k => rw [acc0, if_neg h0, hf k (Nat.lt_of_succ_lt hm) rfl]

/-- The invariant with the accumulator's buffer as a whole memref owned at its contents. -/
theorem Φ0_owns (c : Dev nD) (t : Fin (cfg0.N + 1)) :
    Φ0 V c t = iprop((∃ f : Buf (Elt F) ((c : Thread nD τ).loc cc0_scratch0), ⌜AccIs V c t f⌝ ∗ owns (c : Thread nD τ) (Memref.whole cc0_scratch0) fullShare f)
      ∗ others0 (F := F) c ∗ ∃ r, prngReg c r) := by
  unfold Φ0; simp only [owns_whole]

/-! ## The body obligation, at a generic point -/

/-- The inputs' windows and the second output's are never idle; -/
theorem live0_0 (t : Fin cfg0.N) : cfg0.idle 0 (grid0.coords t) = false := rfl
theorem live0_1 (t : Fin cfg0.N) : cfg0.idle 1 (grid0.coords t) = false := rfl
theorem live0_2 (t : Fin cfg0.N) : cfg0.idle 2 (grid0.coords t) = false := rfl
theorem live0_3 (t : Fin cfg0.N) : cfg0.idle 3 (grid0.coords t) = false := rfl
theorem live0_5 (t : Fin cfg0.N) : cfg0.idle 5 (grid0.coords t) = false := rfl

/-- so the body hands each back at the contents the proof data state: the inputs' blocks as found, the tile in the
    narrow format. -/
theorem leaves0_0 (c : Dev nD) (t : Fin cfg0.N) :
    (dat0 V c).leavesExact 0 t = owns (c : Thread nD τ) (st0_0 t) fullShare (iblk0 V c 0 t) := by
  unfold Dat.leavesExact; rw [live0_0 t, after0_0]
theorem leaves0_1 (c : Dev nD) (t : Fin cfg0.N) :
    (dat0 V c).leavesExact 1 t = owns (c : Thread nD τ) (st0_1 t) fullShare (iblk0 V c 1 t) := by
  unfold Dat.leavesExact; rw [live0_1 t, after0_1]
theorem leaves0_2 (c : Dev nD) (t : Fin cfg0.N) :
    (dat0 V c).leavesExact 2 t = owns (c : Thread nD τ) (st0_2 t) fullShare (iblk0 V c 2 t) := by
  unfold Dat.leavesExact; rw [live0_2 t, after0_2]
theorem leaves0_3 (c : Dev nD) (t : Fin cfg0.N) :
    (dat0 V c).leavesExact 3 t = owns (c : Thread nD τ) (st0_3 t) fullShare (iblk0 V c 3 t) := by
  unfold Dat.leavesExact; rw [live0_3 t, after0_3]
theorem leaves0_5 (c : Dev nD) (t : Fin cfg0.N) :
    (dat0 V c).leavesExact 5 t = owns (c : Thread nD τ) (st0_5 t) fullShare (k0_pay1 (iblk0 V c 0 t)) := by
  unfold Dat.leavesExact; rw [live0_5 t, after0_5]

/-- The first output's window is live at the last column tile, where the body hands it back at the projected
    accumulator, -/
theorem leaves0_4_last (c : Dev nD) (t : Fin cfg0.N) (h4 : t.val % 5 = 4) :
    (dat0 V c).leavesExact 4 t = owns (c : Thread nD τ) (st0_4 t) fullShare
      (k0_pay4 (grid0.coords t) (acc0 V c t.val t.isLt) (iblk0 V c 2 t) (iblk0 V c 3 t)) := by
  unfold Dat.leavesExact
  rw [show cfg0.idle 4 (grid0.coords t) = false from Bool.eq_false_iff.mpr fun h => (idle0_4 t).mp h h4, after0_4]

/-- and idle and not written back elsewhere, where the body hands it back as found. -/
theorem leaves0_4_idle (c : Dev nD) (t : Fin cfg0.N) (h4 : ¬ t.val % 5 = 4) :
    (dat0 V c).leavesExact 4 t = iprop(∃ d, owns (c : Thread nD τ) (st0_4 t) fullShare ((dat0 V c).before 4 t d)) :=
  Dat.leavesExact_idle (dat0 V c) 4 t ((idle0_4 t).mpr h4) (Bool.eq_false_iff.mpr fun h => h4 ((flush0_4 t).mp h))

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t ∗ (dat0 V c).leavesExact 5 t)

set_option maxHeartbeats 2000000 in
/-- The body at any point. The inputs' memrefs hold their blocks; the point's position modulo 5 says which case it
    is in, and that case's run applies. The invariant hands the body the accumulator at what the point before left
    (at anything at a first column tile) and takes it back at this point's step of the recursion; the other scoped
    buffers, the generator register and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl,
    Φ_eq0, Φ_eq0, Φ0_owns, Φ0_owns, leaves0_0, leaves0_1, leaves0_2, leaves0_3, leaves0_5]
  by_cases h0 : t.val % 5 = 0
  · have h4 : ¬ t.val % 5 = 4 := by omega
    rw [leaves0_4_idle V c t h4]
    iintro ⟨⟨⟨%f, -, HS⟩, Hoth, Hg⟩, Ho, ⟨%d0, H0⟩, ⟨%d1, H1⟩, ⟨%d2, H2⟩, ⟨%d3, H3⟩, ⟨%d4, H4⟩, ⟨%d5, H5⟩⟩
    iapply (run_first c Set.univ (grid0.coords t) _ _ _ _ _ _ _ _ _ _ _ _ _ _ ((hcond1 t).mpr h0) (fun h => h4 ((hcond2 t).mp h))
      (iblk0 V c 0 t) (iblk0 V c 1 t) (iblk0 V c 2 t) (iblk0 V c 3 t) ((dat0 V c).before 4 t d4) _)
    isplitl [H0]; · iexact H0
    isplitl [H1]; · iexact H1
    isplitl [H2]; · iexact H2
    isplitl [H3]; · iexact H3
    isplitl [H4]; · iexact H4
    isplitl [H5]; · iexists _; iexact H5
    isplitl [HS]; · iexists _; iexact HS
    iintro ⟨H0, H1, H2, H3, H4, H5, HS⟩
    isplitl [HS Hoth Hg]
    · isplitl [HS]
      · iexists _; isplitr
        swap; · iexact HS
        ipureintro; exact accIs_first V c t h0
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexists d4; iexact H4
    iexact H5
  · by_cases h4 : t.val % 5 = 4
    · rw [leaves0_4_last V c t h4]
      iintro ⟨⟨⟨%f, %hf, HS⟩, Hoth, Hg⟩, Ho, ⟨%d0, H0⟩, ⟨%d1, H1⟩, ⟨%d2, H2⟩, ⟨%d3, H3⟩, ⟨%d4, H4⟩, ⟨%d5, H5⟩⟩
      have hacc : k0_pay3 (iblk0 V c 0 t) f (iblk0 V c 1 t) = acc0 V c t.val t.isLt :=
        accIs_next V c t h0 f hf t.val t.isLt (Fin.val_succ t)
      rw [← hacc]
      iapply (run_last c Set.univ (grid0.coords t) _ _ _ _ _ _ _ _ _ _ _ _ _ _ (fun h => h0 ((hcond1 t).mp h)) ((hcond2 t).mpr h4)
        (iblk0 V c 0 t) (iblk0 V c 1 t) (iblk0 V c 2 t) (iblk0 V c 3 t) f _)
      isplitl [H0]; · iexact H0
      isplitl [H1]; · iexact H1
      isplitl [H2]; · iexact H2
      isplitl [H3]; · iexact H3
      isplitl [H4]; · iexists _; iexact H4
      isplitl [H5]; · iexists _; iexact H5
      isplitl [HS]; · iexact HS
      iintro ⟨H0, H1, H2, H3, H4, H5, HS⟩
      isplitl [HS Hoth Hg]
      · isplitl [HS]
        · iexists _; isplitr
          swap; · iexact HS
          ipureintro; exact accIs_next V c t h0 f hf
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [leaves0_4_idle V c t h4]
      iintro ⟨⟨⟨%f, %hf, HS⟩, Hoth, Hg⟩, Ho, ⟨%d0, H0⟩, ⟨%d1, H1⟩, ⟨%d2, H2⟩, ⟨%d3, H3⟩, ⟨%d4, H4⟩, ⟨%d5, H5⟩⟩
      iapply (run_mid c Set.univ (grid0.coords t) _ _ _ _ _ _ _ _ _ _ _ _ _ _ (fun h => h0 ((hcond1 t).mp h)) (fun h => h4 ((hcond2 t).mp h))
        (iblk0 V c 0 t) (iblk0 V c 1 t) (iblk0 V c 2 t) (iblk0 V c 3 t) ((dat0 V c).before 4 t d4) f _)
      isplitl [H0]; · iexact H0
      isplitl [H1]; · iexact H1
      isplitl [H2]; · iexact H2
      isplitl [H3]; · iexact H3
      isplitl [H4]; · iexact H4
      isplitl [H5]; · iexists _; iexact H5
      isplitl [HS]; · iexact HS
      iintro ⟨H0, H1, H2, H3, H4, H5, HS⟩
      isplitl [HS Hoth Hg]
      · isplitl [HS]
        · iexists _; isplitr
          swap; · iexact HS
          ipureintro; exact accIs_next V c t h0 f hf
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexists d4; iexact H4
      iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## Into the region and out of it -/

/-- What the launch hands the region is the invariant before the first point: nothing is stated of the accumulator there. -/
theorem hin0 (c : Dev nD) :
    iprop((∃ r, prngReg c r) ∗ Pipeline.scopedRest (Ix := Unit) (Name := ℕ) (U := UR sig nD τ) (Lvl := ℕ) (Val := Elt F) spec0 c)
      ⊢ (dat0 (F := F) V c).Φ 0 := by
  rw [Φ_eq0, scopedRest0_eq]; unfold Φ0 others0
  iintro ⟨Hg, ⟨%f, Hs⟩, Hrest⟩
  isplitl [Hs]
  · iexists f; isplitr
    · ipureintro; intro n h e; exact absurd e (by simp)
    iexact Hs
  isplitl [Hrest]; · iexact Hrest
  iexact Hg

/-- After the last point the invariant gives it back: the accumulator's named contents are forgotten. -/
theorem hout0 (c : Dev nD) :
    (dat0 (F := F) V c).Φ (Fin.last cfg0.N)
      ⊢ iprop((∃ r, prngReg c r) ∗ Pipeline.scopedRest (Ix := Unit) (Name := ℕ) (U := UR sig nD τ) (Lvl := ℕ) (Val := Elt F) spec0 c) := by
  rw [Φ_eq0, scopedRest0_eq]; unfold Φ0 others0
  iintro ⟨⟨%f, -, Hs⟩, Hrest, Hg⟩
  isplitl [Hg]; · iexact Hg
  isplitl [Hs]; · iexists f; iexact Hs
  iexact Hrest

/-- info: 'Cert.KernelIdeal.R0.body_obligation0' depends on axioms: [propext, Classical.choice, Quot.sound] -/
#guard_msgs in #print axioms body_obligation0
/-- info: 'Cert.KernelIdeal.R0.hin0' depends on axioms: [propext, Classical.choice, Quot.sound] -/
#guard_msgs in #print axioms hin0
/-- info: 'Cert.KernelIdeal.R0.hout0' depends on axioms: [propext, Classical.choice, Quot.sound] -/
#guard_msgs in #print axioms hout0

end Cert.KernelIdeal.R0

end
-- ==== Proof.KI.R1Data.lean ====
/-
  Region 1 (the second aggregation pass): what the pipeline's buffers hold point by point.

  The grid is 10 row tiles by 2 column tiles of the dense edge-weight operator in the narrow format. At a point
  the body adds the tile's product with the matching rows of the previous layer's features to an accumulator
  kept in scratch (reset at the first column tile of a row tile), and at the last column tile projects the
  accumulator through the weights, adds the bias, applies the logistic function, zeroes the rows past the node
  count and stores the result into the output's buffer. The accumulator after point `n` is a recursion on
  `n` (`acc1`).
-/
import proofs.«408395_j7919919694206_3_alg».proof.Proof.Gen.KernelIdeal.Skeleton
import proofs.«408395_j7919919694206_3_alg».proof.Proof.Gen.KernelIdeal.Launch
import proofs.«408395_j7919919694206_3_alg».proof.Proof.Gen.KernelIdeal.Points
import Idealize.ShloMosaic.Lib.Tactic
import Idealize.ShloMosaic.Lib.Pipeline.Kit
import Idealize.ShloMosaic.Lib.Pipeline.Frame
import Idealize.ShloMosaic.Lib.Pipeline.Regions

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c.tc : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after the body at point `n`: the point's product added to zero at the first column tile
    of a row tile (`n % 2 = 0`) and to what the point before left otherwise. -/
def acc1 (c : Dev nD) : (n : Nat) → (h : n < cfg1.N) → Vec F S1024x256 .f32
  | 0, h => k1_pay2 (k1_pay1 (F := F)) (iblk1 V c 0 ⟨0, h⟩) (iblk1 V c 1 ⟨0, h⟩)
  | n + 1, h => k1_pay2 (if (n + 1) % 2 = 0 then (k1_pay1 (F := F)) else acc1 c n (Nat.lt_of_succ_lt h))
      (iblk1 V c 0 ⟨n + 1, h⟩) (iblk1 V c 1 ⟨n + 1, h⟩)

/-- What the scratch accumulator holds BEFORE point `t`: nothing stated before the first point, else the
    accumulator after point `t - 1`. -/
def AccIs (c : Dev nD) (t : Fin (cfg1.N + 1)) (f : Buf (Elt F) ((c : Thread nD τ).loc cc1_scratch0)) : Prop :=
  ∀ (n : Nat) (h : n < cfg1.N), t.val = n + 1 → f = acc1 V c n h

/-- The core's scoped buffers other than this region's staging buffers and its accumulator: the first region's
    staging buffers and accumulator, each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f))

/-- The region's invariant before point `t`: the other scoped buffers at some contents, the accumulator's buffer
    whole at contents that are the recursion's (`AccIs`), the generator register at some state. -/
def Φ1 (c : Dev nD) (t : Fin (cfg1.N + 1)) : sProp 𝕄 :=
  iprop(others1 (F := F) c
    ∗ (∃ f : Buf (Elt F) ((c : Thread nD τ).loc cc1_scratch0), ⌜AccIs V c t f⌝ ∗ ((c : Thread nD τ).loc cc1_scratch0) ↦{fullShare} f)
    ∗ ∃ r, prngReg c r)

/-- The proof data of region 1 on core `c`: the arrays as the region finds them; after the body at point `t`
    each input's buffer at its block, the output's at the projected accumulator (stated at every point, read
    only where the block is written back); the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay3 (grid1.coords t) (acc1 V c t.val t.isLt) (iblk1 V c 2 t) (iblk1 V c 3 t)
  Φ t := Φ1 V c t
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay3 (grid1.coords t) (acc1 V c t.val t.isLt) (iblk1 V c 2 t) (iblk1 V c 3 t) := by dsimp only [dat1]
theorem Φ_eq1 (c : Dev nD) (t : Fin (cfg1.N + 1)) : (dat1 V c).Φ t = Φ1 V c t := by dsimp only [dat1]

end Cert.KernelIdeal.R1

end
-- ==== Proof.KI.R1Frame.lean ====
/-
  Region 1 (the second aggregation pass): the body's triple at every grid point, and the invariant at the region's
  two ends.

  The grid is 10 row tiles by 2 column tiles, and the body branches twice on the column tile. At the first column
  tile of a row tile it resets the accumulator to zero, adds the tile's product with the matching feature rows, and
  stores nothing into the output's buffer, which it hands back as it found it. At the last column tile it adds the
  tile's product to what the point before left, then projects the accumulator through the weights, adds the bias,
  applies the logistic function, zeroes the rows past the node count and stores that into the output's buffer. Every
  load and store is through the whole buffer, so a load reads the contents and a store leaves its payload.

  Each control case is one triple on whole buffers, with the two conditions decided from the case's hypothesis; the
  conditions are decided in closed form over the grid (the column tile is the point's position modulo 2). At a generic
  point the two cases are joined by the parity of the position: the accumulator's contents before the point are the
  recursion's value at the point before (`AccIs`), and after it the recursion's value at the point (`acc1` unfolded one
  step). Before the first point nothing is stated of the accumulator, and after the last its contents are forgotten.
-/
import proofs.«408395_j7919919694206_3_alg».proof.Proof.KI.R1Data
import Idealize.ShloMosaic.Lib.Pipeline.FrameBody
import Idealize.ShloMosaic.Lib.Pipeline.Value

noncomputable section

namespace Cert.KernelIdeal.R1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first conditional's condition (reset the accumulator), from the grid coordinates. -/
abbrev cond1_1 (i : grid1.Coords) : Prop :=
  (Scalar.cmpi .ne (Scalar.extui (Scalar.cmpi .eq (BitVec.ofNat 32 (i 1).val) 0#32)) 0#32) = 1#1

/-- It holds exactly at the first column tile of a row tile. -/
theorem hcond1_1 : ∀ t : Fin cfg1.N, cond1_1 (grid1.coords t) ↔ t.val % 2 = 0 :=
  (by decide +kernel : ∀ t : Fin grid1.N, cond1_1 (grid1.coords t) ↔ t.val % 2 = 0)

/-- The second conditional's condition (project and store) holds exactly at the last column tile. -/
theorem hcond1_2 : ∀ t : Fin cfg1.N, k1_cond2 (grid1.coords t) = 1#1 ↔ t.val % 2 = 1 :=
  (by decide +kernel : ∀ t : Fin grid1.N, k1_cond2 (grid1.coords t) = 1#1 ↔ t.val % 2 = 1)

/-- The zero offsets, however spelt. -/
theorem hz2 : (![0, 0] : Fin 2 → Nat) = fun _ => 0 := funext fun a => by fin_cases a <;> rfl

set_option maxHeartbeats 1000000 in
/-- The body where the first conditional is taken and the second is not: the inputs and the idle output are handed back
    as found, the accumulator ends at the point's product added to zero. -/
theorem run1_reset (c : Dev nD) (E : Set ℕ) (i : grid1.Coords)
    (arg2 : Memref sig .tc .vmem S1024x5120 .bf16) (harg2 : arg2.IsWhole)
    (arg3 : Memref sig .tc .vmem S5120x256 .bf16) (harg3 : arg3.IsWhole)
    (arg4 : Memref sig .tc .vmem S256x512 .bf16) (harg4 : arg4.IsWhole)
    (arg5 : Memref sig .tc .vmem S1x512 .f32) (harg5 : arg5.IsWhole)
    (arg6 : Memref sig .tc .vmem S1024x512 .f32) (harg6 : arg6.IsWhole)
    (arg7 : Memref sig .tc .vmem S1024x256 .f32) (harg7 : arg7.IsWhole)
    (hc1 : cond1_1 i) (hc2 : ¬ k1_cond2 i = 1#1)
    (x0 : Vec F S1024x5120 .bf16) (x1 : Vec F S5120x256 .bf16) (x2 : Vec F S256x512 .bf16) (x3 : Vec F S1x512 .f32)
    (xi4 : Vec F S1024x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4 ∗ (∃ d, owns (c : Thread nD τ) arg7 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xi4
            ∗ owns (c : Thread nD τ) arg7 fullShare (k1_pay2 (k1_pay1 (F := F)) x0 x1)) -∗ K ⟨⟩))
      ⊢ wp frame (wpE (defs₀ (F := F)) Variants.none c none) E
          (cc1__agg_kernel_plain i arg2 harg2 arg3 harg3 arg4 harg4 arg5 harg5 arg6 harg6 arg7 harg7) K := by
  simp only [cc1__agg_kernel_plain_eq_skeleton]; unfold cc1__agg_kernel_plain_skel
  unfold owns
  iintro ⟨⟨%f0, %hf0, H0⟩, ⟨%f1, %hf1, H1⟩, ⟨%f2, %hf2, H2⟩, ⟨%f3, %hf3, H3⟩, ⟨%f4, %hf4, H4⟩, ⟨%d7, %f7, -, H7⟩, Hk⟩
  subst hf0; subst hf1; subst hf2; subst hf3; subst hf4
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H7
  ipureintro
  sl_unfold_run_names
  rw [View.read_writes_eq_canon _ _ _ (fun y => ⟨_, List.mem_cons_self, View.mem_set_unit_zero hz2 inb_S1024x256_S1024x256_0_0 y⟩),
    View.canon_cons_unit_zero hz2, View.readAt_eq_ld, View.readAt_eq_ld, View.ld_unit_zero hz2, View.ld_unit_zero hz2,
    View.readCov_unit_zero _ hz2]

set_option maxHeartbeats 1000000 in
/-- The body where the first conditional is not taken and the second is: the inputs are handed back as found, the
    accumulator ends at the point's product added to what it held, and the output's buffer at the projection of that. -/
theorem run1_step (c : Dev nD) (E : Set ℕ) (i : grid1.Coords)
    (arg2 : Memref sig .tc .vmem S1024x5120 .bf16) (harg2 : arg2.IsWhole)
    (arg3 : Memref sig .tc .vmem S5120x256 .bf16) (harg3 : arg3.IsWhole)
    (arg4 : Memref sig .tc .vmem S256x512 .bf16) (harg4 : arg4.IsWhole)
    (arg5 : Memref sig .tc .vmem S1x512 .f32) (harg5 : arg5.IsWhole)
    (arg6 : Memref sig .tc .vmem S1024x512 .f32) (harg6 : arg6.IsWhole)
    (arg7 : Memref sig .tc .vmem S1024x256 .f32) (harg7 : arg7.IsWhole)
    (hc1 : ¬ cond1_1 i) (hc2 : k1_cond2 i = 1#1)
    (x0 : Vec F S1024x5120 .bf16) (x1 : Vec F S5120x256 .bf16) (x2 : Vec F S256x512 .bf16) (x3 : Vec F S1x512 .f32)
    (xs : Vec F S1024x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d) ∗ owns (c : Thread nD τ) arg7 fullShare xs
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay3 i (k1_pay2 xs x0 x1) x2 x3)
            ∗ owns (c : Thread nD τ) arg7 fullShare (k1_pay2 xs x0 x1)) -∗ K ⟨⟩))
      ⊢ wp frame (wpE (defs₀ (F := F)) Variants.none c none) E
          (cc1__agg_kernel_plain i arg2 harg2 arg3 harg3 arg4 harg4 arg5 harg5 arg6 harg6 arg7 harg7) K := by
  simp only [cc1__agg_kernel_plain_eq_skeleton]; unfold cc1__agg_kernel_plain_skel
  unfold owns
  iintro ⟨⟨%f0, %hf0, H0⟩, ⟨%f1, %hf1, H1⟩, ⟨%f2, %hf2, H2⟩, ⟨%f3, %hf3, H3⟩, ⟨%d4, %f4, -, H4⟩, ⟨%f7, %hf7, H7⟩, Hk⟩
  subst hf0; subst hf1; subst hf2; subst hf3; subst hf7
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    rw [View.read_writes_eq_canon _ _ _ (fun y => ⟨_, List.mem_cons_self, View.mem_set_unit_zero hz2 inb_S1024x512_S1024x512_0_0 y⟩),
      View.canon_unit_zero hz2, View.readAt_eq_ld, View.readAt_eq_ld, View.ld_unit_zero hz2, View.ld_unit_zero hz2,
      View.readCov_unit_zero _ hz2, View.readAt_eq_ld, View.readAt_eq_ld, View.readAt_eq_ld,
      View.ld_unit_zero hz2, View.ld_unit_zero hz2, View.ld_unit_zero hz2]
  iexists _; isplitr
  swap; · iexact H7
  ipureintro
  sl_unfold_run_names
  rw [View.read_writes_eq_canon _ _ _ (fun y => ⟨_, List.mem_cons_self, View.mem_set_unit_zero hz2 inb_S1024x256_S1024x256_0_0 y⟩),
    View.canon_unit_zero hz2, View.readAt_eq_ld, View.readAt_eq_ld, View.readAt_eq_ld,
    View.ld_unit_zero hz2, View.ld_unit_zero hz2, View.ld_unit_zero hz2]

/-- The same two runs with the accumulator the kernel's own scratch buffer, held whole (a whole buffer owned at
    contents is its points-to). -/
theorem run1_reset_scr (c : Dev nD) (E : Set ℕ) (i : grid1.Coords)
    (arg2 : Memref sig .tc .vmem S1024x5120 .bf16) (harg2 : arg2.IsWhole)
    (arg3 : Memref sig .tc .vmem S5120x256 .bf16) (harg3 : arg3.IsWhole)
    (arg4 : Memref sig .tc .vmem S256x512 .bf16) (harg4 : arg4.IsWhole)
    (arg5 : Memref sig .tc .vmem S1x512 .f32) (harg5 : arg5.IsWhole)
    (arg6 : Memref sig .tc .vmem S1024x512 .f32) (harg6 : arg6.IsWhole)
    (hc1 : cond1_1 i) (hc2 : ¬ k1_cond2 i = 1#1)
    (x0 : Vec F S1024x5120 .bf16) (x1 : Vec F S5120x256 .bf16) (x2 : Vec F S256x512 .bf16) (x3 : Vec F S1x512 .f32)
    (xi4 : Vec F S1024x512 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare xi4
        ∗ (∃ f : Buf (Elt F) ((c : Thread nD τ).loc cc1_scratch0), ((c : Thread nD τ).loc cc1_scratch0) ↦{fullShare} f)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare xi4
            ∗ ((c : Thread nD τ).loc cc1_scratch0) ↦{fullShare} (k1_pay2 (k1_pay1 (F := F)) x0 x1)) -∗ K ⟨⟩))
      ⊢ wp frame (wpE (defs₀ (F := F)) Variants.none c none) E
          (cc1__agg_kernel_plain i arg2 harg2 arg3 harg3 arg4 harg4 arg5 harg5 arg6 harg6 (Memref.whole cc1_scratch0) (Memref.isWhole_whole _)) K := by
  have h := run1_reset c E i arg2 harg2 arg3 harg3 arg4 harg4 arg5 harg5 arg6 harg6 (Memref.whole cc1_scratch0) (Memref.isWhole_whole _)
    hc1 hc2 x0 x1 x2 x3 xi4 K
  simp only [owns_whole] at h
  exact h

theorem run1_step_scr (c : Dev nD) (E : Set ℕ) (i : grid1.Coords)
    (arg2 : Memref sig .tc .vmem S1024x5120 .bf16) (harg2 : arg2.IsWhole)
    (arg3 : Memref sig .tc .vmem S5120x256 .bf16) (harg3 : arg3.IsWhole)
    (arg4 : Memref sig .tc .vmem S256x512 .bf16) (harg4 : arg4.IsWhole)
    (arg5 : Memref sig .tc .vmem S1x512 .f32) (harg5 : arg5.IsWhole)
    (arg6 : Memref sig .tc .vmem S1024x512 .f32) (harg6 : arg6.IsWhole)
    (hc1 : ¬ cond1_1 i) (hc2 : k1_cond2 i = 1#1)
    (x0 : Vec F S1024x5120 .bf16) (x1 : Vec F S5120x256 .bf16) (x2 : Vec F S256x512 .bf16) (x3 : Vec F S1x512 .f32)
    (xs : Vec F S1024x256 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (((c : Thread nD τ).loc cc1_scratch0) ↦{fullShare} xs)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k1_pay3 i (k1_pay2 xs x0 x1) x2 x3)
            ∗ ((c : Thread nD τ).loc cc1_scratch0) ↦{fullShare} (k1_pay2 xs x0 x1)) -∗ K ⟨⟩))
      ⊢ wp frame (wpE (defs₀ (F := F)) Variants.none c none) E
          (cc1__agg_kernel_plain i arg2 harg2 arg3 harg3 arg4 harg4 arg5 harg5 arg6 harg6 (Memref.whole cc1_scratch0) (Memref.isWhole_whole _)) K := by
  have h := run1_step c E i arg2 harg2 arg3 harg3 arg4 harg4 arg5 harg5 arg6 harg6 (Memref.whole cc1_scratch0) (Memref.isWhole_whole _)
    hc1 hc2 x0 x1 x2 x3 xs K
  simp only [owns_whole] at h
  exact h

variable (V : (c : Dev nD) → (b : Ref sig .tc) → Buf (Elt F) ((c : Thread nD τ).loc b))

/-! ## What the body finds in the inputs' buffers and where the output is idle -/

/-- Each input's current staging buffer holds its block at every point, fetched there or not: unfetched, the block
    index has not moved, and the body leaves the block in place. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)

/-- At the first column tile of a row tile the output is idle and not written back; at the last it is stored. -/
theorem idleAt1_4 : ∀ t : Fin cfg1.N, t.val % 2 = 0 → cfg1.idle 4 (grid1.coords t) = true :=
  (by decide +kernel : ∀ t : Fin grid1.N, t.val % 2 = 0 → idle1 4 (grid1.coords t) = true)
theorem liveAt1_4 : ∀ t : Fin cfg1.N, t.val % 2 = 1 → cfg1.idle 4 (grid1.coords t) = false :=
  (by decide +kernel : ∀ t : Fin grid1.N, t.val % 2 = 1 → idle1 4 (grid1.coords t) = false)
theorem noFlush1_4 (t : Fin cfg1.N) (h : t.val % 2 = 0) : (cfg1.win 4).flush t = false :=
  Bool.eq_false_iff.mpr fun hf => by have := (flush1_4 t).mp hf; omega

/-- The inputs are never idle: each is handed back at its block. -/
theorem leaves1_0 (c : Dev nD) (t : Fin cfg1.N) :
    (dat1 V c).leavesExact 0 t = owns (c : Thread nD τ) (st1_0 t) fullShare (iblk1 V c 0 t) := by
  unfold Dat.leavesExact; rw [show cfg1.idle 0 (cfg1.grid.coords t) = false from rfl, after1_0]
theorem leaves1_1 (c : Dev nD) (t : Fin cfg1.N) :
    (dat1 V c).leavesExact 1 t = owns (c : Thread nD τ) (st1_1 t) fullShare (iblk1 V c 1 t) := by
  unfold Dat.leavesExact; rw [show cfg1.idle 1 (cfg1.grid.coords t) = false from rfl, after1_1]
theorem leaves1_2 (c : Dev nD) (t : Fin cfg1.N) :
    (dat1 V c).leavesExact 2 t = owns (c : Thread nD τ) (st1_2 t) fullShare (iblk1 V c 2 t) := by
  unfold Dat.leavesExact; rw [show cfg1.idle 2 (cfg1.grid.coords t) = false from rfl, after1_2]
theorem leaves1_3 (c : Dev nD) (t : Fin cfg1.N) :
    (dat1 V c).leavesExact 3 t = owns (c : Thread nD τ) (st1_3 t) fullShare (iblk1 V c 3 t) := by
  unfold Dat.leavesExact; rw [show cfg1.idle 3 (cfg1.grid.coords t) = false from rfl, after1_3]

/-! ## The accumulator's recursion, one step at a time -/

/-- At the first column tile of a row tile the accumulator is the point's product added to zero. -/
theorem acc1_reset (c : Dev nD) (t : Fin cfg1.N) (h : t.val % 2 = 0) :
    acc1 V c t.val t.isLt = k1_pay2 (k1_pay1 (F := F)) (iblk1 V c 0 t) (iblk1 V c 1 t) := by
  obtain ⟨n, hn⟩ := t
  cases n with
  | zero => dsimp only; rw [acc1]
  | succ n => dsimp only at h ⊢; rw [acc1, if_pos h]

/-- At the last it is the point's product added to what the point before left. -/
theorem acc1_step (c : Dev nD) (t : Fin cfg1.N) (h : t.val % 2 = 1) :
    acc1 V c t.val t.isLt
      = k1_pay2 (acc1 V c (t.val - 1) (Nat.lt_of_le_of_lt (Nat.sub_le _ _) t.isLt)) (iblk1 V c 0 t) (iblk1 V c 1 t) := by
  obtain ⟨n, hn⟩ := t
  cases n with
  | zero => dsimp only at h; omega
  | succ n => dsimp only at h ⊢; rw [acc1, if_neg (by omega)]; rfl

/-- Before the first point nothing is stated of the accumulator. -/
theorem accIs_zero (c : Dev nD) (f : Buf (Elt F) ((c : Thread nD τ).loc cc1_scratch0)) : AccIs V c 0 f :=
  fun n h e => absurd e (by rw [Fin.val_zero]; omega)

/-- After point `t` the accumulator is the recursion's value there. -/
theorem accIs_succ (c : Dev nD) (t : Fin cfg1.N) : AccIs V c t.succ (acc1 V c t.val t.isLt) := by
  intro n h e
  have hn : n = t.val := by rw [Fin.val_succ] at e; omega
  subst hn; rfl

/-- Before a later point it is the recursion's value at the point before. -/
theorem accIs_castSucc (c : Dev nD) (t : Fin cfg1.N) (f : Buf (Elt F) ((c : Thread nD τ).loc cc1_scratch0))
    (hf : AccIs V c t.castSucc f) (ht : t.val ≠ 0) :
    f = acc1 V c (t.val - 1) (Nat.lt_of_le_of_lt (Nat.sub_le _ _) t.isLt) :=
  hf (t.val - 1) _ (by rw [Fin.coe_castSucc]; omega)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 1600000 in
/-- The body at any point: the inputs' buffers hold their blocks; by the column tile's parity the point resets the
    accumulator and leaves the output untouched, or adds into what the point before left and stores the projection;
    either way the accumulator ends at the recursion's value at the point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [leaves1_0, leaves1_1, leaves1_2, leaves1_3]
  rw [Φ_eq1, Φ_eq1]; unfold Φ1
  rcases Nat.mod_two_eq_zero_or_one t.val with h | h
  · rw [Dat.leavesExact_idle (dat1 V c) 4 t (idleAt1_4 t h) (noFlush1_4 t h)]
    iintro ⟨⟨Hoth, ⟨%f, %hf, Hs⟩, Hg⟩, Ho, ⟨%d0, H0⟩, ⟨%d1, H1⟩, ⟨%d2, H2⟩, ⟨%d3, H3⟩, ⟨%d4, H4⟩⟩
    iapply (run1_reset_scr c Set.univ (grid1.coords t) _ _ _ _ _ _ _ _ _ _ ((hcond1_1 t).mpr h)
      (fun h2 => by have := (hcond1_2 t).mp h2; omega)
      (iblk1 V c 0 t) (iblk1 V c 1 t) (iblk1 V c 2 t) (iblk1 V c 3 t) ((dat1 V c).before 4 t d4) _)
    isplitl [H0]; · iexact H0
    isplitl [H1]; · iexact H1
    isplitl [H2]; · iexact H2
    isplitl [H3]; · iexact H3
    isplitl [H4]; · iexact H4
    isplitl [Hs]; · iexists f; iexact Hs
    iintro ⟨H0, H1, H2, H3, H4, Hs⟩
    isplitl [Hoth Hs Hg]
    · isplitl [Hoth]; · iexact Hoth
      isplitl [Hs]
      · iexists _; isplitr
        swap; · iexact Hs
        ipureintro
        rw [← acc1_reset V c t h]; exact accIs_succ V c t
      iexact Hg
    isplitl [Ho]; · iexact Ho
    isplitl [H0]; · iexact H0
    isplitl [H1]; · iexact H1
    isplitl [H2]; · iexact H2
    isplitl [H3]; · iexact H3
    iexists d4; iexact H4
  · have ht : t.val ≠ 0 := by omega
    rw [show (dat1 V c).leavesExact 4 t = owns (c : Thread nD τ) (st1_4 t) fullShare ((dat1 V c).after 4 t) from by
      unfold Dat.leavesExact; rw [liveAt1_4 t h], after1_4, acc1_step V c t h]
    iintro ⟨⟨Hoth, ⟨%f, %hf, Hs⟩, Hg⟩, Ho, ⟨%d0, H0⟩, ⟨%d1, H1⟩, ⟨%d2, H2⟩, ⟨%d3, H3⟩, ⟨%d4, H4⟩⟩
    obtain rfl := accIs_castSucc V c t f hf ht
    iapply (run1_step_scr c Set.univ (grid1.coords t) _ _ _ _ _ _ _ _ _ _
      (fun h1 => by have := (hcond1_1 t).mp h1; omega) ((hcond1_2 t).mpr h)
      (iblk1 V c 0 t) (iblk1 V c 1 t) (iblk1 V c 2 t) (iblk1 V c 3 t)
      (acc1 V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexists _; iexact H4
    isplitl [Hs]; · iexact Hs
    iintro ⟨H0, H1, H2, H3, H4, Hs⟩
    isplitl [Hoth Hs Hg]
    · isplitl [Hoth]; · iexact Hoth
      isplitl [Hs]
      · iexists _; isplitr
        swap; · iexact Hs
        ipureintro
        rw [← acc1_step V c t h]; exact accIs_succ V c t
      iexact Hg
    isplitl [Ho]; · iexact Ho
    isplitl [H0]; · iexact H0
    isplitl [H1]; · iexact H1
    isplitl [H2]; · iexact H2
    isplitl [H3]; · iexact H3
    iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The invariant at the region's two ends -/

/-- What the launch hands the region — the generator register and the scoped buffers that are no staging buffer of
    the region, each whole at some contents — is the invariant before the first point: nothing is stated of the
    accumulator there. -/
theorem hin1 (c : Dev nD) :
    iprop((∃ r, prngReg c r) ∗ Pipeline.scopedRest (Ix := Unit) (Name := ℕ) (U := UR sig nD τ) (Lvl := ℕ) (Val := Elt F) spec1 c)
      ⊢ (dat1 (F := F) V c).Φ 0 := by
  rw [Φ_eq1, scopedRest1_eq]; unfold Φ1 others1
  iintro ⟨Hp, H0, H1, H2, H3, H4, H5, H6, H7, H8, H9, H10, ⟨%f, Hs⟩⟩
  isplitl [H0 H1 H2 H3 H4 H5 H6 H7 H8 H9 H10]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [Hs]
  · iexists f; isplitr; · ipureintro; exact accIs_zero V c f
    iexact Hs
  iexact Hp

/-- After the last point the invariant gives them back: what the accumulator holds is forgotten. -/
theorem hout1 (c : Dev nD) :
    (dat1 (F := F) V c).Φ (Fin.last cfg1.N)
      ⊢ iprop((∃ r, prngReg c r) ∗ Pipeline.scopedRest (Ix := Unit) (Name := ℕ) (U := UR sig nD τ) (Lvl := ℕ) (Val := Elt F) spec1 c) := by
  rw [Φ_eq1, scopedRest1_eq]; unfold Φ1 others1
  iintro ⟨⟨H0, H1, H2, H3, H4, H5, H6, H7, H8, H9, H10⟩, ⟨%f, -, Hs⟩, Hp⟩
  isplitl [Hp]; · iexact Hp
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexists f; iexact Hs

end Cert.KernelIdeal.R1

end
-- ==== Proof.KI.Launch.lean ====
/-
  The launch: the two aggregation passes as regions of @main, and the run.

  What a region leaves: its input arrays as it found them and each output array at the pipeline's account of the
  write-backs (the fold of the flushed blocks). The first pass is entered from the host prefix's results and leaves the
  second layer's features and the operator in the narrow format; the second pass is entered from those (and the host
  operations between) and leaves the third layer. The scratch accumulators are tracked inside each region's invariant
  and forgotten at its ends; the generator register and the core's (empty) dues ride along.
-/
import proofs.«408395_j7919919694206_3_alg».proof.Proof.KI.Run
import proofs.«408395_j7919919694206_3_alg».proof.Proof.KI.R0Frame
import proofs.«408395_j7919919694206_3_alg».proof.Proof.KI.R1Frame
import Idealize.ShloMosaic.Lib.Pipeline.FrameSuffix
import Idealize.ShloMosaic.Lib.Pipeline.RegionsLoop

noncomputable section

namespace Cert.KernelIdeal.Launch

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the regions leave -/

/-- The first pass's entry contents, read at the TensorCore's references. -/
abbrev E0 : (c : Dev nD) → (b : Ref sig .tc) → Buf (Elt F) ((c.tc : Thread nD τ).loc b) := fun c b => V3 m c b

/-- After the first pass: its arrays at what the pipeline leaves, every other buffer as entered. -/
def W4 (c : Dev nD) : Valuation τ sig (Elt F) :=
  Pipeline.withArrays spec0 c (V3 m c) fun w => (R0.dat0 (E0 m) c).arrAt w cfg0.N

/-- The unknowns of the valuations, chosen for the first pass only. -/
def outs4 : Outs (F := F) := fun _ r c => W4 m c r

/-- The second pass's entry contents. -/
abbrev E1 : (c : Dev nD) → (b : Ref sig .tc) → Buf (Elt F) ((c.tc : Thread nD τ).loc b) := fun c b => V5 m (outs4 m) c b

/-- After the second pass: its arrays at what the pipeline leaves, every other buffer as entered. -/
def W6 (c : Dev nD) : Valuation τ sig (Elt F) :=
  Pipeline.withArrays spec1 c (V5 m (outs4 m) c) fun w => (R1.dat1 (E1 m) c).arrAt w cfg1.N

/-- What the regions leave, item by item: after item 5 (the second pass) read off `W6`, before that off `W4`. -/
def outs : Outs (F := F) := fun J r c => if J = 6 then W6 m c r else W4 m c r

theorem outs_four (r : Ref sig .tc) (c : Dev nD) : outs m 4 r c = W4 m c r := if_neg (by decide)
theorem outs_six (r : Ref sig .tc) (c : Dev nD) : outs m 6 r c = W6 m c r := if_pos rfl

theorem W4_arr (c : Dev nD) (w : Fin cfg0.W) :
    W4 m c (Proc.devRef .tc (Pipeline.arrRef spec0 w)) = (R0.dat0 (E0 m) c).arrAt w cfg0.N := by
  unfold W4; exact Pipeline.withArrays_arr spec0 launch0.win.arr_inj c _ _ w
theorem W6_arr (c : Dev nD) (w : Fin cfg1.W) :
    W6 m c (Proc.devRef .tc (Pipeline.arrRef spec1 w)) = (R1.dat1 (E1 m) c).arrAt w cfg1.N := by
  unfold W6; exact Pipeline.withArrays_arr spec1 launch1.win.arr_inj c _ _ w

/-- The valuation after the first pass does not depend on the later choice. -/
theorem V4_outs (c : Dev nD) : V4 m (outs m) c = V4 m (outs4 m) c := by
  show Function.update (Function.update (V3 m c) main_v40_0 (outs m 4 main_v40_0 c)) main_v40_1 (outs m 4 main_v40_1 c) = _
  rw [outs_four, outs_four]
  rfl
theorem V5_outs (c : Dev nD) : V5 m (outs m) c = V5 m (outs4 m) c := by
  show StableHlo.after hostOps1 (V4 m (outs m) c) = StableHlo.after hostOps1 (V4 m (outs4 m) c)
  rw [V4_outs]

/-! ## What each region's arrays hold at its exit -/

/-- An input window's array is as the region found it (the pipeline never writes it). -/
theorem arrAt_in0 (c : Dev nD) (w : Fin cfg0.W) (hw : w.val < 4) :
    (R0.dat0 (E0 m) c).arrAt w cfg0.N = V3 m c (Pipeline.arrRef spec0 w) := by
  match w, hw with
  | ⟨0, _⟩, _ => exact ((R0.dat0 (E0 m) c).arrAt_in 0 rfl _).trans (R0.A_eq0 (E0 m) c 0)
  | ⟨1, _⟩, _ => exact ((R0.dat0 (E0 m) c).arrAt_in 1 rfl _).trans (R0.A_eq0 (E0 m) c 1)
  | ⟨2, _⟩, _ => exact ((R0.dat0 (E0 m) c).arrAt_in 2 rfl _).trans (R0.A_eq0 (E0 m) c 2)
  | ⟨3, _⟩, _ => exact ((R0.dat0 (E0 m) c).arrAt_in 3 rfl _).trans (R0.A_eq0 (E0 m) c 3)

theorem arrAt_in1 (c : Dev nD) (w : Fin cfg1.W) (hw : w.val < 4) :
    (R1.dat1 (E1 m) c).arrAt w cfg1.N = V5 m (outs4 m) c (Pipeline.arrRef spec1 w) := by
  match w, hw with
  | ⟨0, _⟩, _ => exact ((R1.dat1 (E1 m) c).arrAt_in 0 rfl _).trans (R1.A_eq1 (E1 m) c 0)
  | ⟨1, _⟩, _ => exact ((R1.dat1 (E1 m) c).arrAt_in 1 rfl _).trans (R1.A_eq1 (E1 m) c 1)
  | ⟨2, _⟩, _ => exact ((R1.dat1 (E1 m) c).arrAt_in 2 rfl _).trans (R1.A_eq1 (E1 m) c 2)
  | ⟨3, _⟩, _ => exact ((R1.dat1 (E1 m) c).arrAt_in 3 rfl _).trans (R1.A_eq1 (E1 m) c 3)

/-- At the first pass's exit each of its arrays holds what the pipeline leaves, -/
theorem hF0 (c : Dev nD) (w : Fin cfg0.W) :
    (R0.dat0 (E0 m) c).arrAt w cfg0.N = V4 m (outs m) c (Pipeline.arrRef spec0 w) := by
  match w with
  | ⟨0, _⟩ => exact (arrAt_in0 m c 0 (by decide)).trans (V4_of m (outs m) c _ (by decide)).symm
  | ⟨1, _⟩ => exact (arrAt_in0 m c 1 (by decide)).trans (V4_of m (outs m) c _ (by decide)).symm
  | ⟨2, _⟩ => exact (arrAt_in0 m c 2 (by decide)).trans (V4_of m (outs m) c _ (by decide)).symm
  | ⟨3, _⟩ => exact (arrAt_in0 m c 3 (by decide)).trans (V4_of m (outs m) c _ (by decide)).symm
  | ⟨4, _⟩ =>
    show _ = Function.update (Function.update (V3 m c) main_v40_0 (outs m 4 main_v40_0 c)) main_v40_1 (outs m 4 main_v40_1 c) (Proc.devRef .tc main_v40_0)
    rw [Function.update_of_ne (StableHlo.devRef_ne_of_ne (by decide)), Function.update_self, outs_four]
    exact (W4_arr m c 4).symm
  | ⟨5, _⟩ =>
    show _ = Function.update (Function.update (V3 m c) main_v40_0 (outs m 4 main_v40_0 c)) main_v40_1 (outs m 4 main_v40_1 c) (Proc.devRef .tc main_v40_1)
    rw [Function.update_self, outs_four]
    exact (W4_arr m c 5).symm
/-- and every other buffer what it held at entry. -/
theorem hrest0 (c : Dev nD) : ∀ b, b ∉ Finset.univ.image (Pipeline.arrRef spec0) → V4 m (outs m) c b = V3 m c b :=
  fun b hb => V4_of m (outs m) c b (by
    intro h
    rcases List.mem_cons.mp h with rfl | h
    · exact hb (Finset.mem_image.mpr ⟨4, Finset.mem_univ _, rfl⟩)
    · rcases List.mem_cons.mp h with rfl | h
      · exact hb (Finset.mem_image.mpr ⟨5, Finset.mem_univ _, rfl⟩)
      · exact absurd h (List.not_mem_nil))

/-- The valuation after the second pass, at the earlier choice of what the first pass leaves. -/
abbrev X6 (c : Dev nD) : Valuation τ sig (Elt F) := Function.update (V5 m (outs4 m) c) main_v42 (W6 m c main_v42)

theorem V6_outs (c : Dev nD) : V6 m (outs m) c = X6 m c := by
  show Function.update (V5 m (outs m) c) main_v42 (outs m 6 main_v42 c) = _
  rw [V5_outs, outs_six]

theorem hF1 (c : Dev nD) (w : Fin cfg1.W) :
    (R1.dat1 (E1 m) c).arrAt w cfg1.N = X6 m c (Pipeline.arrRef spec1 w) := by
  match w with
  | ⟨0, _⟩ => exact (arrAt_in1 m c 0 (by decide)).trans (Function.update_of_ne (StableHlo.devRef_ne_of_ne (by decide)) _ _).symm
  | ⟨1, _⟩ => exact (arrAt_in1 m c 1 (by decide)).trans (Function.update_of_ne (StableHlo.devRef_ne_of_ne (by decide)) _ _).symm
  | ⟨2, _⟩ => exact (arrAt_in1 m c 2 (by decide)).trans (Function.update_of_ne (StableHlo.devRef_ne_of_ne (by decide)) _ _).symm
  | ⟨3, _⟩ => exact (arrAt_in1 m c 3 (by decide)).trans (Function.update_of_ne (StableHlo.devRef_ne_of_ne (by decide)) _ _).symm
  | ⟨4, _⟩ =>
    show _ = Function.update (V5 m (outs4 m) c) main_v42 (W6 m c main_v42) (Proc.devRef .tc main_v42)
    rw [Function.update_self]
    exact (W6_arr m c 4).symm
theorem hrest1 (c : Dev nD) : ∀ b, b ∉ Finset.univ.image (Pipeline.arrRef spec1) → X6 m c b = V5 m (outs4 m) c b :=
  fun b hb => Function.update_of_ne (StableHlo.devRef_ne_of_ne (fun h => hb (Finset.mem_image.mpr ⟨4, Finset.mem_univ _, h.symm⟩))) _ _

/-! ## The proof data family and the thread state -/

/-- Both pipelines' proof data, each at its region's entry contents — a literal match on the pipeline index. -/
def pdats : (p : Fin 2) → (c : Dev nD) → Dat τ (Elt F) Unit ℕ (UR sig nD τ) ℕ (Pipeline.pin (pcfgs (F := F)) adm p) c
  | ⟨0, _⟩ => fun c => R0.dat0 (E0 m) c
  | ⟨1, _⟩ => fun c => R1.dat1 (E1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)

/-! ## The regions -/

set_option backward.isDefEq.respectTransparency.types false in
/-- Region 0 over the thread state: entered from every unscoped buffer at the entry valuation, left at the exit
    valuation. Its arrays are split out of the unscoped buffers at entry and put back at the pipeline's final contents
    at exit; the generator register enters the invariant and comes back; the scratch accumulator is tracked inside and
    forgotten at both ends; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation0 (E0 m) c).loose
  hwaits := Pipeline.hwaits_of_owed_zero _ _ _ _ L lv 0 fun _ _ => rfl
  pre c := iprop(StableHlo.held (c : Thread nD τ) (Pipeline.ucRefs τ sig) (V3 m c) ∗ R c)
  post c := iprop(StableHlo.held (c : Thread nD τ) (Pipeline.ucRefs τ sig) (V4 m (outs m) c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (R0.dat0 (E0 m) c).Φ 0 from rfl]
    iintro ⟨Hp, -, Hr⟩
    iapply (R0.hin0 (E0 m) c)
    isplitl [Hp]; · iexact Hp
    iexact Hr
  hout c := by
    rw [Pipeline.ownSems0_none, show (pdats m 0 c).Φ (Fin.last _) = (R0.dat0 (E0 m) c).Φ (Fin.last cfg0.N) from rfl]
    iintro HΦ
    ihave H := (R0.hout0 (E0 m) c) $$ HΦ
    icases H with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => V4 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the entry valuation, left at the exit
    valuation. Its arrays are split out of the unscoped buffers at entry and put back at the pipeline's final contents
    at exit; the generator register enters the invariant and comes back; the scratch accumulator is tracked inside and
    forgotten at both ends; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation1 (E1 m) c).loose
  hwaits := Pipeline.hwaits_of_owed_zero _ _ _ _ L lv 1 fun _ _ => rfl
  pre c := iprop(StableHlo.held (c : Thread nD τ) (Pipeline.ucRefs τ sig) (V5 m (outs4 m) c) ∗ R c)
  post c := iprop(StableHlo.held (c : Thread nD τ) (Pipeline.ucRefs τ sig) (X6 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (R1.dat1 (E1 m) c).Φ 0 from rfl]
    iintro ⟨Hp, -, Hr⟩
    iapply (R1.hin1 (E1 m) c)
    isplitl [Hp]; · iexact Hp
    iexact Hr
  hout c := by
    rw [Pipeline.ownSems0_none, show (pdats m 1 c).Φ (Fin.last _) = (R1.dat1 (E1 m) c).Φ (Fin.last cfg1.N) from rfl]
    iintro HΦ
    ihave H := (R1.hout1 (E1 m) c) $$ HΦ
    icases H with ⟨Hp, Hr⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => X6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- From any memory with zero counters every weakly fair execution of @main terminates, and every final memory holds the
    result buffer at the last valuation's contents and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v43) = V7 m (outs m) c main_v43
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Run.run_cond m (emb₁ : Emb (UR sig nD τ) 𝕄) () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      have hmono : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)))
          ⊢ (bigSep Finset.univ fun c : Dev nD => R (F := F) c : sProp 𝕄) :=
        bigSep_mono fun c _ => (show (iprop(unscopedSems0 c ∗ owes (c : Thread nD τ) ((0 : Dev nD → CellTallies nD τ sig Unit) c) ∅ ∗ Pipeline.launchCred (0 : Dev nD → CellTallies nD τ sig Unit) c ∗ prngReg c (ρ c) ∗ (iprop(emp) : sProp 𝕄)) : sProp 𝕄)
            ⊢ (R (F := F) c : sProp 𝕄) from by
          iintro ⟨-, HO, -, Hp, -⟩
          isplitl [Hp]; · iexists _; iexact Hp
          iexists ∅; iexact HO)
      iintro ⟨H, -⟩
      imodintro
      iapply hmono
      iexact H)
    (fun c => by iintro ⟨-, HO⟩; iexact HO)
    (reg0 m) (fun c => .rfl) (fun c => .rfl)
    (reg1 m) (fun c => by rw [V5_outs]; exact .rfl) (fun c => by rw [V6_outs]; exact .rfl)

/-- The frame: every argument ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.KernelIdeal.Launch

end
-- ==== Proof.Spec.lean ====
/-
  The two programs as mathematics, over literal shapes, at the extended reals.

  A graph has 10000 nodes and 160000 weighted edges `e : src e → dst e` (the two rows of the edge list, read as
  signed integers). One layer of the reference sends features `h` (one row per node) to
      (n, j) ↦ Σ_{e : dst e = n} (h · W)(src e, j) · w e  +  b j,
  gathering the projected row of each edge's source, scaling it by the edge's weight and summing over the edges
  that end at `n` (`refLayer`). The kernel instead builds once the dense operator
      S(d, s) = Σ_{e : dst e = d, src e = s} w e
  padded with zero rows and columns to 10240 (`Sop`), and computes each later layer as `((S · h) · W) + b` on
  features padded with zero rows, zeroing the padded rows of its result (`kerLayer`); its first layer aggregates
  the scalar input before projecting (`h1`). The result is the logistic function of the third layer.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals over a literal shape. -/
abbrev Mat (a b : Nat) : Type := (⟨2, ![a, b]⟩ : Shape).Idx → EReal
/-- A vector of extended reals over a literal shape. -/
abbrev Vct (a : Nat) : Type := (⟨1, ![a]⟩ : Shape).Idx → EReal
/-- The edge list: row 0 the sources, row 1 the targets, as 32-bit words. -/
abbrev Edges : Type := (⟨2, ![2, 160000]⟩ : Shape).Idx → BitVec 32

/-- Edge `e`'s source and target, read signed. -/
def src (ei : Edges) (e : Fin 160000) : Int := (ei (ix2 (0 : Fin 2) e)).toInt
def dst (ei : Edges) (e : Fin 160000) : Int := (ei (ix2 (1 : Fin 2) e)).toInt
/-- Every source and target is a node. -/
def InRange (ei : Edges) : Prop := ∀ (r : Fin 2) (e : Fin 160000), 0 ≤ (ei (ix2 r e)).toInt ∧ (ei (ix2 r e)).toInt < 10000
/-- Edge `e`'s source as a row of a 10000-row array (the source itself when it is a node). -/
def srcN (ei : Edges) (e : Fin 160000) : Fin 10000 := ⟨(src ei e).toNat % 10000, Nat.mod_lt _ (by decide)⟩

/-- The matrix product. -/
def mm {a b c : Nat} (l : Mat a b) (r : Mat b c) : Mat a c :=
  fun i => ∑ q : Fin b, l (ix2 (i 0) q) * r (ix2 q (i 1))

/-- Gather each edge's source row of `g`, scale it by the edge's weight, sum over the edges that end at the row. -/
def edgeAgg (ei : Edges) (ew : Vct 160000) {c : Nat} (g : Mat 10000 c) : Mat 10000 c :=
  fun i => ∑ e : Fin 160000, if dst ei e = ((i 0).val : Int) then g (ix2 (srcN ei e) (i 1)) * ew (ix1 e) else 0

/-- One layer of the reference: project, aggregate along the edges, add the bias. -/
def refLayer (ei : Edges) (ew : Vct 160000) {a b : Nat} (h : Mat 10000 a) (W : Mat a b) (bias : Vct b) : Mat 10000 b :=
  fun i => edgeAgg ei ew (mm h W) i + bias (ix1 (i 1))

/-- The reference: three layers, then the logistic function. -/
def refOut (x : Mat 10000 1) (ei : Edges) (ew : Vct 160000) (W1 : Mat 1 128) (b1 : Vct 128) (W2 : Mat 128 256) (b2 : Vct 256)
    (W3 : Mat 256 512) (b3 : Vct 512) : Mat 10000 512 :=
  fun i => Ideal.logistic (refLayer ei ew (refLayer ei ew (refLayer ei ew x W1 b1) W2 b2) W3 b3 i)

/-- The dense operator, padded: the summed weight of the edges from column `s` to row `d`. -/
def Sop (ei : Edges) (ew : Vct 160000) : Mat 10240 10240 :=
  fun i => ∑ e : Fin 160000, if dst ei e = ((i 0).val : Int) ∧ src ei e = ((i 1).val : Int) then ew (ix1 e) else 0

/-- Features padded with zero rows to 10240. -/
def padRows {c : Nat} (h : Mat 10000 c) : Mat 10240 c :=
  fun i => if hlt : (i 0).val < 10000 then h (ix2 ⟨(i 0).val, hlt⟩ (i 1)) else 0

/-- The kernel's first layer: aggregate the scalar input along the edges, then project and add the bias. -/
def h1 (x : Mat 10000 1) (ei : Edges) (ew : Vct 160000) (W1 : Mat 1 128) (b1 : Vct 128) : Mat 10000 128 :=
  fun i => mm (edgeAgg ei ew x) W1 i + b1 (ix1 (i 1))

/-- One dense layer of the kernel on padded features: `act (((S · h) · W) + b)` on the node rows, zero on the padding. -/
def kerLayer {a b : Nat} (S : Mat 10240 10240) (h : Mat 10240 a) (W : Mat a b) (bias : Vct b) (act : EReal → EReal) : Mat 10240 b :=
  fun i => if (i 0).val < 10000 then act (mm (mm S h) W i + bias (ix1 (i 1))) else 0

/-- The kernel's second layer, padded (what the first aggregation pass writes). -/
def ker2 (x : Mat 10000 1) (ei : Edges) (ew : Vct 160000) (W1 : Mat 1 128) (b1 : Vct 128) (W2 : Mat 128 256) (b2 : Vct 256) : Mat 10240 256 :=
  kerLayer (Sop ei ew) (padRows (h1 x ei ew W1 b1)) W2 b2 id

/-- The kernel's third layer with the logistic function, padded (what the second aggregation pass writes). -/
def ker3 (x : Mat 10000 1) (ei : Edges) (ew : Vct 160000) (W1 : Mat 1 128) (b1 : Vct 128) (W2 : Mat 128 256) (b2 : Vct 256)
    (W3 : Mat 256 512) (b3 : Vct 512) : Mat 10240 512 :=
  kerLayer (Sop ei ew) (ker2 x ei ew W1 b1 W2 b2) W3 b3 Ideal.logistic

/-- The kernel: the node rows of the third layer. -/
def kerOut (x : Mat 10000 1) (ei : Edges) (ew : Vct 160000) (W1 : Mat 1 128) (b1 : Vct 128) (W2 : Mat 128 256) (b2 : Vct 256)
    (W3 : Mat 256 512) (b3 : Vct 512) : Mat 10000 512 :=
  fun i => ker3 x ei ew W1 b1 W2 b2 W3 b3 (ix2 ⟨(i 0).val, Nat.lt_trans (i 0).isLt (by decide)⟩ (i 1))

/-- Every entry is a real number. -/
def Real2 {a b : Nat} (m : Mat a b) : Prop := ∀ i, ∃ r : ℝ, m i = (r : EReal)
def Real1 {a : Nat} (v : Vct a) : Prop := ∀ i, ∃ r : ℝ, v i = (r : EReal)

end Cert.Spec

end
-- ==== Proof.Math.ScatterGather.lean ====
/-
  The host's row gather and float scatter-add, read AT AN INDEX at the extended reals, for the dimension-number
  records the two programs use.

  A row gather of a table `x : [N, C]` at start indices `idx : [E, 1]` (offset axis 1, axis 0 collapsed and named by
  the start index map, slices `1 × C`) has at `(e, j)` the table's element `(idx e, j)`, the start index read as a
  signed integer and clamped into `[0, N − 1]`; when the start index is already in that range the clamp is the
  identity. A scatter-add with the mirror-image dimension numbers (window axis 1, axis 0 inserted and named by the map)
  adds to `x (n, j)` every update element `(e, j)` whose scatter index, read as a signed integer and NOT clamped, is
  `n`: an update whose index is outside `[0, N)` lands nowhere, and then its index equals no `n`, so the sum over
  the edges needs no range hypothesis. The point scatter-add into a matrix (no window axes, both axes inserted, a
  two-component scatter index) adds to `x (a, b)` every update `e` whose index pair is `(a, b)`.
-/
import proofs.«408395_j7919919694206_3_alg».proof.ReferenceIdeal
import proofs.«408395_j7919919694206_3_alg».proof.KernelIdeal
import Idealize.ShloMosaic.PureOps.Ideal
import Idealize.ShloMosaic.Lib.ValueIdx

noncomputable section

open scoped BigOperators

namespace Cert.SG

open Idealize.ShloMosaic Idealize.ShloMosaic.ValueIdx

/-! ## Indices of rank 1 -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-! ## Where an update lands, for any scatter dimension numbers

The landing index is defined by cases on "start plus window coordinate is inside the operand on every axis". Both
cases say one thing: the update lands at `i` exactly when, on every axis, start plus window coordinate IS `i`'s
coordinate (an integer equation, so a negative or too large start matches no `i`). -/

theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  split
  · rename_i h
    rw [Option.some.injEq]
    constructor
    · intro hi a
      have := congrArg (fun f => ((f a).val : Int)) hi
      simp only at this
      rw [← this]
      exact (Int.toNat_of_nonneg (h a).1).symm
    · intro hi
      funext a
      refine Fin.ext ?_
      show (d.start j idx a + (d.window j a : Int)).toNat = (i a).val
      rw [hi a]; exact Int.toNat_natCast _
  · rename_i h
    constructor
    · intro hn; exact absurd hn (by simp)
    · intro hi
      refine absurd (fun a => ?_) h
      rw [hi a]
      exact ⟨Int.natCast_nonneg _, by exact_mod_cast (i a).isLt⟩

/-! ## The row gather

A table `[N, C]`, start indices `[E, 1]`, result `[E, C]`: offset axis 1, axis 0 collapsed and named by the start
index map, the index vector on axis 1, slices `1 × C`. -/

section RowGather

/-- Those dimension numbers; their conditions `wf` are a program's fact at its literal shapes. -/
abbrev rowGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable {α : Type} {N E C w : Nat}
  (wf : GatherDims.WF ⟨2, ![N, C]⟩ ⟨2, ![E, 1]⟩ ⟨2, ![E, C]⟩ [1] [0] [] [0] [] 1 ![1, C])

/-- The one start-index component of result index `(e, j)` is read at `(e, 0)`. -/
theorem rowGather_siIdx (e : Fin E) (j : Fin C) (c : Fin (rowGather N E C wf).startIndexMap.length) :
    (rowGather N E C wf).siIdx (ix2 e j) c = ix2 e (0 : Fin 1) := by
  funext b
  refine Fin.ext ?_
  match b with
  | ⟨0, _⟩ => rfl
  | ⟨1, _⟩ =>
    show c.val = 0
    have := c.isLt
    simpa using this

/-- On the row axis the slice starts at the start index, read signed and clamped into `[0, N − 1]`. -/
theorem rowGather_start_row (idx : IVec ⟨2, ![E, 1]⟩ w) (e : Fin E) (j : Fin C) (h : 0 < 2) :
    (rowGather N E C wf).start (ix2 e j) idx ⟨0, h⟩ = min (idx (ix2 e (0 : Fin 1))).toInt.toNat (N - 1) := by
  have hm : (⟨0, h⟩ : Fin 2) ∈ (rowGather N E C wf).startIndexMap := List.mem_singleton.mpr rfl
  unfold GatherDims.start
  rw [dif_pos hm, rowGather_siIdx]
  rfl

/-- The column axis is not in the start index map: its slice starts at `0`. -/
theorem rowGather_start_col (idx : IVec ⟨2, ![E, 1]⟩ w) (e : Fin E) (j : Fin C) (h : 1 < 2) :
    (rowGather N E C wf).start (ix2 e j) idx ⟨1, h⟩ = 0 := by
  unfold GatherDims.start
  exact dif_neg fun hm => absurd (congrArg Fin.val (List.mem_singleton.mp hm)) Nat.one_ne_zero

/-- The column axis is kept: its offset coordinate is the result's column. -/
theorem rowGather_off_col (e : Fin E) (j : Fin C) (h : 1 < 2) :
    (rowGather N E C wf).offCoord (ix2 e j) ⟨1, h⟩ = j.val := by
  have hk : (⟨1, h⟩ : Fin 2) ∈ (rowGather N E C wf).sKept :=
    (GatherDims.mem_sKept _ _).mpr
      ⟨fun hm => absurd (congrArg Fin.val (List.mem_singleton.mp hm)) Nat.one_ne_zero, List.not_mem_nil⟩
  unfold GatherDims.offCoord
  rw [dif_pos hk]
  rfl

/-- THE ROW GATHER READ AT `(e, j)`, the start index in range: the table's element `(idx e, j)`. -/
theorem rowGather_apply (x : (⟨2, ![N, C]⟩ : Shape).Idx → α) (idx : IVec ⟨2, ![E, 1]⟩ w) (e : Fin E) (j : Fin C)
    (h0 : 0 ≤ (idx (ix2 e (0 : Fin 1))).toInt) (hN : (idx (ix2 e (0 : Fin 1))).toInt < N) :
    Host.gather (rowGather N E C wf) x idx (ix2 e j)
      = x (ix2 ⟨(idx (ix2 e (0 : Fin 1))).toInt.toNat, by omega⟩ j) := by
  unfold Host.gather
  congr 1
  funext a
  refine Fin.ext ?_
  match a with
  | ⟨0, h⟩ =>
    show (rowGather N E C wf).start (ix2 e j) idx ⟨0, h⟩ + (rowGather N E C wf).batchCoord (ix2 e j) ⟨0, h⟩
      + (rowGather N E C wf).offCoord (ix2 e j) ⟨0, h⟩ = (idx (ix2 e (0 : Fin 1))).toInt.toNat
    rw [GatherDims.batchCoord_eq_zero _ _ _ List.not_mem_nil,
      GatherDims.offCoord_eq_zero _ _ _ fun hk => ((GatherDims.mem_sKept _ _).mp hk).1 (List.mem_singleton.mpr rfl),
      rowGather_start_row]
    omega
  | ⟨1, h⟩ =>
    show (rowGather N E C wf).start (ix2 e j) idx ⟨1, h⟩ + (rowGather N E C wf).batchCoord (ix2 e j) ⟨1, h⟩
      + (rowGather N E C wf).offCoord (ix2 e j) ⟨1, h⟩ = j.val
    rw [GatherDims.batchCoord_eq_zero _ _ _ List.not_mem_nil, rowGather_start_col, rowGather_off_col]
    omega

end RowGather

/-! ## The row scatter-add

An operand `[N, C]`, scatter indices `[E, 1]`, updates `[E, C]`: window axis 1, axis 0 inserted and named by the map,
the index vector on axis 1. -/

section RowScatter

/-- Those dimension numbers; their conditions `wf` are a program's fact at its literal shapes. -/
abbrev rowScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)

/-- The one scatter-index component of update index `(e, c)` is read at `(e, 0)`. -/
theorem rowScatter_siIdx (e : Fin E) (c : Fin C) (k : Fin (rowScatter N E C wf).scatterDimsToOperandDims.length) :
    (rowScatter N E C wf).siIdx (ix2 e c) k = ix2 e (0 : Fin 1) := by
  funext b
  refine Fin.ext ?_
  match b with
  | ⟨0, _⟩ => rfl
  | ⟨1, _⟩ =>
    show k.val = 0
    have := k.isLt
    simpa using this

/-- On the row axis the window starts at the scatter index, read signed and not clamped. -/
theorem rowScatter_start_row (idx : IVec ⟨2, ![E, 1]⟩ w) (e : Fin E) (c : Fin C) (h : 0 < 2) :
    (rowScatter N E C wf).start (ix2 e c) idx ⟨0, h⟩ = (idx (ix2 e (0 : Fin 1))).toInt := by
  have hm : (⟨0, h⟩ : Fin 2) ∈ (rowScatter N E C wf).scatterDimsToOperandDims := List.mem_singleton.mpr rfl
  unfold ScatterDims.start
  rw [dif_pos hm, rowScatter_siIdx]

/-- The column axis is not named by the map: its window starts at `0`. -/
theorem rowScatter_start_col (idx : IVec ⟨2, ![E, 1]⟩ w) (e : Fin E) (c : Fin C) (h : 1 < 2) :
    (rowScatter N E C wf).start (ix2 e c) idx ⟨1, h⟩ = 0 := by
  unfold ScatterDims.start
  exact dif_neg fun hm => absurd (congrArg Fin.val (List.mem_singleton.mp hm)) Nat.one_ne_zero

/-- The row axis is inserted: no window coordinate. -/
theorem rowScatter_window_row (e : Fin E) (c : Fin C) (h : 0 < 2) :
    (rowScatter N E C wf).window (ix2 e c) ⟨0, h⟩ = 0 := by
  unfold ScatterDims.window
  refine dif_neg fun hk => ?_
  have : (⟨0, h⟩ : Fin 2) ∉ [(0 : Fin 2)] := by
    simpa [ScatterDims.sKept, Shape.kept, List.mem_filter, List.mem_finRange] using hk
  exact this (List.mem_singleton.mpr rfl)

/-- The column axis is kept: its window coordinate is the update's column. -/
theorem rowScatter_window_col (e : Fin E) (c : Fin C) (h : 1 < 2) :
    (rowScatter N E C wf).window (ix2 e c) ⟨1, h⟩ = c.val := by
  have hk : (⟨1, h⟩ : Fin 2) ∈ (rowScatter N E C wf).sKept := by
    have : (⟨1, h⟩ : Fin 2) ∉ [(0 : Fin 2)] :=
      fun hm => absurd (congrArg Fin.val (List.mem_singleton.mp hm)) Nat.one_ne_zero
    simpa [ScatterDims.sKept, Shape.kept, List.mem_filter, List.mem_finRange] using this
  unfold ScatterDims.window
  rw [dif_pos hk]
  rfl

/-- Update `(e, c)` lands at `(n, j)` exactly when its scatter index is `n` and its column is `j`. -/
theorem rowScatter_lands (idx : IVec ⟨2, ![E, 1]⟩ w) (e : Fin E) (c : Fin C) (n : Fin N) (j : Fin C) :
    (rowScatter N E C wf).resultIdx? (ix2 e c) idx = some (ix2 n j)
      ↔ (idx (ix2 e (0 : Fin 1))).toInt = (n.val : Int) ∧ c = j := by
  rw [resultIdx?_eq_some_iff]
  constructor
  · intro h
    have hr : (rowScatter N E C wf).start (ix2 e c) idx ⟨0, Nat.zero_lt_two⟩
        + ((rowScatter N E C wf).window (ix2 e c) ⟨0, Nat.zero_lt_two⟩ : Int) = (n.val : Int) := h ⟨0, Nat.zero_lt_two⟩
    have hc : (rowScatter N E C wf).start (ix2 e c) idx ⟨1, Nat.one_lt_two⟩
        + ((rowScatter N E C wf).window (ix2 e c) ⟨1, Nat.one_lt_two⟩ : Int) = (j.val : Int) := h ⟨1, Nat.one_lt_two⟩
    rw [rowScatter_start_row, rowScatter_window_row] at hr
    rw [rowScatter_start_col, rowScatter_window_col] at hc
    exact ⟨by simpa using hr, Fin.ext (by omega)⟩
  · rintro ⟨hT, rfl⟩ a
    match a with
    | ⟨0, h⟩ =>
      show (rowScatter N E C wf).start (ix2 e c) idx ⟨0, h⟩ + ((rowScatter N E C wf).window (ix2 e c) ⟨0, h⟩ : Int)
        = (n.val : Int)
      rw [rowScatter_start_row, rowScatter_window_row, hT]; simp
    | ⟨1, h⟩ =>
      show (rowScatter N E C wf).start (ix2 e c) idx ⟨1, h⟩ + ((rowScatter N E C wf).window (ix2 e c) ⟨1, h⟩ : Int)
        = (c.val : Int)
      rw [rowScatter_start_col, rowScatter_window_col]; simp

/-- THE ROW SCATTER-ADD READ AT `(n, j)`: the operand's element plus the updates `(e, j)` over the edges `e` whose
    scatter index is `n`. The landing set is cut out of all update indices by a condition; written as a sum of an
    `if` it splits over the two coordinates, and the column condition `c = j` keeps one term of the inner sum. -/
theorem rowScatter_apply {φ : FTy} (x : (⟨2, ![N, C]⟩ : Shape).Idx → EReal) (idx : IVec ⟨2, ![E, 1]⟩ w)
    (upd : (⟨2, ![E, C]⟩ : Shape).Idx → EReal) (n : Fin N) (j : Fin C) :
    Host.scatterAdd (F := Ideal) (φ := φ) (rowScatter N E C wf) x idx upd (ix2 n j)
      = x (ix2 n j) + ∑ e : Fin E, if (idx (ix2 e (0 : Fin 1))).toInt = (n.val : Int) then upd (ix2 e j) else 0 := by
  unfold Host.scatterAdd
  rw [Ideal.hostScatterAdd_def]
  unfold Ideal.hostScatterAdd
  congr 1
  rw [Finset.sum_filter, sum_idx2]
  refine Finset.sum_congr rfl fun e _ => ?_
  simp only [rowScatter_lands]
  by_cases hT : (idx (ix2 e (0 : Fin 1))).toInt = (n.val : Int)
  · simp [hT]
  · simp [hT]

end RowScatter

/-! ## The point scatter-add into a matrix

An operand `[M0, M1]`, scatter indices `[E, 2]`, updates `[E]`: no window axes, both axes inserted and named by the
map in order, the index vector on axis 1. -/

section PointScatter

/-- Those dimension numbers; their conditions `wf` are a program's fact at its literal shapes. -/
abbrev pointScatter (M0 M1 E : Nat) (wf : ScatterDims.WF ⟨2, ![M0, M1]⟩ ⟨2, ![E, 2]⟩ ⟨1, ![E]⟩ [] [0, 1] [0, 1] 1) :
    ScatterDims ⟨2, ![M0, M1]⟩ ⟨2, ![E, 2]⟩ ⟨1, ![E]⟩ where
  updateWindowDims := []
  insertedWindowDims := [0, 1]
  scatterDimsToOperandDims := [0, 1]
  indexVectorDim := 1
  wf := wf

variable {M0 M1 E w : Nat} (wf : ScatterDims.WF ⟨2, ![M0, M1]⟩ ⟨2, ![E, 2]⟩ ⟨1, ![E]⟩ [] [0, 1] [0, 1] 1)

/-- On the row axis the window starts at the first component of update `e`'s scatter index. -/
theorem pointScatter_start_row (idx : IVec ⟨2, ![E, 2]⟩ w) (e : Fin E) (h : 0 < 2) :
    (pointScatter M0 M1 E wf).start (ix1 e) idx ⟨0, h⟩ = (idx (ix2 e (0 : Fin 2))).toInt := by
  have hm : (⟨0, h⟩ : Fin 2) ∈ (pointScatter M0 M1 E wf).scatterDimsToOperandDims := List.mem_cons.mpr (Or.inl rfl)
  unfold ScatterDims.start
  rw [dif_pos hm]
  refine congrArg (fun k => (idx k).toInt) ?_
  funext b
  refine Fin.ext ?_
  match b with
  | ⟨0, _⟩ => rfl
  | ⟨1, _⟩ => rfl

/-- On the column axis it starts at the second component. -/
theorem pointScatter_start_col (idx : IVec ⟨2, ![E, 2]⟩ w) (e : Fin E) (h : 1 < 2) :
    (pointScatter M0 M1 E wf).start (ix1 e) idx ⟨1, h⟩ = (idx (ix2 e (1 : Fin 2))).toInt := by
  have hm : (⟨1, h⟩ : Fin 2) ∈ (pointScatter M0 M1 E wf).scatterDimsToOperandDims :=
    List.mem_cons.mpr (Or.inr (List.mem_singleton.mpr rfl))
  unfold ScatterDims.start
  rw [dif_pos hm]
  refine congrArg (fun k => (idx k).toInt) ?_
  funext b
  refine Fin.ext ?_
  match b with
  | ⟨0, _⟩ => rfl
  | ⟨1, _⟩ => rfl

/-- Both axes are inserted: no window coordinate on either. -/
theorem pointScatter_window (e : Fin E) (a : Fin 2) : (pointScatter M0 M1 E wf).window (ix1 e) a = 0 := by
  unfold ScatterDims.window
  refine dif_neg fun hk => ?_
  have : a ∉ [(0 : Fin 2), 1] := by
    simpa [ScatterDims.sKept, Shape.kept, List.mem_filter, List.mem_finRange] using hk
  apply this
  match a with
  | ⟨0, _⟩ => exact List.mem_cons.mpr (Or.inl rfl)
  | ⟨1, _⟩ => exact List.mem_cons.mpr (Or.inr (List.mem_singleton.mpr rfl))

/-- Update `e` lands at `(a, b)` exactly when its index pair is `(a, b)`. -/
theorem pointScatter_lands (idx : IVec ⟨2, ![E, 2]⟩ w) (e : Fin E) (a : Fin M0) (b : Fin M1) :
    (pointScatter M0 M1 E wf).resultIdx? (ix1 e) idx = some (ix2 a b)
      ↔ (idx (ix2 e (0 : Fin 2))).toInt = (a.val : Int) ∧ (idx (ix2 e (1 : Fin 2))).toInt = (b.val : Int) := by
  rw [resultIdx?_eq_some_iff]
  constructor
  · intro h
    have hr : (pointScatter M0 M1 E wf).start (ix1 e) idx ⟨0, Nat.zero_lt_two⟩
        + ((pointScatter M0 M1 E wf).window (ix1 e) ⟨0, Nat.zero_lt_two⟩ : Int) = (a.val : Int) := h ⟨0, Nat.zero_lt_two⟩
    have hc : (pointScatter M0 M1 E wf).start (ix1 e) idx ⟨1, Nat.one_lt_two⟩
        + ((pointScatter M0 M1 E wf).window (ix1 e) ⟨1, Nat.one_lt_two⟩ : Int) = (b.val : Int) := h ⟨1, Nat.one_lt_two⟩
    rw [pointScatter_start_row, pointScatter_window] at hr
    rw [pointScatter_start_col, pointScatter_window] at hc
    exact ⟨by simpa using hr, by simpa using hc⟩
  · rintro ⟨hA, hB⟩ k
    match k with
    | ⟨0, h⟩ =>
      show (pointScatter M0 M1 E wf).start (ix1 e) idx ⟨0, h⟩ + ((pointScatter M0 M1 E wf).window (ix1 e) ⟨0, h⟩ : Int)
        = (a.val : Int)
      rw [pointScatter_start_row, pointScatter_window, hA]; simp
    | ⟨1, h⟩ =>
      show (pointScatter M0 M1 E wf).start (ix1 e) idx ⟨1, h⟩ + ((pointScatter M0 M1 E wf).window (ix1 e) ⟨1, h⟩ : Int)
        = (b.val : Int)
      rw [pointScatter_start_col, pointScatter_window, hB]; simp

/-- THE POINT SCATTER-ADD READ AT `(a, b)`: the operand's element plus the updates of the edges whose index pair is
    `(a, b)`. -/
theorem pointScatter_apply {φ : FTy} (x : (⟨2, ![M0, M1]⟩ : Shape).Idx → EReal) (idx : IVec ⟨2, ![E, 2]⟩ w)
    (upd : (⟨1, ![E]⟩ : Shape).Idx → EReal) (a : Fin M0) (b : Fin M1) :
    Host.scatterAdd (F := Ideal) (φ := φ) (pointScatter M0 M1 E wf) x idx upd (ix2 a b)
      = x (ix2 a b) + ∑ e : Fin E,
          if (idx (ix2 e (0 : Fin 2))).toInt = (a.val : Int) ∧ (idx (ix2 e (1 : Fin 2))).toInt = (b.val : Int)
          then upd (ix1 e) else 0 := by
  unfold Host.scatterAdd
  rw [Ideal.hostScatterAdd_def]
  unfold Ideal.hostScatterAdd
  congr 1
  rw [Finset.sum_filter, sum_idx1]
  refine Finset.sum_congr rfl fun e _ => ?_
  by_cases hc : (idx (ix2 e (0 : Fin 2))).toInt = (a.val : Int) ∧ (idx (ix2 e (1 : Fin 2))).toInt = (b.val : Int)
  · rw [if_pos hc]; exact if_pos ((pointScatter_lands wf idx e a b).mpr hc)
  · rw [if_neg hc]; exact if_neg fun hl => hc ((pointScatter_lands wf idx e a b).mp hl)

end PointScatter

/-! ## The two programs' records

Each printed record is one of the three families above at literal extents (it unfolds to the same fields), so each
reading below is the family's lemma at those extents. -/

section Reference
variable [Cert.ReferenceIdeal.Facts]
open Cert.ReferenceIdeal

theorem ref_gather128 (x : S10000x128.Idx → EReal) (idx : IVec S160000x1 32) (e : Fin 160000) (j : Fin 128)
    (h0 : 0 ≤ (idx (ix2 e (0 : Fin 1))).toInt) (hN : (idx (ix2 e (0 : Fin 1))).toInt < 10000) :
    Host.gather gather_S10000x128_S160000x1_S160000x128_1_0_n_n_0_1_1128 x idx (ix2 e j)
      = x (ix2 ⟨(idx (ix2 e (0 : Fin 1))).toInt.toNat, by omega⟩ j) :=
  rowGather_apply (N := 10000) (E := 160000) (C := 128) _ x idx e j h0 (by exact_mod_cast hN)

theorem ref_gather256 (x : S10000x256.Idx → EReal) (idx : IVec S160000x1 32) (e : Fin 160000) (j : Fin 256)
    (h0 : 0 ≤ (idx (ix2 e (0 : Fin 1))).toInt) (hN : (idx (ix2 e (0 : Fin 1))).toInt < 10000) :
    Host.gather gather_S10000x256_S160000x1_S160000x256_1_0_n_n_0_1_1256 x idx (ix2 e j)
      = x (ix2 ⟨(idx (ix2 e (0 : Fin 1))).toInt.toNat, by omega⟩ j) :=
  rowGather_apply (N := 10000) (E := 160000) (C := 256) _ x idx e j h0 (by exact_mod_cast hN)

theorem ref_gather512 (x : S10000x512.Idx → EReal) (idx : IVec S160000x1 32) (e : Fin 160000) (j : Fin 512)
    (h0 : 0 ≤ (idx (ix2 e (0 : Fin 1))).toInt) (hN : (idx (ix2 e (0 : Fin 1))).toInt < 10000) :
    Host.gather gather_S10000x512_S160000x1_S160000x512_1_0_n_n_0_1_1512 x idx (ix2 e j)
      = x (ix2 ⟨(idx (ix2 e (0 : Fin 1))).toInt.toNat, by omega⟩ j) :=
  rowGather_apply (N := 10000) (E := 160000) (C := 512) _ x idx e j h0 (by exact_mod_cast hN)

theorem ref_scatter128 (x : S10000x128.Idx → EReal) (idx : IVec S160000x1 32) (upd : S160000x128.Idx → EReal)
    (n : Fin 10000) (j : Fin 128) :
    Host.scatterAdd (F := Ideal) (φ := .f32) scatter_S10000x128_S160000x1_S160000x128_1_0_0_1 x idx upd (ix2 n j)
      = x (ix2 n j) + ∑ e : Fin 160000, if (idx (ix2 e (0 : Fin 1))).toInt = (n.val : Int) then upd (ix2 e j) else 0 :=
  rowScatter_apply (N := 10000) (E := 160000) (C := 128) _ x idx upd n j

theorem ref_scatter256 (x : S10000x256.Idx → EReal) (idx : IVec S160000x1 32) (upd : S160000x256.Idx → EReal)
    (n : Fin 10000) (j : Fin 256) :
    Host.scatterAdd (F := Ideal) (φ := .f32) scatter_S10000x256_S160000x1_S160000x256_1_0_0_1 x idx upd (ix2 n j)
      = x (ix2 n j) + ∑ e : Fin 160000, if (idx (ix2 e (0 : Fin 1))).toInt = (n.val : Int) then upd (ix2 e j) else 0 :=
  rowScatter_apply (N := 10000) (E := 160000) (C := 256) _ x idx upd n j

theorem ref_scatter512 (x : S10000x512.Idx → EReal) (idx : IVec S160000x1 32) (upd : S160000x512.Idx → EReal)
    (n : Fin 10000) (j : Fin 512) :
    Host.scatterAdd (F := Ideal) (φ := .f32) scatter_S10000x512_S160000x1_S160000x512_1_0_0_1 x idx upd (ix2 n j)
      = x (ix2 n j) + ∑ e : Fin 160000, if (idx (ix2 e (0 : Fin 1))).toInt = (n.val : Int) then upd (ix2 e j) else 0 :=
  rowScatter_apply (N := 10000) (E := 160000) (C := 512) _ x idx upd n j

end Reference

section Kernel
variable [Cert.KernelIdeal.Facts]
open Cert.KernelIdeal

theorem ker_gather1 (x : S10000x1.Idx → EReal) (idx : IVec S160000x1 32) (e : Fin 160000) (j : Fin 1)
    (h0 : 0 ≤ (idx (ix2 e (0 : Fin 1))).toInt) (hN : (idx (ix2 e (0 : Fin 1))).toInt < 10000) :
    Host.gather gather_S10000x1_S160000x1_S160000x1_1_0_n_n_0_1_11 x idx (ix2 e j)
      = x (ix2 ⟨(idx (ix2 e (0 : Fin 1))).toInt.toNat, by omega⟩ j) :=
  rowGather_apply (N := 10000) (E := 160000) (C := 1) _ x idx e j h0 (by exact_mod_cast hN)

theorem ker_scatter1 (x : S10000x1.Idx → EReal) (idx : IVec S160000x1 32) (upd : S160000x1.Idx → EReal)
    (n : Fin 10000) (j : Fin 1) :
    Host.scatterAdd (F := Ideal) (φ := .f32) scatter_S10000x1_S160000x1_S160000x1_1_0_0_1 x idx upd (ix2 n j)
      = x (ix2 n j) + ∑ e : Fin 160000, if (idx (ix2 e (0 : Fin 1))).toInt = (n.val : Int) then upd (ix2 e j) else 0 :=
  rowScatter_apply (N := 10000) (E := 160000) (C := 1) _ x idx upd n j

theorem ker_scatterS (x : S10240x10240.Idx → EReal) (idx : IVec S160000x2 32) (upd : S160000.Idx → EReal)
    (a b : Fin 10240) :
    Host.scatterAdd (F := Ideal) (φ := .f32) scatter_S10240x10240_S160000x2_S160000_n_01_01_1 x idx upd (ix2 a b)
      = x (ix2 a b) + ∑ e : Fin 160000,
          if (idx (ix2 e (0 : Fin 2))).toInt = (a.val : Int) ∧ (idx (ix2 e (1 : Fin 2))).toInt = (b.val : Int)
          then upd (ix1 e) else 0 :=
  pointScatter_apply (M0 := 10240) (M1 := 10240) (E := 160000) _ x idx upd a b

end Kernel

end Cert.SG

end
-- ==== Proof.KI.Glue.lean ====
/-
  What the host operations of the kernel's entry function compute around its two kernel regions, as functions of
  the arguments, in the terms of the shared mathematics (Spec).

  Before the first region the host builds: the dense operator `S` (a point scatter-add of the edge weights at the
  (target, source) pairs into zeros, each index normalised by `select (idx < 0) (idx + 10240) idx`, which is the
  index itself when every index is a node); the first layer `h1` (gather the scalar input by source, scale by the
  weight, scatter-add by target, a one-term contraction with `W1`, add `b1`), padded with 240 zero rows and cast to
  the narrow format, which is the identity at the extended reals; the weights `W2`, `W3` cast likewise; the biases
  reshaped to one row. Between the regions it reshapes `b3`; after the second it keeps the node rows of the result.
  Each fact below reads one buffer of the valuation between two items of the entry function: a host stretch's
  operations are read off the fold `StableHlo.after`, stated over ANY contents `W` before the stretch, and the
  earlier stretches leave the buffers they do not write as they were.
-/
import proofs.«408395_j7919919694206_3_alg».proof.Proof.Gen.KernelIdeal.Regions
import proofs.«408395_j7919919694206_3_alg».proof.Proof.Spec
import proofs.«408395_j7919919694206_3_alg».proof.Proof.Math.ScatterGather
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.StableHlo.Predicate
import Idealize.ShloMosaic.Lib.KernelVsHost

noncomputable section

open scoped BigOperators

namespace Cert.KernelIdeal.Glue

open Idealize.ShloMosaic Idealize.ShloMosaic.TcCoe
open Cert.KernelIdeal Cert.KernelIdeal.Gen Idealize.ShloMosaic.ValueIdx

variable (m : (ℓ : Loc nD τ sig) → Buf (Elt Ideal) ℓ) (c : Dev nD) (outs : Outs (F := Ideal))

/-! ## What each stretch leaves at one reference, over any contents before it -/

theorem ops2_v43 (W : Valuation τ sig (Elt Ideal)) :
    StableHlo.after (hostOps2 (F := Ideal)) W (Proc.devRef .tc main_v43)
      = extractStridedSlice S10000x512 ![0, 0] (W (Proc.devRef .tc main_v42)) slices_S10240x512_S10000x512_0_0 := by
  dsimp only [hostOps2]; after_results

theorem ops1_v41 (W : Valuation τ sig (Elt Ideal)) :
    StableHlo.after (hostOps1 (F := Ideal)) W (Proc.devRef .tc main_v41)
      = fun i => shapeCast S1x512 (W (Proc.devRef .tc main_arg8)) shapeCasts_S512_S1x512 i := by
  dsimp only [hostOps1]; after_results; rfl

theorem ops02_v37 (W : Valuation τ sig (Elt Ideal)) :
    (StableHlo.after (hostOps0_2 (F := Ideal)) W (Proc.devRef .tc main_v37) : Cert.Spec.Mat 128 256)
      = W (Proc.devRef .tc main_arg5) := by
  dsimp only [hostOps0_2]; after_results; rfl

theorem ops02_v38 (W : Valuation τ sig (Elt Ideal)) :
    (StableHlo.after (hostOps0_2 (F := Ideal)) W (Proc.devRef .tc main_v38) : Cert.Spec.Mat 256 512)
      = W (Proc.devRef .tc main_arg7) := by
  dsimp only [hostOps0_2]; after_results; rfl

theorem ops02_v39 (W : Valuation τ sig (Elt Ideal)) :
    StableHlo.after (hostOps0_2 (F := Ideal)) W (Proc.devRef .tc main_v39)
      = fun i => shapeCast S1x256 (W (Proc.devRef .tc main_arg6)) shapeCasts_S256_S1x256 i := by
  dsimp only [hostOps0_2]; after_results; rfl

/-! ## The arguments reach every stretch as launched -/

theorem V2_arg (r : Ref sig .tc) (h0 : r ∉ hostOps0_W) (h1 : r ∉ hostOps0_1_W) :
    V2 m c r = m ((c.tc : Thread nD τ).loc r) :=
  (V2_of m c r h1).trans ((V1_of m c r h0).trans rfl)

theorem V4_arg (r : Ref sig .tc) (h0 : r ∉ hostOps0_W) (h1 : r ∉ hostOps0_1_W) (h2 : r ∉ hostOps0_2_W)
    (h3 : r ∉ ([main_v40_0, main_v40_1] : List (Ref sig .tc))) :
    V4 m outs c r = m ((c.tc : Thread nD τ).loc r) :=
  (V4_of m outs c r h3).trans ((V3_of m c r h2).trans (V2_arg m c r h0 h1))

/-! ## The buffers that are a cast, a reshape or a slice of one array, or that no later stretch writes -/

theorem V5_S : V5 m outs c main_v40_1 = outs 4 main_v40_1 c :=
  (V5_of m outs c main_v40_1 (by decide)).trans (Function.update_self _ _ _)

theorem V5_h2 : V5 m outs c main_v40_0 = outs 4 main_v40_0 c := by
  refine (V5_of m outs c main_v40_0 (by decide)).trans ?_
  show Function.update (Function.update (V3 m c) (Proc.devRef .tc main_v40_0) (outs 4 main_v40_0 c)) (Proc.devRef .tc main_v40_1) (outs 4 main_v40_1 c) (Proc.devRef .tc main_v40_0) = _
  rw [Function.update_of_ne (StableHlo.devRef_ne_of_ne (by decide)), Function.update_self]

theorem V3_W2 : (V3 m c main_v37 : Cert.Spec.Mat 128 256) = m ((c.tc : Thread nD τ).loc main_arg5) := by
  exact (ops02_v37 (V2 m c)).trans (V2_arg m c main_arg5 (by decide) (by decide))

theorem V5_W3 : (V5 m outs c main_v38 : Cert.Spec.Mat 256 512) = m ((c.tc : Thread nD τ).loc main_arg7) := by
  refine (V5_of m outs c main_v38 (by decide)).trans ((V4_of m outs c main_v38 (by decide)).trans ?_)
  exact (ops02_v38 (V2 m c)).trans (V2_arg m c main_arg7 (by decide) (by decide))

theorem V3_b2 (j : Fin 256) : V3 m c main_v39 (ix2 (0 : Fin 1) j) = m ((c.tc : Thread nD τ).loc main_arg6) (ix1 j) := by
  rw [show V3 m c main_v39 = _ from ops02_v39 (V2 m c), V2_arg m c main_arg6 (by decide) (by decide)]
  exact shapeCast_a_1a_apply _ _ _ _

theorem V5_b3 (j : Fin 512) : V5 m outs c main_v41 (ix2 (0 : Fin 1) j) = m ((c.tc : Thread nD τ).loc main_arg8) (ix1 j) := by
  rw [show V5 m outs c main_v41 = _ from ops1_v41 (V4 m outs c), V4_arg m c outs main_arg8 (by decide) (by decide) (by decide) (by decide)]
  exact shapeCast_a_1a_apply _ _ _ _

theorem V7_out (i : (⟨2, ![10000, 512]⟩ : Shape).Idx) :
    V7 m outs c main_v43 i = outs 6 main_v42 c (ix2 ⟨(i 0).val, Nat.lt_trans (i 0).isLt (by decide)⟩ (i 1)) := by
  rw [show V7 m outs c main_v43 = _ from ops2_v43 (V6 m outs c),
    show V6 m outs c (Proc.devRef .tc main_v42) = outs 6 main_v42 c from Function.update_self _ _ _, eq_ix2 i]
  exact slice2_axis0_apply 0 _ _ _ _ _ (Nat.zero_add _).symm

/-! ## Words: the index normalisation `select (idx < 0) (idx + N) idx` at a nonnegative index -/

theorem select_slt_zero (v N : BitVec 32) (h : 0 ≤ v.toInt) :
    Scalar.select (IntOp.cmpi .slt v 0#32) (IntOp.addi v N) v = v := by
  have hc : IntOp.cmpi .slt v 0#32 = 0#1 := by
    show BitVec.ofBool (decide (v.toInt < (0#32 : BitVec 32).toInt)) = 0#1
    rw [show (0#32 : BitVec 32).toInt = 0 from by decide, decide_eq_false (by omega)]
    rfl
  rw [hc, select_zero]

/-- The normalisation of a vector of indices against the extent `N`. -/
def normIdx (N : BitVec 32) (v : IVec S160000 32) : IVec S160000 32 :=
  select (cmpi .slt v (broadcastInDim S160000 ![] bcast_S_S160000 (constantI S_ 32 0#32)))
    (addi v (broadcastInDim S160000 ![] bcast_S_S160000 (constantI S_ 32 N))) v

theorem normIdx_apply (N : BitVec 32) (v : IVec S160000 32) (e : Fin 160000) (h : 0 ≤ (v (ix1 e)).toInt) :
    normIdx N v (ix1 e) = v (ix1 e) :=
  select_slt_zero _ N h

/-! ## The edge list as the program reads it: a row sliced off, its unit axis dropped -/

def edgeRow0 (ei : Cert.Spec.Edges) : IVec S160000 32 :=
  fun i => shapeCast S160000 (extractStridedSlice S1x160000 ![0, 0] ei slices_S2x160000_S1x160000_0_0) shapeCasts_S1x160000_S160000 i

def edgeRow1 (ei : Cert.Spec.Edges) : IVec S160000 32 :=
  fun i => shapeCast S160000 (extractStridedSlice S1x160000 ![1, 0] ei slices_S2x160000_S1x160000_1_0) shapeCasts_S1x160000_S160000 i

theorem edgeRow0_apply (ei : Cert.Spec.Edges) (e : Fin 160000) : edgeRow0 ei (ix1 e) = ei (ix2 (0 : Fin 2) e) :=
  (shapeCast_1a_a_apply _ _ e).trans (slice2_axis0_apply 0 ei _ (0 : Fin 1) e (0 : Fin 2) rfl)

theorem edgeRow1_apply (ei : Cert.Spec.Edges) (e : Fin 160000) : edgeRow1 ei (ix1 e) = ei (ix2 (1 : Fin 2) e) :=
  (shapeCast_1a_a_apply _ _ e).trans (slice2_axis0_apply 1 ei _ (0 : Fin 1) e (1 : Fin 2) rfl)

/-- A vector broadcast to one column reads, at `(e, u)`, the vector at `e`. -/
theorem col_apply {α : Type} (v : S160000.Idx → α) (e : Fin 160000) (u : Fin 1) :
    broadcastInDim S160000x1 ![0] bcast_S160000_S160000x1_0 v (ix2 e u) = v (ix1 e) :=
  broadcastInDim_apply _ _ v _ _ (fun a => match a with
    | ⟨0, _⟩ => by show e.val = if (160000 : ℕ) = 1 then 0 else e.val; rw [if_neg (by decide)])

/-! ## The dense operator: the point scatter-add of the weights at the (target, source) pairs -/

/-- The index pairs: the normalised targets beside the normalised sources. -/
def pairIdx (dstv srcv : IVec S160000 32) : IVec S160000x2 32 :=
  concatenate S160000x2 1 [⟨S160000x1, broadcastInDim S160000x1 ![0] bcast_S160000_S160000x1_0 (normIdx 10240#32 dstv)⟩,
    ⟨S160000x1, broadcastInDim S160000x1 ![0] bcast_S160000_S160000x1_0 (normIdx 10240#32 srcv)⟩] concatenates_S160000x1_S160000x1_S160000x2_d1

theorem pairIdx_apply0 (dstv srcv : IVec S160000 32) (e : Fin 160000) (h : 0 ≤ (dstv (ix1 e)).toInt) :
    pairIdx dstv srcv (ix2 e (0 : Fin 2)) = dstv (ix1 e) := by
  refine (concatenate_pair_apply_left (t := S160000x2) (s₁ := S160000x1) (s₂ := S160000x1) (1 : Fin 2) _ _ concatenates_S160000x1_S160000x1_S160000x2_d1 (ix2 e (0 : Fin 2)) (rfl : S160000x1.rank = S160000x2.rank) (ix2 e (0 : Fin 1))
    (fun b => match b with | ⟨0, _⟩ => rfl | ⟨1, _⟩ => rfl)).trans ?_
  rw [col_apply, normIdx_apply _ _ _ h]

theorem pairIdx_apply1 (dstv srcv : IVec S160000 32) (e : Fin 160000) (h : 0 ≤ (srcv (ix1 e)).toInt) :
    pairIdx dstv srcv (ix2 e (1 : Fin 2)) = srcv (ix1 e) := by
  refine (concatenate_pair_apply_right (t := S160000x2) (s₁ := S160000x1) (s₂ := S160000x1) (1 : Fin 2) _ _ concatenates_S160000x1_S160000x1_S160000x2_d1 (ix2 e (1 : Fin 2)) (rfl : S160000x1.rank = S160000x2.rank) (rfl : S160000x1.rank = S160000x2.rank) (ix2 e (0 : Fin 1))
    (fun b hb => match b, hb with | ⟨0, _⟩, _ => rfl | ⟨1, _⟩, hb => absurd rfl hb) rfl).trans ?_
  rw [col_apply, normIdx_apply _ _ _ h]

/-- The operator as the program builds it. -/
def Sterm (dstv srcv : IVec S160000 32) (ew : Cert.Spec.Vct 160000) : Cert.Spec.Mat 10240 10240 :=
  Host.scatterAdd (F := Ideal) (φ := .f32) scatter_S10240x10240_S160000x2_S160000_n_01_01_1
    (broadcastInDim S10240x10240 ![] bcast_S_S10240x10240 (constant (F := Ideal) S_ .f32 0x00000000#32))
    (pairIdx dstv srcv) ew

theorem Sterm_apply (ei : Cert.Spec.Edges) (ew : Cert.Spec.Vct 160000) (hr : Cert.Spec.InRange ei) (a b : Fin 10240) :
    Sterm (edgeRow1 ei) (edgeRow0 ei) ew (ix2 a b) = Cert.Spec.Sop ei ew (ix2 a b) := by
  unfold Sterm
  rw [Cert.SG.ker_scatterS]
  have hz : broadcastInDim S10240x10240 ![] bcast_S_S10240x10240 (constant (F := Ideal) S_ .f32 0x00000000#32) (ix2 a b) = (0 : EReal) :=
    Ideal.ofBits_zero_f32
  rw [hz, zero_add]
  refine Finset.sum_congr rfl fun e _ => ?_
  have h1 : 0 ≤ (edgeRow1 ei (ix1 e)).toInt := by rw [edgeRow1_apply]; exact (hr 1 e).1
  have h0 : 0 ≤ (edgeRow0 ei (ix1 e)).toInt := by rw [edgeRow0_apply]; exact (hr 0 e).1
  rw [pairIdx_apply0 _ _ e h1, pairIdx_apply1 _ _ e h0, edgeRow1_apply, edgeRow0_apply]
  rfl

/-! ## The stretches read at the operator's buffer -/

theorem ops0_v1 (W : Valuation τ sig (Elt Ideal)) :
    StableHlo.after (hostOps0 (F := Ideal)) W (Proc.devRef .tc main_v1) = edgeRow0 (W (Proc.devRef .tc main_arg1)) := by
  dsimp only [hostOps0]; after_results; rfl

theorem ops0_v3 (W : Valuation τ sig (Elt Ideal)) :
    StableHlo.after (hostOps0 (F := Ideal)) W (Proc.devRef .tc main_v3) = edgeRow1 (W (Proc.devRef .tc main_arg1)) := by
  dsimp only [hostOps0]; after_results; rfl

set_option maxHeartbeats 2000000 in
theorem ops02_v36 (W : Valuation τ sig (Elt Ideal)) :
    StableHlo.after (hostOps0_2 (F := Ideal)) W (Proc.devRef .tc main_v36)
      = Sterm (W (Proc.devRef .tc main_v3)) (W (Proc.devRef .tc main_v1)) (W (Proc.devRef .tc main_arg2)) := by
  dsimp only [hostOps0_2]; after_results
  rfl

theorem V3_S (hr : Cert.Spec.InRange (m ((c.tc : Thread nD τ).loc main_arg1))) :
    (V3 m c main_v36 : Cert.Spec.Mat 10240 10240)
      = Cert.Spec.Sop (m ((c.tc : Thread nD τ).loc main_arg1)) (m ((c.tc : Thread nD τ).loc main_arg2)) := by
  have e3 : V2 m c main_v3 = edgeRow1 (m ((c.tc : Thread nD τ).loc main_arg1)) :=
    (V2_of m c main_v3 (by decide)).trans (ops0_v3 (V0 m c))
  have e1 : V2 m c main_v1 = edgeRow0 (m ((c.tc : Thread nD τ).loc main_arg1)) :=
    (V2_of m c main_v1 (by decide)).trans (ops0_v1 (V0 m c))
  refine (ops02_v36 (V2 m c)).trans ?_
  rw [e3, e1, V2_arg m c main_arg2 (by decide) (by decide)]
  funext i
  rw [eq_ix2 i]
  exact Sterm_apply _ _ hr _ _

/-! ## The first layer: gather by source, scale, scatter-add by target, project, add the bias -/

theorem zeros1_apply (i : S10000x1.Idx) :
    broadcastInDim S10000x1 ![] bcast_S_S10000x1 (constant (F := Ideal) S_ .f32 0x00000000#32) i = (0 : EReal) :=
  Ideal.ofBits_zero_f32

/-- The gather's start indices: the normalised sources as one column. -/
def srcCol (ei : Cert.Spec.Edges) : IVec S160000x1 32 :=
  broadcastInDim S160000x1 ![0] bcast_S160000_S160000x1_0 (normIdx 10000#32 (edgeRow0 ei))

theorem srcCol_apply (ei : Cert.Spec.Edges) (hr : Cert.Spec.InRange ei) (e : Fin 160000) (u : Fin 1) :
    srcCol ei (ix2 e u) = ei (ix2 (0 : Fin 2) e) := by
  unfold srcCol
  rw [col_apply, normIdx_apply _ _ _ (by rw [edgeRow0_apply]; exact (hr 0 e).1), edgeRow0_apply]

/-- The input gathered at each edge's source. -/
def gathered (x : Cert.Spec.Mat 10000 1) (ei : Cert.Spec.Edges) : Cert.Spec.Mat 160000 1 :=
  Host.gather gather_S10000x1_S160000x1_S160000x1_1_0_n_n_0_1_11 x (srcCol ei)

theorem gathered_apply (x : Cert.Spec.Mat 10000 1) (ei : Cert.Spec.Edges) (hr : Cert.Spec.InRange ei) (e : Fin 160000) (j : Fin 1) :
    gathered x ei (ix2 e j) = x (ix2 (Cert.Spec.srcN ei e) j) := by
  unfold gathered
  have hidx := srcCol_apply ei hr e (0 : Fin 1)
  rw [Cert.SG.ker_gather1 x (srcCol ei) e j (by rw [hidx]; exact (hr 0 e).1) (by rw [hidx]; exact (hr 0 e).2)]
  refine congrArg (fun r => x (ix2 r j)) (Fin.ext ?_)
  show (srcCol ei (ix2 e (0 : Fin 1))).toInt.toNat = (Cert.Spec.src ei e).toNat % 10000
  rw [hidx]
  have h2 := hr 0 e
  unfold Cert.Spec.src
  exact (Nat.mod_eq_of_lt (by omega)).symm

/-- The aggregated input as the program builds it. -/
def agg1 (x : Cert.Spec.Mat 10000 1) (ei : Cert.Spec.Edges) (ew : Cert.Spec.Vct 160000) : Cert.Spec.Mat 10000 1 :=
  Host.scatterAdd (F := Ideal) (φ := .f32) scatter_S10000x1_S160000x1_S160000x1_1_0_0_1
    (broadcastInDim S10000x1 ![] bcast_S_S10000x1 (constant (F := Ideal) S_ .f32 0x00000000#32))
    (broadcastInDim S160000x1 ![0] bcast_S160000_S160000x1_0 (edgeRow1 ei))
    (mulf (F := Ideal) (s := S160000x1) (φ := .f32) (gathered x ei) (broadcastInDim S160000x1 ![0] bcast_S160000_S160000x1_0 ew))

theorem agg1_apply (x : Cert.Spec.Mat 10000 1) (ei : Cert.Spec.Edges) (ew : Cert.Spec.Vct 160000) (hr : Cert.Spec.InRange ei)
    (n : Fin 10000) (j : Fin 1) : agg1 x ei ew (ix2 n j) = Cert.Spec.edgeAgg ei ew x (ix2 n j) := by
  unfold agg1
  rw [Cert.SG.ker_scatter1, zeros1_apply, zero_add]
  show _ = ∑ e : Fin 160000, if Cert.Spec.dst ei e = (n.val : Int) then x (ix2 (Cert.Spec.srcN ei e) j) * ew (ix1 e) else 0
  refine Finset.sum_congr rfl fun e _ => ?_
  rw [col_apply, edgeRow1_apply, mulf_apply, gathered_apply x ei hr e j, col_apply]
  rfl

/-! ### The one-term contraction with `W1` -/

theorem dot_lhs0 (i : S10000x128.Idx) (q : dot_S10000x1_S1x128_S10000x128_1_0_0_1_n_n.contr.Idx) : (dot_S10000x1_S1x128_S10000x128_1_0_0_1_n_n.lhsIdx i q 0).val = (i 0).val := by
  unfold DotDims.lhsIdx
  rw [dif_neg (show ¬(0 : Fin S10000x1.rank) ∈ dot_S10000x1_S1x128_S10000x128_1_0_0_1_n_n.lhsBatch by decide), dif_pos (show (0 : Fin S10000x1.rank) ∈ dot_S10000x1_S1x128_S10000x128_1_0_0_1_n_n.lhsNonContracting by decide)]
  rfl

theorem dot_rhs1 (i : S10000x128.Idx) (q : dot_S10000x1_S1x128_S10000x128_1_0_0_1_n_n.contr.Idx) : (dot_S10000x1_S1x128_S10000x128_1_0_0_1_n_n.rhsIdx i q 1).val = (i 1).val := by
  unfold DotDims.rhsIdx
  rw [dif_neg (show ¬(1 : Fin S1x128.rank) ∈ dot_S10000x1_S1x128_S10000x128_1_0_0_1_n_n.rhsBatch by decide), dif_pos (show (1 : Fin S1x128.rank) ∈ dot_S10000x1_S1x128_S10000x128_1_0_0_1_n_n.rhsNonContracting by decide)]
  rfl

theorem dot1_apply (A : Cert.Spec.Mat 10000 1) (W1 : Cert.Spec.Mat 1 128) (i : S10000x128.Idx) :
    Host.dotGeneral (F := Ideal) (φ₁ := .f32) (φ₂ := .f32) dot_S10000x1_S1x128_S10000x128_1_0_0_1_n_n none A W1 i = Cert.Spec.mm A W1 i := by
  show _ = ∑ q : Fin 1, A (ix2 (i 0) q) * W1 (ix2 q (i 1))
  simp only [Host.dotGeneral]
  rw [Ideal.dotGeneral_apply, ← Equiv.sum_comp (contrEquiv1 dot_S10000x1_S1x128_S10000x128_1_0_0_1_n_n 1 rfl rfl).symm]
  refine Finset.sum_congr rfl fun k _ => ?_
  have hk := contrEquiv1_symm_val dot_S10000x1_S1x128_S10000x128_1_0_0_1_n_n 1 rfl rfl k
  have el : dot_S10000x1_S1x128_S10000x128_1_0_0_1_n_n.lhsIdx i ((contrEquiv1 dot_S10000x1_S1x128_S10000x128_1_0_0_1_n_n 1 rfl rfl).symm k) = ix2 (i 0) k := funext fun a => Fin.ext (by
    match a with
    | ⟨0, _⟩ => exact dot_lhs0 i _
    | ⟨1, _⟩ => exact (dot_S10000x1_S1x128_S10000x128_1_0_0_1_n_n.lhsIdx_val_of_single rfl i _).trans hk)
  have er : dot_S10000x1_S1x128_S10000x128_1_0_0_1_n_n.rhsIdx i ((contrEquiv1 dot_S10000x1_S1x128_S10000x128_1_0_0_1_n_n 1 rfl rfl).symm k) = ix2 k (i 1) := funext fun a => Fin.ext (by
    match a with
    | ⟨0, _⟩ => exact (dot_S10000x1_S1x128_S10000x128_1_0_0_1_n_n.rhsIdx_val_of_single rfl i _).trans hk
    | ⟨1, _⟩ => exact dot_rhs1 i _)
  rw [el, er]
  rfl

/-- The bias as one row, broadcast over the node rows. -/
theorem bias1_apply (b1 : Cert.Spec.Vct 128) (i : S10000x128.Idx) :
    broadcastInDim S10000x128 ![0, 1] bcast_S1x128_S10000x128_0_1 (broadcastInDim S1x128 ![1] bcast_S128_S1x128_1 b1) i = b1 (ix1 (i 1)) := by
  refine (broadcastInDim_apply _ _ _ i (ix2 (0 : Fin 1) (i 1)) (fun a => match a with
    | ⟨0, _⟩ => by show (0 : ℕ) = if (1 : ℕ) = 1 then 0 else (i 0).val; rw [if_pos rfl]
    | ⟨1, _⟩ => by show (i 1).val = if (128 : ℕ) = 1 then 0 else (i 1).val; rw [if_neg (by decide)])).trans ?_
  exact broadcastInDim_apply _ _ b1 _ (ix1 (i 1)) (fun a => match a with
    | ⟨0, _⟩ => by show (i 1).val = if (128 : ℕ) = 1 then 0 else (i 1).val; rw [if_neg (by decide)])

/-- The first layer as the program builds it. -/
def h1term (x : Cert.Spec.Mat 10000 1) (ei : Cert.Spec.Edges) (ew : Cert.Spec.Vct 160000) (W1 : Cert.Spec.Mat 1 128) (b1 : Cert.Spec.Vct 128) :
    Cert.Spec.Mat 10000 128 :=
  addf (F := Ideal) (s := S10000x128) (φ := .f32)
    (Host.dotGeneral (F := Ideal) (φ₁ := .f32) (φ₂ := .f32) dot_S10000x1_S1x128_S10000x128_1_0_0_1_n_n none (agg1 x ei ew) W1)
    (broadcastInDim S10000x128 ![0, 1] bcast_S1x128_S10000x128_0_1 (broadcastInDim S1x128 ![1] bcast_S128_S1x128_1 b1))

theorem h1term_eq (x : Cert.Spec.Mat 10000 1) (ei : Cert.Spec.Edges) (ew : Cert.Spec.Vct 160000) (W1 : Cert.Spec.Mat 1 128) (b1 : Cert.Spec.Vct 128)
    (hr : Cert.Spec.InRange ei) : h1term x ei ew W1 b1 = Cert.Spec.h1 x ei ew W1 b1 := by
  funext i
  unfold h1term
  rw [addf_apply, dot1_apply, bias1_apply,
    show agg1 x ei ew = Cert.Spec.edgeAgg ei ew x from funext fun k => by rw [eq_ix2 k]; exact agg1_apply x ei ew hr _ _]
  rfl

/-! ### The zero rows -/

/-- The padding with 240 rows of the converted integer `z`. -/
def paddedWith (z : IVec S_ 32) (h : Cert.Spec.Mat 10000 128) : Cert.Spec.Mat 10240 128 :=
  pad S10240x128 ![0, 0] ![240, 0] ![0, 0] h (sitofp (F := Ideal) .f32 z) pads_S10000x128_S10240x128_02400_000 h_S_

theorem paddedWith_zero_apply (h : Cert.Spec.Mat 10000 128) (i : S10240x128.Idx) :
    paddedWith (constantI S_ 32 0#32) h i = Cert.Spec.padRows h i := by
  unfold paddedWith
  by_cases hlt : (i 0).val < 10000
  · simp only [Cert.Spec.padRows, dif_pos hlt]
    exact pad_apply_of_inside _ _ _ h _ _ _ i (ix2 ⟨(i 0).val, hlt⟩ (i 1)) (fun a => match a with
      | ⟨0, _⟩ => by show (i 0).val = 0 + (i 0).val * 1; omega
      | ⟨1, _⟩ => by show (i 1).val = 0 + (i 1).val * 1; omega)
  · simp only [Cert.Spec.padRows, dif_neg hlt]
    refine (pad_apply_of_not_inside _ _ _ h _ _ _ i (0 : Fin 2) ?_).trans ?_
    · show ¬(0 ≤ (i 0).val ∧ ((i 0).val - 0) % 1 = 0 ∧ ((i 0).val - 0) / 1 < 10000)
      omega
    · show (((0#32 : BitVec 32).toInt : ℝ) : EReal) = 0
      rw [show (0#32 : BitVec 32).toInt = 0 from by decide, Int.cast_zero, EReal.coe_zero]

/-! ### The stretches read at the first layer's buffers -/

set_option maxHeartbeats 2000000 in
theorem ops0_v19 (W : Valuation τ sig (Elt Ideal)) :
    StableHlo.after (hostOps0 (F := Ideal)) W (Proc.devRef .tc main_v19)
      = h1term (W (Proc.devRef .tc main_arg0)) (W (Proc.devRef .tc main_arg1)) (W (Proc.devRef .tc main_arg2))
          (W (Proc.devRef .tc main_arg3)) (W (Proc.devRef .tc main_arg4)) := by
  dsimp only [hostOps0]; after_results_simp
  rfl

theorem ops0_c1 (W : Valuation τ sig (Elt Ideal)) :
    StableHlo.after (hostOps0 (F := Ideal)) W (Proc.devRef .tc main_c_1) = constantI S_ 32 0#32 := by
  dsimp only [hostOps0]; after_results

theorem ops01_v20 (W : Valuation τ sig (Elt Ideal)) :
    StableHlo.after (hostOps0_1 (F := Ideal)) W (Proc.devRef .tc main_v20)
      = paddedWith (W (Proc.devRef .tc main_c_1)) (W (Proc.devRef .tc main_v19)) := by
  dsimp only [hostOps0_1]; after_results
  rfl

theorem ops02_v21 (W : Valuation τ sig (Elt Ideal)) :
    (StableHlo.after (hostOps0_2 (F := Ideal)) W (Proc.devRef .tc main_v21) : Cert.Spec.Mat 10240 128)
      = W (Proc.devRef .tc main_v20) := by
  dsimp only [hostOps0_2]; after_results; rfl

theorem V3_h1 (hr : Cert.Spec.InRange (m ((c.tc : Thread nD τ).loc main_arg1))) :
    (V3 m c main_v21 : Cert.Spec.Mat 10240 128)
      = Cert.Spec.padRows (Cert.Spec.h1 (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))) := by
  refine (ops02_v21 (V2 m c)).trans ((ops01_v20 (V1 m c)).trans ?_)
  rw [show V1 m c (Proc.devRef .tc main_c_1) = _ from ops0_c1 (V0 m c), show V1 m c (Proc.devRef .tc main_v19) = _ from ops0_v19 (V0 m c)]
  funext i
  rw [paddedWith_zero_apply]
  exact congrFun (congrArg Cert.Spec.padRows (h1term_eq _ _ _ _ _ hr)) i

end Cert.KernelIdeal.Glue

end
-- ==== Proof.KI.R0Value.lean ====
/-
  Region 0 (the first aggregation pass): what its first output array ends holding, as one function of the arrays
  the region finds.

  It is one dense layer. After a point the accumulator holds the partial row sums of operator times features over
  the column tiles of the current row tile seen so far (by induction on the point; at the extended reals the narrow
  format is the identity and each tile product adds the tile's own sum), so at the last column tile of a row tile
  it holds the full row sums (the sum over the 10240 columns split into five tiles of 2048). There the body
  projects the accumulator through the weights, adds the bias and zeroes the rows past the node count; the row
  tiles' last points write back blocks that cover the array.
-/
import proofs.«408395_j7919919694206_3_alg».proof.Proof.KI.R0Data
import proofs.«408395_j7919919694206_3_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

open scoped BigOperators

namespace Cert.KernelIdeal.R0V

open Cert.KernelIdeal Cert.KernelIdeal.Gen Cert.KernelIdeal.R0
open Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c.tc : Thread nD τ).loc b))

/-! ## Indices: a block's coordinate is block index times block size plus the coordinate inside the block -/

/-- Row `p` of row tile `r`, as a row of the padded array. -/
def rowIx (r : Fin 10) (p : Fin 1024) : Fin 10240 :=
  ⟨1024 * r.val + p.val, by have := r.isLt; have := p.isLt; omega⟩

/-- Column `k` of column tile `kk`, as a column of the padded operator (a row of the padded features). -/
def colIx (kk : Fin 5) (k : Fin 2048) : Fin 10240 :=
  ⟨2048 * kk.val + k.val, by have := kk.isLt; have := k.isLt; omega⟩

/-- The sum over the 10240 columns is the sum over the five column tiles of the sums inside each tile. -/
theorem sum_cols (g : Fin 10240 → EReal) : ∑ k : Fin 10240, g k = ∑ kk : Fin 5, ∑ k : Fin 2048, g (colIx kk k) := by
  rw [← Equiv.sum_comp (finProdFinEquiv : Fin 5 × Fin 2048 ≃ Fin 10240) g, Fintype.sum_prod_type]
  refine Finset.sum_congr rfl fun kk _ => Finset.sum_congr rfl fun k _ => congrArg g (Fin.ext ?_)
  show k.val + 2048 * kk.val = 2048 * kk.val + k.val
  omega

/-! ## The payloads at an index -/

/-- The operator's tile in the narrow format is the tile: both the cast to its own shape and the narrowing are the
    identity on extended reals. -/
theorem pay1_apply (v0 : Vec Ideal S1024x2048 .f32) (j : S1024x2048.Idx) : k0_pay1 v0 j = v0 j := by
  unfold k0_pay1
  simp only [shapeCast_self]
  rfl

/-- The reset value of the accumulator is zero everywhere. -/
theorem pay2_apply (j : S1024x128.Idx) : k0_pay2 (F := Ideal) j = 0 := by
  unfold k0_pay2
  simp only [shapeCast_self]
  exact Ideal.ofBits_zero_f32

theorem lhs_acc_0 (i : S1024x128.Idx) (q : dot_S1024x2048_S2048x128_S1024x128_1_0_0_1_n_n.contr.Idx) :
    (dot_S1024x2048_S2048x128_S1024x128_1_0_0_1_n_n.lhsIdx i q 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
theorem lhs_acc_1 (i : S1024x128.Idx) (q : dot_S1024x2048_S2048x128_S1024x128_1_0_0_1_n_n.contr.Idx) :
    (dot_S1024x2048_S2048x128_S1024x128_1_0_0_1_n_n.lhsIdx i q 1).val = (q ⟨0, by decide⟩).val :=
  dot_S1024x2048_S2048x128_S1024x128_1_0_0_1_n_n.lhsIdx_val_of_single rfl i q
theorem rhs_acc_0 (i : S1024x128.Idx) (q : dot_S1024x2048_S2048x128_S1024x128_1_0_0_1_n_n.contr.Idx) :
    (dot_S1024x2048_S2048x128_S1024x128_1_0_0_1_n_n.rhsIdx i q 0).val = (q ⟨0, by decide⟩).val :=
  dot_S1024x2048_S2048x128_S1024x128_1_0_0_1_n_n.rhsIdx_val_of_single rfl i q
theorem rhs_acc_1 (i : S1024x128.Idx) (q : dot_S1024x2048_S2048x128_S1024x128_1_0_0_1_n_n.contr.Idx) :
    (dot_S1024x2048_S2048x128_S1024x128_1_0_0_1_n_n.rhsIdx i q 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- The tile product into a zero accumulator, at an index: the sum over the tile's 2048 columns. -/
theorem matmul_acc_apply (a : FVec Ideal S1024x2048 .bf16) (b : FVec Ideal S2048x128 .bf16) (p : Fin 1024) (q : Fin 128) :
    matmul dot_S1024x2048_S2048x128_S1024x128_1_0_0_1_n_n none a b (constant S1024x128 .f32 0x00000000#32) (ix2 p q)
      = ∑ k : Fin 2048, a (ix2 p k) * b (ix2 k q) := by
  simp only [matmul]
  rw [Ideal.matmul_constant_zero_apply, ← Equiv.sum_comp (ValueIdx.contrEquiv1 dot_S1024x2048_S2048x128_S1024x128_1_0_0_1_n_n 2048 rfl rfl).symm]
  refine Finset.sum_congr rfl fun k _ => ?_
  have hk := ValueIdx.contrEquiv1_symm_val dot_S1024x2048_S2048x128_S1024x128_1_0_0_1_n_n 2048 rfl rfl k
  have el : dot_S1024x2048_S2048x128_S1024x128_1_0_0_1_n_n.lhsIdx (ix2 p q) ((ValueIdx.contrEquiv1 dot_S1024x2048_S2048x128_S1024x128_1_0_0_1_n_n 2048 rfl rfl).symm k) = ix2 p k := funext fun a => Fin.ext (by
    match a with
    | ⟨0, _⟩ => exact lhs_acc_0 _ _
    | ⟨1, _⟩ => exact (lhs_acc_1 _ _).trans hk)
  have er : dot_S1024x2048_S2048x128_S1024x128_1_0_0_1_n_n.rhsIdx (ix2 p q) ((ValueIdx.contrEquiv1 dot_S1024x2048_S2048x128_S1024x128_1_0_0_1_n_n 2048 rfl rfl).symm k) = ix2 k q := funext fun a => Fin.ext (by
    match a with
    | ⟨0, _⟩ => exact (rhs_acc_0 _ _).trans hk
    | ⟨1, _⟩ => exact rhs_acc_1 _ _)
  rw [el, er]

/-- The accumulator's update at an index: what it held plus the tile's products summed over the tile's columns. -/
theorem pay3_apply (v0 : Vec Ideal S1024x2048 .f32) (v7 : Vec Ideal S1024x128 .f32) (v8 : Vec Ideal S2048x128 .bf16)
    (p : Fin 1024) (q : Fin 128) :
    k0_pay3 v0 v7 v8 (ix2 p q) = v7 (ix2 p q) + ∑ k : Fin 2048, v0 (ix2 p k) * v8 (ix2 k q) := by
  unfold k0_pay3
  simp only [shapeCast_self]
  refine (addf_apply _ _ _).trans ?_
  refine congrArg (v7 (ix2 p q) + ·) ?_
  refine (matmul_acc_apply (k0_pay1 v0) v8 p q).trans ?_
  exact Finset.sum_congr rfl fun k _ => congrArg (· * v8 (ix2 k q)) (pay1_apply v0 (ix2 p k))

theorem lhs_prj_0 (i : S1024x256.Idx) (q : dot_S1024x128_S128x256_S1024x256_1_0_0_1_n_n.contr.Idx) :
    (dot_S1024x128_S128x256_S1024x256_1_0_0_1_n_n.lhsIdx i q 0).val = (i 0).val := by
  unfold DotDims.lhsIdx
  rw [dif_neg (show ¬(0 : Fin S1024x128.rank) ∈ dot_S1024x128_S128x256_S1024x256_1_0_0_1_n_n.lhsBatch by decide), dif_pos (show (0 : Fin S1024x128.rank) ∈ dot_S1024x128_S128x256_S1024x256_1_0_0_1_n_n.lhsNonContracting by decide)]
  rfl
theorem lhs_prj_1 (i : S1024x256.Idx) (q : dot_S1024x128_S128x256_S1024x256_1_0_0_1_n_n.contr.Idx) :
    (dot_S1024x128_S128x256_S1024x256_1_0_0_1_n_n.lhsIdx i q 1).val = (q ⟨0, by decide⟩).val :=
  dot_S1024x128_S128x256_S1024x256_1_0_0_1_n_n.lhsIdx_val_of_single rfl i q
theorem rhs_prj_0 (i : S1024x256.Idx) (q : dot_S1024x128_S128x256_S1024x256_1_0_0_1_n_n.contr.Idx) :
    (dot_S1024x128_S128x256_S1024x256_1_0_0_1_n_n.rhsIdx i q 0).val = (q ⟨0, by decide⟩).val :=
  dot_S1024x128_S128x256_S1024x256_1_0_0_1_n_n.rhsIdx_val_of_single rfl i q
theorem rhs_prj_1 (i : S1024x256.Idx) (q : dot_S1024x128_S128x256_S1024x256_1_0_0_1_n_n.contr.Idx) :
    (dot_S1024x128_S128x256_S1024x256_1_0_0_1_n_n.rhsIdx i q 1).val = (i 1).val := by
  unfold DotDims.rhsIdx
  rw [dif_neg (show ¬(1 : Fin S128x256.rank) ∈ dot_S1024x128_S128x256_S1024x256_1_0_0_1_n_n.rhsBatch by decide), dif_pos (show (1 : Fin S128x256.rank) ∈ dot_S1024x128_S128x256_S1024x256_1_0_0_1_n_n.rhsNonContracting by decide)]
  rfl

/-- The projection through the weights into a zero accumulator, at an index: the sum over the 128 features. -/
theorem matmul_prj_apply (a : FVec Ideal S1024x128 .bf16) (b : FVec Ideal S128x256 .bf16) (p : Fin 1024) (q : Fin 256) :
    matmul dot_S1024x128_S128x256_S1024x256_1_0_0_1_n_n none a b (constant S1024x256 .f32 0x00000000#32) (ix2 p q)
      = ∑ k : Fin 128, a (ix2 p k) * b (ix2 k q) := by
  simp only [matmul]
  rw [Ideal.matmul_constant_zero_apply, ← Equiv.sum_comp (ValueIdx.contrEquiv1 dot_S1024x128_S128x256_S1024x256_1_0_0_1_n_n 128 rfl rfl).symm]
  refine Finset.sum_congr rfl fun k _ => ?_
  have hk := ValueIdx.contrEquiv1_symm_val dot_S1024x128_S128x256_S1024x256_1_0_0_1_n_n 128 rfl rfl k
  have el : dot_S1024x128_S128x256_S1024x256_1_0_0_1_n_n.lhsIdx (ix2 p q) ((ValueIdx.contrEquiv1 dot_S1024x128_S128x256_S1024x256_1_0_0_1_n_n 128 rfl rfl).symm k) = ix2 p k := funext fun a => Fin.ext (by
    match a with
    | ⟨0, _⟩ => exact lhs_prj_0 _ _
    | ⟨1, _⟩ => exact (lhs_prj_1 _ _).trans hk)
  have er : dot_S1024x128_S128x256_S1024x256_1_0_0_1_n_n.rhsIdx (ix2 p q) ((ValueIdx.contrEquiv1 dot_S1024x128_S128x256_S1024x256_1_0_0_1_n_n 128 rfl rfl).symm k) = ix2 k q := funext fun a => Fin.ext (by
    match a with
    | ⟨0, _⟩ => exact (rhs_prj_0 _ _).trans hk
    | ⟨1, _⟩ => exact rhs_prj_1 _ _)
  rw [el, er]

/-- The row mask: the word "1024 · (row tile) + (row in tile)" compared signed against 10000 decides whether the
    global row is a node. Both numbers are far below 2³¹, so the words are the numbers. -/
theorem mask_iff (r p : Nat) (hr : r < 10) (hp : p < 1024) :
    IntOp.cmpi .slt (IntOp.addi (IntOp.muli (BitVec.ofNat 32 r) 1024#32) (BitVec.ofNat 32 p)) 10000#32 = 1#1
      ↔ 1024 * r + p < 10000 := by
  have e : (IntOp.addi (IntOp.muli (BitVec.ofNat 32 r) 1024#32) (BitVec.ofNat 32 p)).toNat = 1024 * r + p := by
    unfold IntOp.addi IntOp.muli
    rw [BitVec.toNat_add, BitVec.toNat_mul, BitVec.toNat_ofNat, BitVec.toNat_ofNat, BitVec.toNat_ofNat]
    omega
  rw [StableHlo.Predicate.slt_iff_toNat (by rw [e]; omega) (by decide), e]
  rfl

/-- The first output's block at an index: on the node rows the accumulator's row projected through the weights
    plus the bias, zero on the rows past the node count. -/
theorem pay4_apply (i : grid0.Coords) (v18 : Vec Ideal S1024x128 .f32) (v20 : Vec Ideal S128x256 .bf16) (v23 : Vec Ideal S1x256 .f32)
    (p : Fin 1024) (q : Fin 256) :
    k0_pay4 i v18 v20 v23 (ix2 p q)
      = if 1024 * (i 0).val + p.val < 10000 then (∑ k : Fin 128, v18 (ix2 p k) * v20 (ix2 k q)) + v23 (ix2 (0 : Fin 1) q) else 0 := by
  have hi0 : (i 0).val < 10 := (i 0).isLt
  unfold k0_pay4
  simp only [shapeCast_self]
  refine (truncf_apply (ψ := .bf16) _ bitsLt_bf16_f32 (ix2 p q)).trans ?_
  refine (select_apply _ _ _ _).trans ?_
  have hio : iota .tc S1024x256 32 [0] iota_S1024x256_d0_w32 (ix2 p q) = BitVec.ofNat 32 p.val :=
    iota_single_apply .tc S1024x256 32 0 iota_S1024x256_d0_w32 (ix2 p q)
  have hc : cmpi .slt (addi (broadcast S1024x256 (Scalar.muli (BitVec.ofNat 32 (i 0).val) 1024#32)) (iota .tc S1024x256 32 [0] iota_S1024x256_d0_w32)) (broadcast S1024x256 10000#32) (ix2 p q)
      = IntOp.cmpi .slt (IntOp.addi (IntOp.muli (BitVec.ofNat 32 (i 0).val) 1024#32) (BitVec.ofNat 32 p.val)) 10000#32 := by
    show IntOp.cmpi .slt (IntOp.addi (IntOp.muli (BitVec.ofNat 32 (i 0).val) 1024#32) (iota .tc S1024x256 32 [0] iota_S1024x256_d0_w32 (ix2 p q))) 10000#32 = _
    rw [hio]
  rw [hc]
  by_cases h : 1024 * (i 0).val + p.val < 10000
  · rw [if_pos h, (mask_iff (i 0).val p.val hi0 p.isLt).mpr h, select_one]
    refine (addf_apply _ _ _).trans ?_
    refine congrArg₂ (· + ·) ?_ ?_
    · refine (matmul_prj_apply _ v20 p q).trans ?_
      rfl
    · exact broadcastTo_apply v23 broadcasts_S1x256_S1024x256 (ix2 p q) (ix2 (0 : Fin 1) q) (fun a => match a with
        | ⟨0, _⟩ => rfl
        | ⟨1, _⟩ => rfl)
  · rw [if_neg h, eq_zero_of_ne_one (fun hh => h ((mask_iff (i 0).val p.val hi0 p.isLt).mp hh)), select_zero]
    exact Ideal.ofBits_zero_f32

/-! ## The arrays as the region finds them, at their literal shapes -/

/-- The dense operator. -/
abbrev Sarr (c : Dev nD) : Cert.Spec.Mat 10240 10240 := V c (Pipeline.arrRef spec0 0)
/-- The previous layer's features. -/
abbrev Harr (c : Dev nD) : Cert.Spec.Mat 10240 128 := V c (Pipeline.arrRef spec0 1)
/-- The weights. -/
abbrev Warr (c : Dev nD) : Cert.Spec.Mat 128 256 := V c (Pipeline.arrRef spec0 2)
/-- The bias, a one-row matrix. -/
abbrev Barr (c : Dev nD) : Cert.Spec.Mat 1 256 := V c (Pipeline.arrRef spec0 3)

/-! ## The schedule's index maps, decided over the grid -/

theorem idx_facts : ∀ t : Fin cfg0.N,
    win0_0.index t (0 : Fin 2) = t.val / 5 ∧ win0_0.index t (1 : Fin 2) = t.val % 5
    ∧ win0_1.index t (0 : Fin 2) = t.val % 5 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 5 ∧ win0_4.index t (1 : Fin 2) = 0
    ∧ ((grid0.coords t) 0).val = t.val / 5 :=
  (by decide +kernel : ∀ t : Fin grid0.N, _)

theorem lt_N (t : Fin cfg0.N) : t.val < 50 := by
  have h : t.val < grid0.N := t.isLt
  rw [N_0] at h
  exact h

/-! ## The input blocks read through their windows -/

/-- The operator's tile at point `t`: rows of row tile `t / 5`, columns of column tile `t % 5`. -/
theorem blk0_apply (c : Dev nD) (t : Fin cfg0.N) (r : Fin 10) (kk : Fin 5) (hr : r.val = t.val / 5) (hkk : kk.val = t.val % 5)
    (p : Fin 1024) (k : Fin 2048) :
    (iblk0 V c 0 t : Vec Ideal S1024x2048 .f32) (ix2 p k) = Sarr V c (ix2 (rowIx r p) (colIx kk k)) := by
  obtain ⟨e0, e1, -⟩ := idx_facts t
  unfold iblk0
  rw [View.read_apply]
  show V c (Pipeline.arrRef spec0 0) _ = V c (Pipeline.arrRef spec0 0) _
  refine congrArg _ (funext fun a => Fin.ext ?_)
  match a with
  | ⟨0, _⟩ => show win0_0.index t (0 : Fin 2) * 1024 + 1 * p.val = 1024 * r.val + p.val; omega
  | ⟨1, _⟩ => show win0_0.index t (1 : Fin 2) * 2048 + 1 * k.val = 2048 * kk.val + k.val; omega

/-- The features' block at point `t`: the rows of column tile `t % 5`. -/
theorem blk1_apply (c : Dev nD) (t : Fin cfg0.N) (kk : Fin 5) (hkk : kk.val = t.val % 5) (k : Fin 2048) (q : Fin 128) :
    (iblk0 V c 1 t : Vec Ideal S2048x128 .bf16) (ix2 k q) = Harr V c (ix2 (colIx kk k) q) := by
  obtain ⟨-, -, e0, e1, -⟩ := idx_facts t
  unfold iblk0
  rw [View.read_apply]
  show V c (Pipeline.arrRef spec0 1) _ = V c (Pipeline.arrRef spec0 1) _
  refine congrArg _ (funext fun a => Fin.ext ?_)
  match a with
  | ⟨0, _⟩ => show win0_1.index t (0 : Fin 2) * 2048 + 1 * k.val = 2048 * kk.val + k.val; omega
  | ⟨1, _⟩ => show win0_1.index t (1 : Fin 2) * 128 + 1 * q.val = q.val; omega

/-- The weights' block is the whole array at every point. -/
theorem blk2_apply (c : Dev nD) (t : Fin cfg0.N) (k : Fin 128) (q : Fin 256) :
    (iblk0 V c 2 t : Vec Ideal S128x256 .bf16) (ix2 k q) = Warr V c (ix2 k q) := by
  obtain ⟨-, -, -, -, e0, e1, -⟩ := idx_facts t
  unfold iblk0
  rw [View.read_apply]
  show V c (Pipeline.arrRef spec0 2) _ = V c (Pipeline.arrRef spec0 2) _
  refine congrArg _ (funext fun a => Fin.ext ?_)
  match a with
  | ⟨0, _⟩ => show win0_2.index t (0 : Fin 2) * 128 + 1 * k.val = k.val; omega
  | ⟨1, _⟩ => show win0_2.index t (1 : Fin 2) * 256 + 1 * q.val = q.val; omega

/-- The bias's block is the whole row at every point. -/
theorem blk3_apply (c : Dev nD) (t : Fin cfg0.N) (q : Fin 256) :
    (iblk0 V c 3 t : Vec Ideal S1x256 .f32) (ix2 (0 : Fin 1) q) = Barr V c (ix2 (0 : Fin 1) q) := by
  obtain ⟨-, -, -, -, -, -, e0, e1, -⟩ := idx_facts t
  unfold iblk0
  rw [View.read_apply]
  show V c (Pipeline.arrRef spec0 3) _ = V c (Pipeline.arrRef spec0 3) _
  refine congrArg _ (funext fun a => Fin.ext ?_)
  match a with
  | ⟨0, _⟩ => show win0_3.index t (0 : Fin 2) * 1 + 1 * 0 = 0; omega
  | ⟨1, _⟩ => show win0_3.index t (1 : Fin 2) * 256 + 1 * q.val = q.val; omega

/-! ## The accumulator: the partial row sums of operator times features -/

/-- One column tile's contribution to an entry of operator times features. -/
def tileSum (c : Dev nD) (r : Fin 10) (p : Fin 1024) (q : Fin 128) (kk : Fin 5) : EReal :=
  ∑ k : Fin 2048, Sarr V c (ix2 (rowIx r p) (colIx kk k)) * Harr V c (ix2 (colIx kk k) q)

/-- The column tiles up to the first are the first alone. -/
theorem filter_le_zero : Finset.univ.filter (fun kk : Fin 5 => kk.val ≤ 0) = {(⟨0, by decide⟩ : Fin 5)} := by
  ext kk
  simp only [Finset.mem_filter, Finset.mem_univ, true_and, Finset.mem_singleton, Fin.ext_iff, Fin.val_mk]
  omega

/-- The column tiles up to `m + 1` are those up to `m` and tile `m + 1`: addition on the extended reals is
    commutative and associative, so the sum splits. -/
theorem sum_le_succ (f : Fin 5 → EReal) (m : Nat) (hm : m + 1 < 5) :
    ∑ kk ∈ Finset.univ.filter (fun kk : Fin 5 => kk.val ≤ m + 1), f kk
      = (∑ kk ∈ Finset.univ.filter (fun kk : Fin 5 => kk.val ≤ m), f kk) + f ⟨m + 1, hm⟩ := by
  have e : Finset.univ.filter (fun kk : Fin 5 => kk.val ≤ m + 1)
      = insert (⟨m + 1, hm⟩ : Fin 5) (Finset.univ.filter (fun kk : Fin 5 => kk.val ≤ m)) := by
    ext kk
    simp only [Finset.mem_filter, Finset.mem_univ, true_and, Finset.mem_insert, Fin.ext_iff, Fin.val_mk]
    omega
  have hn : (⟨m + 1, hm⟩ : Fin 5) ∉ Finset.univ.filter (fun kk : Fin 5 => kk.val ≤ m) := by
    simp only [Finset.mem_filter, Finset.mem_univ, true_and, Fin.val_mk]
    omega
  rw [e, Finset.sum_insert hn, add_comm]

/-- One point's update of an accumulator entry: the point's tile contribution is added to what was there. -/
theorem step_apply (c : Dev nD) (t : Fin cfg0.N) (r : Fin 10) (kk : Fin 5) (hr : r.val = t.val / 5) (hkk : kk.val = t.val % 5)
    (a : Vec Ideal S1024x128 .f32) (p : Fin 1024) (q : Fin 128) :
    k0_pay3 (iblk0 V c 0 t) a (iblk0 V c 1 t) (ix2 p q) = a (ix2 p q) + tileSum V c r p q kk := by
  refine (pay3_apply (iblk0 V c 0 t) a (iblk0 V c 1 t) p q).trans ?_
  refine congrArg (a (ix2 p q) + ·) ?_
  unfold tileSum
  refine Finset.sum_congr rfl fun k _ => ?_
  rw [blk0_apply V c t r kk hr hkk p k, blk1_apply V c t kk hkk k q]

/-- After point `n` (row tile `n / 5`, column tile `n % 5`) an accumulator entry is the sum of the contributions of
    the column tiles `0 … n % 5` of that row tile: by induction on the point, the reset at a row tile's first column
    tile starting the sum from zero. -/
theorem acc0_apply (c : Dev nD) : ∀ (n : Nat) (h : n < cfg0.N) (r : Fin 10) (hr : r.val = n / 5) (p : Fin 1024) (q : Fin 128),
    (acc0 V c n h : Vec Ideal S1024x128 .f32) (ix2 p q)
      = ∑ kk ∈ Finset.univ.filter (fun kk : Fin 5 => kk.val ≤ n % 5), tileSum V c r p q kk
  | 0, h, r, hr, p, q => by
    show k0_pay3 (iblk0 V c 0 ⟨0, h⟩) (k0_pay2 (F := Ideal)) (iblk0 V c 1 ⟨0, h⟩) (ix2 p q) = _
    rw [step_apply V c ⟨0, h⟩ r ⟨0, by decide⟩ hr rfl (k0_pay2 (F := Ideal)) p q, pay2_apply, zero_add]
    show _ = ∑ kk ∈ Finset.univ.filter (fun kk : Fin 5 => kk.val ≤ 0), tileSum V c r p q kk
    rw [filter_le_zero, Finset.sum_singleton]
  | n + 1, h, r, hr, p, q => by
    have hn : n + 1 < 50 := lt_N ⟨n + 1, h⟩
    show k0_pay3 (iblk0 V c 0 ⟨n + 1, h⟩) (if (n + 1) % 5 = 0 then (k0_pay2 (F := Ideal)) else acc0 V c n (Nat.lt_of_succ_lt h)) (iblk0 V c 1 ⟨n + 1, h⟩) (ix2 p q) = _
    by_cases h5 : (n + 1) % 5 = 0
    · rw [if_pos h5, step_apply V c ⟨n + 1, h⟩ r ⟨0, by decide⟩ hr (by show 0 = (n + 1) % 5; omega) (k0_pay2 (F := Ideal)) p q,
        pay2_apply, zero_add, h5, filter_le_zero, Finset.sum_singleton]
    · have e5 : (n + 1) % 5 = n % 5 + 1 := by omega
      rw [if_neg h5, step_apply V c ⟨n + 1, h⟩ r ⟨n % 5 + 1, by omega⟩ hr (by show n % 5 + 1 = (n + 1) % 5; omega) (acc0 V c n (Nat.lt_of_succ_lt h)) p q,
        acc0_apply c n (Nat.lt_of_succ_lt h) r (by rw [hr]; omega) p q, e5, sum_le_succ _ (n % 5) (by omega)]

/-- At the last column tile of a row tile the accumulator holds the row of operator times features: the five tiles'
    sums are the sum over all 10240 columns. -/
theorem acc0_last (c : Dev nD) (t : Fin cfg0.N) (h4 : t.val % 5 = 4) (r : Fin 10) (hr : r.val = t.val / 5) (p : Fin 1024) (q : Fin 128) :
    (acc0 V c t.val t.isLt : Vec Ideal S1024x128 .f32) (ix2 p q) = Cert.Spec.mm (Sarr V c) (Harr V c) (ix2 (rowIx r p) q) := by
  rw [acc0_apply V c t.val t.isLt r hr p q, h4, Finset.filter_true_of_mem (fun kk _ => by have := kk.isLt; omega)]
  exact (sum_cols (fun k => Sarr V c (ix2 (rowIx r p) k) * Harr V c (ix2 k q))).symm

/-! ## The first output: one dense layer -/

/-- The layer the first output ends holding. -/
abbrev layer (c : Dev nD) : Cert.Spec.Mat 10240 256 :=
  Cert.Spec.kerLayer (Sarr V c) (Harr V c) (Warr V c) (fun j => Barr V c (ix2 (0 : Fin 1) (j 0))) id

/-- What a row tile's last point leaves in the first output's buffer is the layer's rows of that row tile. -/
theorem out4_apply (c : Dev nD) (t : Fin cfg0.N) (h4 : t.val % 5 = 4) (r : Fin 10) (hr : r.val = t.val / 5) (p : Fin 1024) (q : Fin 256) :
    k0_pay4 (grid0.coords t) (acc0 V c t.val t.isLt) (iblk0 V c 2 t) (iblk0 V c 3 t) (ix2 p q) = layer V c (ix2 (rowIx r p) q) := by
  obtain ⟨-, -, -, -, -, -, -, -, -, -, eg⟩ := idx_facts t
  refine (pay4_apply (grid0.coords t) (acc0 V c t.val t.isLt) (iblk0 V c 2 t) (iblk0 V c 3 t) p q).trans ?_
  unfold layer Cert.Spec.kerLayer
  by_cases hlt : 1024 * r.val + p.val < 10000
  · have h1 : 1024 * ((grid0.coords t) 0).val + p.val < 10000 := by rw [eg, ← hr]; exact hlt
    have h2 : ((ix2 (rowIx r p) q : (⟨2, ![10240, 256]⟩ : Shape).Idx) 0).val < 10000 := hlt
    rw [if_pos h1, if_pos h2]
    show _ = Cert.Spec.mm (Cert.Spec.mm (Sarr V c) (Harr V c)) (Warr V c) (ix2 (rowIx r p) q) + Barr V c (ix2 (0 : Fin 1) q)
    refine congrArg₂ (· + ·) ?_ (blk3_apply V c t q)
    show _ = ∑ k : Fin 128, Cert.Spec.mm (Sarr V c) (Harr V c) (ix2 (rowIx r p) k) * Warr V c (ix2 k q)
    refine Finset.sum_congr rfl fun k _ => ?_
    rw [acc0_last V c t h4 r hr p k, blk2_apply V c t k q]
  · have h1 : ¬ 1024 * ((grid0.coords t) 0).val + p.val < 10000 := by rw [eg, ← hr]; exact hlt
    have h2 : ¬ ((ix2 (rowIx r p) q : (⟨2, ![10240, 256]⟩ : Shape).Idx) 0).val < 10000 := hlt
    rw [if_neg h1, if_neg h2]

/-- What a writing point writes back is its block of the layer. -/
theorem flushed4_eq (c : Dev nD) (t : Fin cfg0.N) (hf : (cfg0.win 4).flush t = true) :
    (dat0 V c).flushed 4 t = ((cfg0.win 4).blk t).view.read (Elt Ideal) (layer V c) := by
  have h4 : t.val % 5 = 4 := (flush0_4 t).mp hf
  have ht := lt_N t
  obtain ⟨-, -, -, -, -, -, -, -, e0, e1, -⟩ := idx_facts t
  show (cfg0.win 4).cut (grid0.coords t) ((dat0 V c).after 4 t) = _
  rw [after0_4]
  funext j
  have hj0 : (j 0).val < 1024 := (j 0).isLt
  have hj1 : (j 1).val < 256 := (j 1).isLt
  rw [View.read_apply]
  have hx : (cfg0.win 4).xinj (grid0.coords t) j = ix2 (⟨(j 0).val, hj0⟩ : Fin 1024) (⟨(j 1).val, hj1⟩ : Fin 256) :=
    funext fun a => match a with | ⟨0, _⟩ => rfl | ⟨1, _⟩ => rfl
  show k0_pay4 (grid0.coords t) (acc0 V c t.val t.isLt) (iblk0 V c 2 t) (iblk0 V c 3 t) ((cfg0.win 4).xinj (grid0.coords t) j) = _
  rw [hx]
  refine (out4_apply V c t h4 ⟨t.val / 5, by omega⟩ rfl _ _).trans ?_
  show layer V c _ = layer V c _
  refine congrArg _ (funext fun a => Fin.ext ?_)
  match a with
  | ⟨0, _⟩ => show 1024 * (t.val / 5) + (j 0).val = win0_4.index t (0 : Fin 2) * 1024 + 1 * (j 0).val; omega
  | ⟨1, _⟩ => show (j 1).val = win0_4.index t (1 : Fin 2) * 256 + 1 * (j 1).val; omega

/-- Every row of the first output lies in the block its row tile's last point writes. -/
theorem cover4 (i : S10240x256.Idx) : ∃ t : Fin cfg0.N, (cfg0.win 4).flush t = true ∧ i ∈ ((cfg0.win 4).blk t).view.set := by
  have hi0 : (i 0).val < 10240 := (i 0).isLt
  have hi1 : (i 1).val < 256 := (i 1).isLt
  have hN : 5 * ((i 0).val / 1024) + 4 < cfg0.N := by show _ < grid0.N; rw [N_0]; omega
  obtain ⟨t, ht⟩ : ∃ t : Fin cfg0.N, t.val = 5 * ((i 0).val / 1024) + 4 := ⟨⟨_, hN⟩, rfl⟩
  obtain ⟨-, -, -, -, -, -, -, -, e0, e1, -⟩ := idx_facts t
  refine ⟨t, (flush0_4 t).mpr (by omega), ?_⟩
  show i ∈ ((View.whole main_v40_0).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 256 ≤ (i 1).val ∧ (i 1).val < win0_4.index t (1 : Fin 2) * 256 + 256
    omega

/-- The first output ends holding the layer. -/
theorem arrAt0_4 (c : Dev nD) :
    ((dat0 V c).arrAt 4 cfg0.N : Cert.Spec.Mat 10240 256)
      = Cert.Spec.kerLayer (V c (Pipeline.arrRef spec0 0)) (V c (Pipeline.arrRef spec0 1)) (V c (Pipeline.arrRef spec0 2))
          (fun j => V c (Pipeline.arrRef spec0 3) (ix2 (0 : Fin 1) (j 0))) id :=
  (dat0 V c).arrAt_eq_of_cover 4 (layer V c) (flushed4_eq V c) cover4

end Cert.KernelIdeal.R0V

end
-- ==== Proof.KI.R0ValueS.lean ====
/-
  Region 0's second output: the dense edge-weight operator rewritten in the narrow format.

  At every point of the 10 by 5 grid the body reads the operator's tile (rows 1024·i … 1024·i + 1023, columns
  2048·k … 2048·k + 2047 at point (i, k)), narrows its format, and the tile is written back to the same rows and
  columns of the second output: the input window and this output window have the same tile shape and the same index map.
  At the extended reals a change of format is the identity, so each point writes back the tile of the operator itself;
  the 50 tiles cover every row and column of the 10240 by 10240 array (row r, column q lie in the tile of point
  5·(r / 1024) + q / 2048), so after the run the second output IS the operator.
-/
import proofs.«408395_j7919919694206_3_alg».proof.Proof.KI.R0Data
import proofs.«408395_j7919919694206_3_alg».proof.Proof.Spec
import Idealize.ShloMosaic.Lib.Pipeline.Value
import Idealize.ShloMosaic.Lib.ValueIdx

noncomputable section

namespace Cert.KernelIdeal.R0VS

open Cert.KernelIdeal Cert.KernelIdeal.Gen Cert.KernelIdeal.R0 Idealize.ShloMosaic Idealize.ShloMosaic.TcCoe Idealize.ShloMosaic.ValueIdx
open Idealize.ShloMosaic.Pipeline (Dat)

variable (V : (c : Dev nD) → (b : Ref sig .tc) → Buf (Elt Ideal) ((c.tc : Thread nD τ).loc b))

/-- The operator's array as the region finds it, over its literal shape. -/
abbrev Sarr (c : Dev nD) : Cert.Spec.Mat 10240 10240 := V c (Pipeline.arrRef spec0 0)

/-- Narrowing the format of a tile is the identity at the extended reals, entry by entry. -/
theorem pay1_apply (x : Vec Ideal S1024x2048 .f32) (j : S1024x2048.Idx) : (k0_pay1 x : FVec Ideal S1024x2048 .bf16) j = x j := by
  unfold k0_pay1
  rw [truncf_apply, shapeCast_self]

/-- The two windows' index maps over the grid: the input tile and the output tile of a point have the same tile index,
    which is (t / 5, t % 5) at point t. -/
theorem idx_facts : ∀ t : Fin cfg0.N, win0_0.index t (0 : Fin 2) = win0_5.index t (0 : Fin 2)
    ∧ win0_0.index t (1 : Fin 2) = win0_5.index t (1 : Fin 2)
    ∧ win0_5.index t (0 : Fin 2) = t.val / 5 ∧ win0_5.index t (1 : Fin 2) = t.val % 5 :=
  (by decide +kernel : ∀ t : Fin grid0.N, _)

/-- WHAT POINT t WRITES BACK to the second output is the tile of the operator itself at the output window's rectangle. -/
theorem flushed_eq (c : Dev nD) (t : Fin cfg0.N) :
    (dat0 V c).flushed 5 t = ((cfg0.win 5).blk t).view.read (Elt Ideal) (Sarr V c) := by
  show (cfg0.win 5).cut (grid0.coords t) ((dat0 V c).after 5 t) = _
  rw [after0_5]
  obtain ⟨e0, e1, -, -⟩ := idx_facts t
  funext j
  refine (pay1_apply (iblk0 V c 0 t) ((cfg0.win 5).xinj (grid0.coords t) j)).trans ?_
  show V c (Pipeline.arrRef spec0 0) (((cfg0.win 0).blk t).view.emb j) = V c (Pipeline.arrRef spec0 0) (((cfg0.win 5).blk t).view.emb j)
  have h0 : ((cfg0.win 0).blk t).view.emb j = ((cfg0.win 5).blk t).view.emb j := by
    funext a; apply Fin.ext
    match a with
    | ⟨0, _⟩ => show win0_0.index t (0 : Fin 2) * 1024 + 1 * (j 0).val = win0_5.index t (0 : Fin 2) * 1024 + 1 * (j 0).val; omega
    | ⟨1, _⟩ => show win0_0.index t (1 : Fin 2) * 2048 + 1 * (j 1).val = win0_5.index t (1 : Fin 2) * 2048 + 1 * (j 1).val; omega
  rw [h0]

/-- An index of the array is in point t's tile iff each coordinate is in the tile's range on its axis. -/
theorem mem_blk (t : Fin cfg0.N) (i : S10240x10240.Idx) :
    i ∈ ((cfg0.win 5).blk t).view.set ↔ ∀ a : Fin 2, win0_5.index t a * S1024x2048.size a ≤ (i a).val ∧ (i a).val < win0_5.index t a * S1024x2048.size a + S1024x2048.size a := by
  show i ∈ ((View.whole main_v40_1).slice (win0_5.rect t)).set ↔ _
  rw [View.set_slice_whole, Rect.mem_set_unit]
  exact Iff.rfl

/-- Every row and column of the array lies in the tile of some point. -/
theorem cover (i : S10240x10240.Idx) : ∃ t : Fin cfg0.N, (cfg0.win 5).flush t = true ∧ i ∈ ((cfg0.win 5).blk t).view.set := by
  have hr : (i 0).val < 10240 := (i 0).isLt
  have hq : (i 1).val < 10240 := (i 1).isLt
  have hN : cfg0.N = 50 := N_0
  let t : Fin cfg0.N := ⟨5 * ((i 0).val / 1024) + (i 1).val / 2048, by omega⟩
  have ht : t.val = 5 * ((i 0).val / 1024) + (i 1).val / 2048 := rfl
  obtain ⟨-, -, q0, q1⟩ := idx_facts t
  refine ⟨t, flush0_5 t, ?_⟩
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 2048 ≤ (i 1).val ∧ (i 1).val < win0_5.index t (1 : Fin 2) * 2048 + 2048; omega

/-- THE SECOND OUTPUT after the run is the operator the region found. -/
theorem arrAt0_5 (c : Dev nD) : (dat0 V c).arrAt 5 cfg0.N = (V c (Pipeline.arrRef spec0 0) : Cert.Spec.Mat 10240 10240) :=
  (dat0 V c).arrAt_eq_of_cover 5 (Sarr V c) (fun t _ => flushed_eq V c t) cover

end Cert.KernelIdeal.R0VS

end
-- ==== Proof.KI.R1Value.lean ====
/-
  Region 1's output array as one function of the arrays the region finds.

  The region runs a 10 × 2 grid: point `t` is row tile `t / 2`, column tile `t % 2`. At each point the body adds to an
  accumulator the product of the operator's 1024 × 5120 tile with the matching 5120 rows of the previous layer's
  features; the accumulator is reset at the first column tile of a row tile. After the second column tile it therefore
  holds, at `(p, q)`, the whole row `1024 · (t / 2) + p` of the operator against column `q` of the features. The body then
  projects it through the weights, adds the bias row, applies the logistic function and zeroes the rows at or past the
  node count 10000; the pipeline writes that block back as rows `1024 · (t / 2) … 1024 · (t / 2) + 1023` of the output.
  The ten written blocks tile the output, so the array ends holding `Cert.Spec.kerLayer` of the four arrays.

  Of the extended reals only this is used: zero plus a sum is the sum, and a sum over 10240 indices is the sum over the
  first 5120 plus the sum over the last 5120. No entry need be finite.
-/
import proofs.«408395_j7919919694206_3_alg».proof.Proof.KI.R1Data
import proofs.«408395_j7919919694206_3_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin

noncomputable section

open scoped BigOperators

namespace Cert.KernelIdeal.R1V

open Cert.KernelIdeal Cert.KernelIdeal.Gen Cert.KernelIdeal.R1
open Idealize.ShloMosaic Idealize.ShloMosaic.TcCoe Idealize.ShloMosaic.ValueIdx
open Idealize.ShloMosaic.Pipeline (Dat)

/-! ## The two contractions read at an index

The aggregation contracts a 1024×5120 tile of the operator with 5120 rows of the features; the projection contracts
the 1024×256 accumulator with the 256×512 weights. In both the left operand is read at (output row, k) and the right
at (k, output column). -/

theorem aggL_row (i : S1024x256.Idx) (q : dot_S1024x5120_S5120x256_S1024x256_1_0_0_1_n_n.contr.Idx) :
    (dot_S1024x5120_S5120x256_S1024x256_1_0_0_1_n_n.lhsIdx i q 0).val = (i 0).val := by
  unfold DotDims.lhsIdx
  rw [dif_neg (show ¬(0 : Fin S1024x5120.rank) ∈ dot_S1024x5120_S5120x256_S1024x256_1_0_0_1_n_n.lhsBatch by decide), dif_pos (show (0 : Fin S1024x5120.rank) ∈ dot_S1024x5120_S5120x256_S1024x256_1_0_0_1_n_n.lhsNonContracting by decide)]
  rfl
theorem aggL_col (i : S1024x256.Idx) (q : dot_S1024x5120_S5120x256_S1024x256_1_0_0_1_n_n.contr.Idx) :
    (dot_S1024x5120_S5120x256_S1024x256_1_0_0_1_n_n.lhsIdx i q 1).val = (q ⟨0, by decide⟩).val :=
  dot_S1024x5120_S5120x256_S1024x256_1_0_0_1_n_n.lhsIdx_val_of_single rfl i q
theorem aggR_row (i : S1024x256.Idx) (q : dot_S1024x5120_S5120x256_S1024x256_1_0_0_1_n_n.contr.Idx) :
    (dot_S1024x5120_S5120x256_S1024x256_1_0_0_1_n_n.rhsIdx i q 0).val = (q ⟨0, by decide⟩).val :=
  dot_S1024x5120_S5120x256_S1024x256_1_0_0_1_n_n.rhsIdx_val_of_single rfl i q
theorem aggR_col (i : S1024x256.Idx) (q : dot_S1024x5120_S5120x256_S1024x256_1_0_0_1_n_n.contr.Idx) :
    (dot_S1024x5120_S5120x256_S1024x256_1_0_0_1_n_n.rhsIdx i q 1).val = (i 1).val := by
  unfold DotDims.rhsIdx
  rw [dif_neg (show ¬(1 : Fin S5120x256.rank) ∈ dot_S1024x5120_S5120x256_S1024x256_1_0_0_1_n_n.rhsBatch by decide), dif_pos (show (1 : Fin S5120x256.rank) ∈ dot_S1024x5120_S5120x256_S1024x256_1_0_0_1_n_n.rhsNonContracting by decide)]
  rfl

/-- A tile of the operator times the matching rows of the features, into the zero accumulator: the sum over the tile's
    5120 columns. -/
theorem agg_apply (l : FVec Ideal S1024x5120 .bf16) (r : FVec Ideal S5120x256 .bf16) (p : Fin 1024) (q : Fin 256) :
    matmul dot_S1024x5120_S5120x256_S1024x256_1_0_0_1_n_n none l r (constant (F := Ideal) S1024x256 .f32 0x00000000#32) (ix2 p q)
      = ∑ k : Fin 5120, l (ix2 p k) * r (ix2 k q) := by
  simp only [matmul]
  rw [Ideal.matmul_constant_zero_apply, ← Equiv.sum_comp (contrEquiv1 dot_S1024x5120_S5120x256_S1024x256_1_0_0_1_n_n 5120 rfl rfl).symm]
  refine Finset.sum_congr rfl fun k _ => ?_
  have hk := contrEquiv1_symm_val dot_S1024x5120_S5120x256_S1024x256_1_0_0_1_n_n 5120 rfl rfl k
  have el : dot_S1024x5120_S5120x256_S1024x256_1_0_0_1_n_n.lhsIdx (ix2 p q) ((contrEquiv1 dot_S1024x5120_S5120x256_S1024x256_1_0_0_1_n_n 5120 rfl rfl).symm k) = ix2 p k := funext fun a => Fin.ext (by
    match a with
    | ⟨0, _⟩ => exact aggL_row _ _
    | ⟨1, _⟩ => exact (aggL_col _ _).trans hk)
  have er : dot_S1024x5120_S5120x256_S1024x256_1_0_0_1_n_n.rhsIdx (ix2 p q) ((contrEquiv1 dot_S1024x5120_S5120x256_S1024x256_1_0_0_1_n_n 5120 rfl rfl).symm k) = ix2 k q := funext fun a => Fin.ext (by
    match a with
    | ⟨0, _⟩ => exact (aggR_row _ _).trans hk
    | ⟨1, _⟩ => exact aggR_col _ _)
  rw [el, er]

theorem projL_row (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem projL_col (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem projR_row (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem projR_col (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The accumulator times the weights, into the zero accumulator: the sum over the 256 feature columns. -/
theorem proj_apply (l : FVec Ideal S1024x256 .bf16) (r : FVec Ideal S256x512 .bf16) (p : Fin 1024) (q : Fin 512) :
    matmul dot_S1024x256_S256x512_S1024x512_1_0_0_1_n_n none l r (constant (F := Ideal) S1024x512 .f32 0x00000000#32) (ix2 p q)
      = ∑ k : Fin 256, l (ix2 p k) * r (ix2 k q) := by
  simp only [matmul]
  rw [Ideal.matmul_constant_zero_apply, ← Equiv.sum_comp (contrEquiv1 dot_S1024x256_S256x512_S1024x512_1_0_0_1_n_n 256 rfl rfl).symm]
  refine Finset.sum_congr rfl fun k _ => ?_
  have hk := contrEquiv1_symm_val dot_S1024x256_S256x512_S1024x512_1_0_0_1_n_n 256 rfl rfl k
  have el : dot_S1024x256_S256x512_S1024x512_1_0_0_1_n_n.lhsIdx (ix2 p q) ((contrEquiv1 dot_S1024x256_S256x512_S1024x512_1_0_0_1_n_n 256 rfl rfl).symm k) = ix2 p k := funext fun a => Fin.ext (by
    match a with
    | ⟨0, _⟩ => exact projL_row _ _
    | ⟨1, _⟩ => exact (projL_col _ _).trans hk)
  have er : dot_S1024x256_S256x512_S1024x512_1_0_0_1_n_n.rhsIdx (ix2 p q) ((contrEquiv1 dot_S1024x256_S256x512_S1024x512_1_0_0_1_n_n 256 rfl rfl).symm k) = ix2 k q := funext fun a => Fin.ext (by
    match a with
    | ⟨0, _⟩ => exact (projR_row _ _).trans hk
    | ⟨1, _⟩ => exact projR_col _ _)
  rw [el, er]

/-! ## The row mask

The body compares the global row, 1024 times the row tile plus the row inside the tile, with the node count as signed
32-bit words. Both are far below 2³¹, so the comparison of words is the comparison of numbers. -/

theorem rowmask : ∀ (r : Fin 10) (p : Fin 1024),
    IntOp.cmpi .slt (IntOp.addi (Scalar.muli (BitVec.ofNat 32 r.val) 1024#32) (BitVec.ofNat 32 p.val)) 10000#32
      = if 1024 * r.val + p.val < 10000 then 1#1 else 0#1 := by
  decide +kernel

/-! ## The three payloads read at an index -/

/-- The reset value of the accumulator is zero everywhere. -/
theorem pay1_apply (p : Fin 1024) (q : Fin 256) : (k1_pay1 (F := Ideal)) (ix2 p q) = 0 := by
  unfold k1_pay1
  simp only [shapeCast_self]
  exact Ideal.ofBits_zero_f32

/-- One step of the accumulation: what was there plus the tile's product. -/
theorem pay2_apply (v3 : FVec Ideal S1024x256 .f32) (v4 : FVec Ideal S1024x5120 .bf16) (v6 : FVec Ideal S5120x256 .bf16)
    (p : Fin 1024) (q : Fin 256) :
    k1_pay2 v3 v4 v6 (ix2 p q) = v3 (ix2 p q) + ∑ k : Fin 5120, v4 (ix2 p k) * v6 (ix2 k q) := by
  unfold k1_pay2
  simp only [shapeCast_self]
  exact congrArg (v3 (ix2 p q) + ·) (agg_apply v4 v6 p q)

/-- The epilogue: the accumulator through the weights plus the bias row, then the logistic function; zero on the rows
    past the node count. -/
theorem pay3_apply (i : grid1.Coords) (v16 : FVec Ideal S1024x256 .f32) (v18 : FVec Ideal S256x512 .bf16) (v21 : FVec Ideal S1x512 .f32)
    (p : Fin 1024) (q : Fin 512) :
    k1_pay3 (F := Ideal) i v16 v18 v21 (ix2 p q)
      = if 1024 * (i 0).val + p.val < 10000
        then Ideal.logistic ((∑ k : Fin 256, v16 (ix2 p k) * v18 (ix2 k q)) + v21 (ix2 (0 : Fin 1) q)) else 0 := by
  have hr : (i 0).val < 10 := (i 0).isLt
  have hm : IntOp.cmpi .slt (IntOp.addi (Scalar.muli (BitVec.ofNat 32 (i 0).val) 1024#32) (BitVec.ofNat 32 p.val)) 10000#32
      = if 1024 * (i 0).val + p.val < 10000 then 1#1 else 0#1 := rowmask ⟨(i 0).val, hr⟩ p
  unfold k1_pay3
  simp only [shapeCast_self]
  show Scalar.select
      (IntOp.cmpi .slt (IntOp.addi (Scalar.muli (BitVec.ofNat 32 (i 0).val) 1024#32) (iota .tc S1024x512 32 [0] _ (ix2 p q))) 10000#32)
      (Ideal.logistic (matmul dot_S1024x256_S256x512_S1024x512_1_0_0_1_n_n none (truncf .bf16 v16 _) v18 (constant (F := Ideal) S1024x512 .f32 0x00000000#32) (ix2 p q)
        + broadcastTo S1024x512 v21 _ (ix2 p q)))
      (Ideal.ofBits .f32 0x00000000#32) = _
  rw [iota_single_apply, proj_apply, broadcastTo_1b_ab_apply, Ideal.ofBits_zero_f32]
  show Scalar.select
      (IntOp.cmpi .slt (IntOp.addi (Scalar.muli (BitVec.ofNat 32 (i 0).val) 1024#32) (BitVec.ofNat 32 p.val)) 10000#32) _ _ = _
  rw [hm]
  by_cases h : 1024 * (i 0).val + p.val < 10000
  · rw [if_pos h, if_pos h, select_one]
    rfl
  · rw [if_neg h, if_neg h, select_zero]

/-! ## The arrays at their literal shapes, and the blocks the windows cut from them -/

variable (V : (c : Dev nD) → (b : Ref sig .tc) → Buf (Elt Ideal) ((c.tc : Thread nD τ).loc b))

/-- The operator, the previous layer's features, the weights and the bias row, as the region finds them. -/
abbrev Sa (c : Dev nD) : Cert.Spec.Mat 10240 10240 := V c (Pipeline.arrRef spec1 0)
abbrev Ha (c : Dev nD) : Cert.Spec.Mat 10240 256 := V c (Pipeline.arrRef spec1 1)
abbrev Wa (c : Dev nD) : Cert.Spec.Mat 256 512 := V c (Pipeline.arrRef spec1 2)
abbrev Ba (c : Dev nD) : Cert.Spec.Mat 1 512 := V c (Pipeline.arrRef spec1 3)

/-- The block indices over the grid: point `t` is row tile `t / 2`, column tile `t % 2`. The operator's window follows
    both, the features' window the column tile, the output's window the row tile; the weights and the bias stay. -/
theorem idx_facts : ∀ t : Fin cfg1.N,
    win1_0.index t (0 : Fin 2) = t.val / 2 ∧ win1_0.index t (1 : Fin 2) = t.val % 2
    ∧ win1_1.index t (0 : Fin 2) = t.val % 2 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 2 ∧ win1_4.index t (1 : Fin 2) = 0
    ∧ ((grid1.coords t) (0 : Fin 2)).val = t.val / 2 :=
  (by decide +kernel : ∀ t : Fin grid1.N, _)

/-- The operator's block at point `t`: rows of row tile `t / 2`, columns of column tile `t % 2`. -/
theorem sblk_apply (c : Dev nD) (t : Fin cfg1.N) (p : Fin 1024) (k : Fin 5120) (R K : Fin 10240)
    (hR : R.val = 1024 * (t.val / 2) + p.val) (hK : K.val = 5120 * (t.val % 2) + k.val) :
    (iblk1 V c 0 t : Vec Ideal S1024x5120 .bf16) (ix2 p k) = Sa V c (ix2 R K) := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 1024 + 1 * p.val = R.val; rw [e0, hR]; omega
  | ⟨1, _⟩ => show win1_0.index t (1 : Fin 2) * 5120 + 1 * k.val = K.val; rw [e1, hK]; omega

/-- The features' block at point `t`: the rows of column tile `t % 2`, every column. -/
theorem hblk_apply (c : Dev nD) (t : Fin cfg1.N) (k : Fin 5120) (q : Fin 256) (K : Fin 10240)
    (hK : K.val = 5120 * (t.val % 2) + k.val) :
    (iblk1 V c 1 t : Vec Ideal S5120x256 .bf16) (ix2 k q) = Ha V c (ix2 K q) := by
  obtain ⟨-, -, e0, e1, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 5120 + 1 * k.val = K.val; rw [e0, hK]; omega
  | ⟨1, _⟩ => show win1_1.index t (1 : Fin 2) * 256 + 1 * q.val = q.val; rw [e1]; omega

/-- The weights' block is the whole array at every point. -/
theorem wblk_apply (c : Dev nD) (t : Fin cfg1.N) (k : Fin 256) (q : Fin 512) :
    (iblk1 V c 2 t : Vec Ideal S256x512 .bf16) (ix2 k q) = Wa V c (ix2 k q) := by
  obtain ⟨-, -, -, -, e0, e1, -⟩ := idx_facts t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 256 + 1 * k.val = k.val; rw [e0]; omega
  | ⟨1, _⟩ => show win1_2.index t (1 : Fin 2) * 512 + 1 * q.val = q.val; rw [e1]; omega

/-- So is the bias row's. -/
theorem bblk_apply (c : Dev nD) (t : Fin cfg1.N) (q : Fin 512) :
    (iblk1 V c 3 t : Vec Ideal S1x512 .f32) (ix2 (0 : Fin 1) q) = Ba V c (ix2 (0 : Fin 1) q) := by
  obtain ⟨-, -, -, -, -, -, e0, e1, -⟩ := idx_facts t
  unfold iblk1
  rw [View.read_apply]
  show V c (Pipeline.arrRef spec1 3) _ = V c (Pipeline.arrRef spec1 3) _
  congr 1
  funext a
  apply Fin.ext
  match a with
  | ⟨0, _⟩ => show win1_3.index t (0 : Fin 2) * 1 + 1 * 0 = 0; rw [e0]
  | ⟨1, _⟩ => show win1_3.index t (1 : Fin 2) * 512 + 1 * q.val = q.val; rw [e1]; omega

/-! ## The accumulator at the last column tile of a row tile

There are two column tiles. At the first (an even point) the accumulator is reset and the tile's product added; at the
second (the next point) the second tile's product is added to that. So after an odd point it holds zero plus the sum
over the first 5120 columns plus the sum over the last 5120: the whole row of the operator against the features. -/

/-- A sum over twice `n` terms is the sum over the first `n` plus the sum over the last `n`. -/
theorem sum_halves {M : Type*} [AddCommMonoid M] (n : Nat) (f : Fin (n + n) → M) :
    ∑ K : Fin (n + n), f K = (∑ k : Fin n, f ⟨k.val, by omega⟩) + ∑ k : Fin n, f ⟨n + k.val, by omega⟩ := by
  rw [Fin.sum_univ_add]
  rfl

/-- At an even point the accumulator is the reset value through one step. -/
theorem acc1_first (c : Dev nD) (n : Nat) (h : n < cfg1.N) (hn : n % 2 = 0) :
    acc1 V c n h = k1_pay2 (k1_pay1 (F := Ideal)) (iblk1 V c 0 ⟨n, h⟩) (iblk1 V c 1 ⟨n, h⟩) := by
  cases n with
  | zero => rw [acc1]
  | succ m => rw [acc1, if_pos hn]

/-- At the point after an even one it is the even point's accumulator through one more step. -/
theorem acc1_second (c : Dev nD) (n : Nat) (h : n + 1 < cfg1.N) (hn : n % 2 = 0) :
    acc1 V c (n + 1) h = k1_pay2 (acc1 V c n (Nat.lt_of_succ_lt h)) (iblk1 V c 0 ⟨n + 1, h⟩) (iblk1 V c 1 ⟨n + 1, h⟩) := by
  rw [acc1, if_neg (by omega)]

/-- THE ACCUMULATOR AFTER THE LAST COLUMN TILE: row `R` of the operator against column `q` of the features. -/
theorem acc1_last_apply (c : Dev nD) (n : Nat) (h : n + 1 < cfg1.N) (hn : n % 2 = 0) (p : Fin 1024) (q : Fin 256)
    (R : Fin 10240) (hR : R.val = 1024 * (n / 2) + p.val) :
    (acc1 V c (n + 1) h : Vec Ideal S1024x256 .f32) (ix2 p q) = ∑ K : Fin 10240, Sa V c (ix2 R K) * Ha V c (ix2 K q) := by
  have h' : n < cfg1.N := Nat.lt_of_succ_lt h
  rw [acc1_second V c n h hn]
  refine (pay2_apply (acc1 V c n h') (iblk1 V c 0 ⟨n + 1, h⟩) (iblk1 V c 1 ⟨n + 1, h⟩) p q).trans ?_
  rw [acc1_first V c n h' hn]
  rw [pay2_apply (k1_pay1 (F := Ideal)) (iblk1 V c 0 ⟨n, h'⟩) (iblk1 V c 1 ⟨n, h'⟩) p q, pay1_apply, zero_add]
  refine Eq.trans ?_ (sum_halves 5120 (fun K : Fin 10240 => Sa V c (ix2 R K) * Ha V c (ix2 K q))).symm
  congr 1
  · refine Finset.sum_congr rfl fun k _ => ?_
    rw [sblk_apply V c ⟨n, h'⟩ p k R ⟨k.val, by omega⟩ (by show R.val = 1024 * (n / 2) + p.val; exact hR) (by show k.val = 5120 * (n % 2) + k.val; omega),
      hblk_apply V c ⟨n, h'⟩ k q ⟨k.val, by omega⟩ (by show k.val = 5120 * (n % 2) + k.val; omega)]
  · refine Finset.sum_congr rfl fun k _ => ?_
    rw [sblk_apply V c ⟨n + 1, h⟩ p k R ⟨5120 + k.val, by omega⟩ (by show R.val = 1024 * ((n + 1) / 2) + p.val; omega) (by show 5120 + k.val = 5120 * ((n + 1) % 2) + k.val; omega),
      hblk_apply V c ⟨n + 1, h⟩ k q ⟨5120 + k.val, by omega⟩ (by show 5120 + k.val = 5120 * ((n + 1) % 2) + k.val; omega)]

/-! ## What a flushing point writes back, and the array after the run -/

/-- The layer as one function of the arrays: on the node rows the logistic function of the operator times the features,
    through the weights, plus the bias; zero on the padded rows. -/
abbrev G (c : Dev nD) : Cert.Spec.Mat 10240 512 :=
  Cert.Spec.kerLayer (Sa V c) (Ha V c) (Wa V c) (fun j => Ba V c (ix2 (0 : Fin 1) (j 0))) Ideal.logistic

theorem G_apply (c : Dev nD) (R : Fin 10240) (q : Fin 512) :
    G V c (ix2 R q) = if R.val < 10000
      then Ideal.logistic ((∑ k : Fin 256, (∑ K : Fin 10240, Sa V c (ix2 R K) * Ha V c (ix2 K k)) * Wa V c (ix2 k q)) + Ba V c (ix2 (0 : Fin 1) q))
      else 0 := rfl

/-- The output's block at a point that ends a row tile, entry by entry: the layer at the row tile's rows. -/
theorem out_apply (c : Dev nD) (t : Fin cfg1.N) (ht : t.val % 2 = 1) (p : Fin 1024) (q : Fin 512)
    (R : Fin 10240) (hR : R.val = 1024 * (t.val / 2) + p.val) :
    k1_pay3 (F := Ideal) (grid1.coords t) (acc1 V c t.val t.isLt) (iblk1 V c 2 t) (iblk1 V c 3 t) (ix2 p q) = G V c (ix2 R q) := by
  obtain ⟨n, hn⟩ : ∃ n, t.val = n + 1 := ⟨t.val - 1, by omega⟩
  have hlt : n + 1 < cfg1.N := hn ▸ t.isLt
  have hev : n % 2 = 0 := by omega
  have hc : ((grid1.coords t) (0 : Fin 2)).val = t.val / 2 := (idx_facts t).2.2.2.2.2.2.2.2.2.2
  have hacc : acc1 V c t.val t.isLt = acc1 V c (n + 1) hlt := by
    have e : ∀ (a b : Nat) (ha : a < cfg1.N) (hb : b < cfg1.N), a = b → acc1 V c a ha = acc1 V c b hb := by
      intro a b ha hb hab; subst hab; rfl
    exact e _ _ _ _ hn
  refine (pay3_apply (grid1.coords t) (acc1 V c t.val t.isLt) (iblk1 V c 2 t) (iblk1 V c 3 t) p q).trans ?_
  rw [G_apply, hc, hR]
  refine if_congr Iff.rfl ?_ rfl
  congr 1
  refine congrArg₂ (· + ·) (Finset.sum_congr rfl fun k _ => ?_) (bblk_apply V c t q)
  rw [hacc, acc1_last_apply V c n hlt hev p k R (by rw [hR, hn]; omega), wblk_apply V c t k q]

/-- An index of the output array is in point `t`'s block iff each coordinate is in the block's range on its axis. -/
theorem mem_blk (t : Fin cfg1.N) (i : S10240x512.Idx) :
    i ∈ ((cfg1.win 4).blk t).view.set
      ↔ ∀ a : Fin 2, win1_4.index t a * S1024x512.size a ≤ (i a).val ∧ (i a).val < win1_4.index t a * S1024x512.size a + S1024x512.size a := by
  show i ∈ ((View.whole main_v42).slice (win1_4.rect t)).set ↔ _
  rw [View.set_slice_whole, Rect.mem_set_unit]
  exact Iff.rfl

/-- WHAT A FLUSHING POINT WRITES BACK is its block of the layer. -/
theorem flushed_eq (c : Dev nD) (t : Fin cfg1.N) (hf : (cfg1.win 4).flush t = true) :
    (dat1 V c).flushed 4 t = ((cfg1.win 4).blk t).view.read (Elt Ideal) (G V c) := by
  have ht : t.val % 2 = 1 := (flush1_4 t).mp hf
  obtain ⟨-, -, -, -, -, -, -, -, e0, e1, -⟩ := idx_facts t
  show (cfg1.win 4).cut (grid1.coords t) ((dat1 V c).after 4 t) = _
  rw [after1_4]
  funext j
  obtain ⟨p, q, rfl⟩ : ∃ (p : Fin 1024) (q : Fin 512), j = ix2 p q := ⟨j 0, j 1, eq_ix2 j⟩
  have hp : p.val < 1024 := p.isLt
  have hN : t.val < 20 := Nat.lt_of_lt_of_eq t.isLt N_1
  rw [View.read_apply]
  show k1_pay3 (F := Ideal) (grid1.coords t) (acc1 V c t.val t.isLt) (iblk1 V c 2 t) (iblk1 V c 3 t) (ix2 p q) = G V c _
  refine (out_apply V c t ht p q ⟨1024 * (t.val / 2) + p.val, by omega⟩ rfl).trans ?_
  congr 1
  funext a
  apply Fin.ext
  match a with
  | ⟨0, _⟩ => show 1024 * (t.val / 2) + p.val = win1_4.index t (0 : Fin 2) * 1024 + 1 * p.val; rw [e0]; omega
  | ⟨1, _⟩ => show q.val = win1_4.index t (1 : Fin 2) * 512 + 1 * q.val; rw [e1]; omega

/-- Every index of the output array is in the block of the point that ends its row tile. -/
theorem cover (i : S10240x512.Idx) : ∃ t : Fin cfg1.N, (cfg1.win 4).flush t = true ∧ i ∈ ((cfg1.win 4).blk t).view.set := by
  have h0 : (i 0).val < 10240 := (i 0).isLt
  have h1 : (i 1).val < 512 := (i 1).isLt
  have hN : cfg1.N = 20 := N_1
  refine ⟨⟨2 * ((i 0).val / 1024) + 1, by rw [hN]; omega⟩, (flush1_4 _).mpr (by show (2 * ((i 0).val / 1024) + 1) % 2 = 1; omega), ?_⟩
  obtain ⟨-, -, -, -, -, -, -, -, e0, e1, -⟩ := idx_facts ⟨2 * ((i 0).val / 1024) + 1, by rw [hN]; omega⟩
  rw [mem_blk]
  intro a
  match a with
  | ⟨0, _⟩ =>
    show win1_4.index _ (0 : Fin 2) * 1024 ≤ (i 0).val ∧ (i 0).val < win1_4.index _ (0 : Fin 2) * 1024 + 1024
    rw [e0]
    show (2 * ((i 0).val / 1024) + 1) / 2 * 1024 ≤ (i 0).val ∧ (i 0).val < (2 * ((i 0).val / 1024) + 1) / 2 * 1024 + 1024
    omega
  | ⟨1, _⟩ =>
    show win1_4.index _ (1 : Fin 2) * 512 ≤ (i 1).val ∧ (i 1).val < win1_4.index _ (1 : Fin 2) * 512 + 512
    rw [e1]
    omega

/-- THE OUTPUT ARRAY AFTER THE REGION is the layer of the arrays the region finds. -/
theorem arrAt1_4 (c : Dev nD) :
    ((dat1 V c).arrAt 4 cfg1.N : Cert.Spec.Mat 10240 512)
      = Cert.Spec.kerLayer (V c (Pipeline.arrRef spec1 0)) (V c (Pipeline.arrRef spec1 1)) (V c (Pipeline.arrRef spec1 2))
          (fun j => V c (Pipeline.arrRef spec1 3) (ix2 (0 : Fin 1) (j 0))) Ideal.logistic :=
  (dat1 V c).arrAt_eq_of_cover 4 (G V c) (flushed_eq V c) cover

end Cert.KernelIdeal.R1V

end
-- ==== Proof.Math.Pre.lean ====
/-
  The printed precondition, read back as mathematics.

  The precondition is a conjunction of ten "every element" tests. Eight of them say, of one float input each, that the
  absolute value of every entry is below the word of plus infinity; at the extended reals an absolute value
  `max x (-x)` is below the top element exactly when `x` is neither the top nor the bottom element, that is, when `x` is a
  real number. The last two say, of the edge list, that every word read signed is at least 0 and below 10000.
  An "every element" test is a reduction by `and` started at 1 into a result of one index: when it comes out 1, every
  element of the tested array was 1.
-/
import proofs.«408395_j7919919694206_3_alg».proof.Pre_finite_inputs
import proofs.«408395_j7919919694206_3_alg».proof.Proof.Gen.Pre_finite_inputs
import proofs.«408395_j7919919694206_3_alg».proof.Proof.Spec
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.ShloMosaic.ValueIdx
open Cert.Pre_finite_inputs

/-- The result of an "every element" test has one index. -/
instance : Subsingleton S_.Idx := ⟨fun a b => funext fun d => d.elim0⟩

/-- The word of plus infinity is the top element. -/
theorem inf_word : Ideal.ofBits .f32 0x7F800000#32 = (⊤ : EReal) := by simp [Ideal.ofBits, Ideal.ieee]

/-- An extended real whose absolute value is below the top element is a real number. -/
theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => exact absurd h (by simp [Ideal.cmp])
  | coe r => exact ⟨r, rfl⟩
  | top => exact absurd h (by simp [Ideal.cmp])

/-- One float conjunct: the test "every |x i| is below plus infinity" came out 1, so every entry of `x` is a real number. -/
theorem all_real {s : Shape} {axes : List (Fin s.rank)} (hb : S_.BroadcastsInDim s (![] : Fin 0 → Fin s.rank))
    (hr : s.ReducesTo axes S_) (h0 : 0 < S_.numel) (x : s.Idx → EReal)
    (e : Host.reduce IntOp.andi
          (cmpf .olt (Host.absf (F := Ideal) (φ := .f32) x) (broadcastInDim s ![] hb (constant (F := Ideal) S_ .f32 0x7F800000#32)))
          (constantI S_ 1 1#1) hr h0 ix0 = 1#1) (i : s.Idx) : ∃ r : ℝ, x i = (r : EReal) :=
  real_of_abs_lt (x i) (Host.reduce_andi_all _ _ hr h0 ix0 e i)

/-- The two integer conjuncts: every word of `a` read signed is at least 0, and below 10000. -/
theorem all_in_range {s : Shape} {axes : List (Fin s.rank)} (hb : S_.BroadcastsInDim s (![] : Fin 0 → Fin s.rank))
    (hr : s.ReducesTo axes S_) (h0 : 0 < S_.numel) (a : s.Idx → BitVec 32)
    (e0 : Host.reduce IntOp.andi (cmpi .sge a (broadcastInDim s ![] hb (constantI S_ 32 0#32))) (constantI S_ 1 1#1) hr h0 ix0 = 1#1)
    (e1 : Host.reduce IntOp.andi (cmpi .slt a (broadcastInDim s ![] hb (constantI S_ 32 10000#32))) (constantI S_ 1 1#1) hr h0 ix0 = 1#1)
    (i : s.Idx) : 0 ≤ (a i).toInt ∧ (a i).toInt < 10000 := by
  have g0 := Host.reduce_andi_all _ _ hr h0 ix0 e0 i
  have g1 := Host.reduce_andi_all _ _ hr h0 ix0 e1 i
  have z0 : (0#32 : BitVec 32).toInt = 0 := by decide
  have z1 : (10000#32 : BitVec 32).toInt = 10000 := by decide
  exact ⟨z0 ▸ IntOp.cmpi_sge.1 g0, z1 ▸ IntOp.cmpi_slt.1 g1⟩

/-- THE PRECONDITION DECODED: every float input has only real entries, and every source and target of the edge list is a node. -/
theorem decode [Cert.Pre_finite_inputs.Facts] (a0 : Cert.Spec.Mat 10000 1) (a1 : Cert.Spec.Edges) (a2 : Cert.Spec.Vct 160000)
    (a3 : Cert.Spec.Mat 1 128) (a4 : Cert.Spec.Vct 128) (a5 : Cert.Spec.Mat 128 256) (a6 : Cert.Spec.Vct 256)
    (a7 : Cert.Spec.Mat 256 512) (a8 : Cert.Spec.Vct 512)
    (h : Cert.Pre_finite_inputs.fn (F := Ideal) a0 a1 a2 a3 a4 a5 a6 a7 a8 = fun _ => 1#1) :
    Cert.Spec.Real2 a0 ∧ Cert.Spec.InRange a1 ∧ Cert.Spec.Real1 a2 ∧ Cert.Spec.Real2 a3 ∧ Cert.Spec.Real1 a4 ∧
      Cert.Spec.Real2 a5 ∧ Cert.Spec.Real1 a6 ∧ Cert.Spec.Real2 a7 ∧ Cert.Spec.Real1 a8 := by
  have e := congrFun h ix0
  dsimp only [fn, fn_part1, fn_part2, andi] at e
  simp only [IntOp.andi_eq_one] at e
  obtain ⟨⟨⟨⟨⟨⟨⟨⟨⟨e0, e2⟩, e3⟩, e4⟩, e5⟩, e6⟩, e7⟩, e8⟩, ege⟩, elt⟩ := e
  refine ⟨all_real _ _ _ a0 e0, fun r k => all_in_range _ _ _ a1 ege elt (ix2 r k), all_real _ _ _ a2 e2, all_real _ _ _ a3 e3,
    all_real _ _ _ a4 e4, all_real _ _ _ a5 e5, all_real _ _ _ a6 e6, all_real _ _ _ a7 e7, all_real _ _ _ a8 e8⟩

end Cert.PreFacts

end
-- ==== Proof.Math.Bridge.lean ====
/-
  The dense-operator form of the graph convolution equals its edge-sum form.

  Over the reals the two are joined by distributivity and an exchange of finite sums: the operator's entry
  S(n, k) is itself a sum over the edges from k to n, so Σ_k S(n, k) · h(k, q) is a double sum whose inner sum
  over k has, for each edge, the single nonzero term k = src e. The extended reals do not distribute at the
  infinities, so every intermediate is first shown to be a real number (finite sums and products of reals),
  the identities are proved for real-valued functions over abstract finite index types, and then carried back
  through the coercion.
-/
import proofs.«408395_j7919919694206_3_alg».proof.Proof.Spec
import Idealize.ShloMosaic.PureOps.Ideal
import Idealize.ShloMosaic.Lib.ValueIdx
import Mathlib.Data.EReal.Basic
import Mathlib.Algebra.BigOperators.Ring.Finset
import Mathlib.Algebra.BigOperators.Group.Finset.Sigma
import Mathlib.Algebra.BigOperators.Group.Finset.Piecewise
import Mathlib.Tactic.Ring

noncomputable section

open scoped BigOperators

namespace Cert.Bridge

open Cert.Spec Idealize.ShloMosaic Idealize.ShloMosaic.ValueIdx

/-! ## Real identities over finite index types

  `E` indexes the edges, `K` the operator's columns, `Q` the contracted feature axis. `d e` says that edge `e` ends at the
  row in hand, `s e` is its source column, `w e` its weight. -/
section RealIdentities

variable {E K Q : Type*} [Fintype E] [Fintype K] [Fintype Q]

/-- One row of the operator applied to a column vector: the operator's entry is a sum over the edges, the two sums are
    exchanged, and for each edge only the column `k = s e` contributes. -/
theorem sum_op_mul [DecidableEq K] (d : E → Prop) [DecidablePred d] (s : E → K) (w : E → ℝ) (f : K → ℝ) :
    ∑ k, (∑ e, if d e ∧ s e = k then w e else 0) * f k = ∑ e, if d e then w e * f (s e) else 0 := by
  simp_rw [Finset.sum_mul]
  rw [Finset.sum_comm]
  refine Finset.sum_congr rfl fun e _ => ?_
  by_cases hd : d e
  · simp only [hd, true_and, if_true, ite_mul, zero_mul]
    rw [Finset.sum_ite_eq]
    simp
  · simp [hd]

/-- Projecting after aggregating equals aggregating after projecting: distributivity and an exchange of sums. -/
theorem sum_agg_proj (d : E → Prop) [DecidablePred d] (w : E → ℝ) (g : E → Q → ℝ) (W : Q → ℝ) :
    ∑ q, (∑ e, if d e then g e q * w e else 0) * W q = ∑ e, if d e then (∑ q, g e q * W q) * w e else 0 := by
  simp_rw [Finset.sum_mul]
  rw [Finset.sum_comm]
  refine Finset.sum_congr rfl fun e _ => ?_
  by_cases hd : d e
  · simp only [hd, if_true]
    refine Finset.sum_congr rfl fun q _ => ?_
    ring
  · simp [hd]

/-- A dense layer: `((S · hp) · W)` at one row is the edge sum of the projected source rows. -/
theorem sum_dense [DecidableEq K] (d : E → Prop) [DecidablePred d] (s : E → K) (w : E → ℝ) (hp : K → Q → ℝ)
    (W : Q → ℝ) :
    ∑ q, (∑ k, (∑ e, if d e ∧ s e = k then w e else 0) * hp k q) * W q
      = ∑ e, if d e then (∑ q, hp (s e) q * W q) * w e else 0 := by
  rw [← sum_agg_proj d w (fun e q => hp (s e) q) W]
  refine Finset.sum_congr rfl fun q _ => ?_
  rw [sum_op_mul d s w (fun k => hp k q)]
  congr 1
  refine Finset.sum_congr rfl fun e _ => ?_
  by_cases hd : d e <;> simp [hd, mul_comm]

end RealIdentities

/-! ## Real numbers inside the extended reals -/

/-- A real-valued function read in the extended reals. -/
def up {ι : Type*} (f : ι → ℝ) : ι → EReal := fun i => (f i : EReal)

/-- A function all of whose values are real is the coercion of a real-valued function. -/
theorem exists_real {ι : Type*} {m : ι → EReal} (h : ∀ i, ∃ r : ℝ, m i = (r : EReal)) : ∃ f : ι → ℝ, m = up f :=
  ⟨fun i => (h i).choose, funext fun i => (h i).choose_spec⟩

/-- The coercion commutes with finite sums. -/
theorem coe_sum {ι : Type*} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- The coercion commutes with a choice between a real and zero. -/
theorem coe_ite_zero (c : Prop) [Decidable c] (a : ℝ) :
    ((if c then a else 0 : ℝ) : EReal) = if c then (a : EReal) else 0 := by
  split_ifs <;> rfl

/-! ## The definitions on real-valued arrays, and the definitions on coerced arrays as their coercions -/

/-- Real-valued arrays over the same index sets. -/
abbrev MatR (a b : Nat) : Type := (⟨2, ![a, b]⟩ : Shape).Idx → ℝ
abbrev VctR (a : Nat) : Type := (⟨1, ![a]⟩ : Shape).Idx → ℝ

def mmR {a b c : Nat} (l : MatR a b) (r : MatR b c) : MatR a c :=
  fun i => ∑ q : Fin b, l (ix2 (i 0) q) * r (ix2 q (i 1))

def edgeAggR (ei : Edges) (w : VctR 160000) {c : Nat} (g : MatR 10000 c) : MatR 10000 c :=
  fun i => ∑ e : Fin 160000, if dst ei e = ((i 0).val : Int) then g (ix2 (srcN ei e) (i 1)) * w (ix1 e) else 0

def SopR (ei : Edges) (w : VctR 160000) : MatR 10240 10240 :=
  fun i => ∑ e : Fin 160000, if dst ei e = ((i 0).val : Int) ∧ src ei e = ((i 1).val : Int) then w (ix1 e) else 0

def padRowsR {c : Nat} (h : MatR 10000 c) : MatR 10240 c :=
  fun i => if hlt : (i 0).val < 10000 then h (ix2 ⟨(i 0).val, hlt⟩ (i 1)) else 0

theorem mm_up {a b c : Nat} (l : MatR a b) (r : MatR b c) : mm (up l) (up r) = up (mmR l r) := by
  funext i
  show ∑ q : Fin b, (l (ix2 (i 0) q) : EReal) * (r (ix2 q (i 1)) : EReal)
    = ((∑ q : Fin b, l (ix2 (i 0) q) * r (ix2 q (i 1)) : ℝ) : EReal)
  rw [coe_sum]
  simp only [EReal.coe_mul]

theorem edgeAgg_up (ei : Edges) (w : VctR 160000) {c : Nat} (g : MatR 10000 c) :
    edgeAgg ei (up w) (up g) = up (edgeAggR ei w g) := by
  funext i
  show (∑ e : Fin 160000, if dst ei e = ((i 0).val : Int) then (g (ix2 (srcN ei e) (i 1)) : EReal) * (w (ix1 e) : EReal) else 0)
    = ((∑ e : Fin 160000, if dst ei e = ((i 0).val : Int) then g (ix2 (srcN ei e) (i 1)) * w (ix1 e) else 0 : ℝ) : EReal)
  rw [coe_sum]
  simp only [coe_ite_zero, EReal.coe_mul]

theorem Sop_up (ei : Edges) (w : VctR 160000) : Sop ei (up w) = up (SopR ei w) := by
  funext i
  show (∑ e : Fin 160000, if dst ei e = ((i 0).val : Int) ∧ src ei e = ((i 1).val : Int) then (w (ix1 e) : EReal) else 0)
    = ((∑ e : Fin 160000, if dst ei e = ((i 0).val : Int) ∧ src ei e = ((i 1).val : Int) then w (ix1 e) else 0 : ℝ) : EReal)
  rw [coe_sum]
  simp only [coe_ite_zero]

theorem padRows_up {c : Nat} (h : MatR 10000 c) : padRows (up h) = up (padRowsR h) := by
  funext i
  show (if hlt : (i 0).val < 10000 then (h (ix2 ⟨(i 0).val, hlt⟩ (i 1)) : EReal) else 0)
    = ((if hlt : (i 0).val < 10000 then h (ix2 ⟨(i 0).val, hlt⟩ (i 1)) else 0 : ℝ) : EReal)
  by_cases hlt : (i 0).val < 10000
  · rw [dif_pos hlt, dif_pos hlt]
  · rw [dif_neg hlt, dif_neg hlt]; rfl

/-! ## Finite sums and products of reals are real -/

theorem real_mm {a b c : Nat} {l : Mat a b} {r : Mat b c} (hl : Real2 l) (hr : Real2 r) : Real2 (mm l r) := by
  obtain ⟨lf, rfl⟩ := exists_real hl
  obtain ⟨rf, rfl⟩ := exists_real hr
  intro i
  exact ⟨mmR lf rf i, congrFun (mm_up lf rf) i⟩

theorem real_edgeAgg (ei : Edges) {ew : Vct 160000} {c : Nat} {g : Mat 10000 c} (hew : Real1 ew) (hg : Real2 g) :
    Real2 (edgeAgg ei ew g) := by
  obtain ⟨wf, rfl⟩ := exists_real hew
  obtain ⟨gf, rfl⟩ := exists_real hg
  intro i
  exact ⟨edgeAggR ei wf gf i, congrFun (edgeAgg_up ei wf gf) i⟩

/-- A reference layer of real inputs is real. -/
theorem real_refLayer (ei : Edges) (ew : Vct 160000) {a b : Nat} (h : Mat 10000 a) (W : Mat a b) (bias : Vct b)
    (hew : Real1 ew) (hh : Real2 h) (hW : Real2 W) (hb : Real1 bias) : Real2 (refLayer ei ew h W bias) := by
  intro i
  obtain ⟨r1, h1⟩ := real_edgeAgg ei hew (real_mm hh hW) i
  obtain ⟨r2, h2⟩ := hb (ix1 (i 1))
  refine ⟨r1 + r2, ?_⟩
  show edgeAgg ei ew (mm h W) i + bias (ix1 (i 1)) = ((r1 + r2 : ℝ) : EReal)
  rw [h1, h2, EReal.coe_add]

/-! ## The two identities on the literal shapes -/

/-- Under the range precondition an edge's source, as a column of the padded operator. -/
def srcK (ei : Edges) (e : Fin 160000) : Fin 10240 :=
  ⟨(srcN ei e).val, Nat.lt_trans (srcN ei e).isLt (by decide)⟩

/-- Under the range precondition "the source is column `k`" says that `srcK` is `k`. -/
theorem src_eq_iff {ei : Edges} (hr : InRange ei) (e : Fin 160000) (k : Fin 10240) :
    src ei e = ((k.val : Nat) : Int) ↔ srcK ei e = k := by
  have h0 : 0 ≤ src ei e ∧ src ei e < 10000 := hr 0 e
  constructor
  · intro h
    apply Fin.ext
    show (src ei e).toNat % 10000 = k.val
    omega
  · intro h
    have h1 : (src ei e).toNat % 10000 = k.val := congrArg Fin.val h
    omega

/-- Layer 1 on real arrays: aggregate then project equals project then aggregate. -/
theorem mmR_edgeAggR (ei : Edges) (w : VctR 160000) {a b : Nat} (x : MatR 10000 a) (W : MatR a b) :
    mmR (edgeAggR ei w x) W = edgeAggR ei w (mmR x W) := by
  funext i
  exact sum_agg_proj (fun e => dst ei e = ((i 0).val : Int)) (fun e => w (ix1 e))
    (fun e q => x (ix2 (srcN ei e) q)) (fun q => W (ix2 q (i 1)))

/-- A dense layer on real arrays, at a node row. -/
theorem dense_R {ei : Edges} (hr : InRange ei) (w : VctR 160000) {a b : Nat} (h : MatR 10000 a) (W : MatR a b)
    (n : Fin 10000) (hn : n.val < 10240) (j : Fin b) :
    mmR (mmR (SopR ei w) (padRowsR h)) W (ix2 ⟨n.val, hn⟩ j) = edgeAggR ei w (mmR h W) (ix2 n j) := by
  show ∑ q : Fin a, (∑ k : Fin 10240,
        (∑ e : Fin 160000, if dst ei e = ((n.val : Nat) : Int) ∧ src ei e = ((k.val : Nat) : Int) then w (ix1 e) else 0)
          * padRowsR h (ix2 k q)) * W (ix2 q j)
      = ∑ e : Fin 160000, if dst ei e = ((n.val : Nat) : Int)
          then (∑ q : Fin a, h (ix2 (srcN ei e) q) * W (ix2 q j)) * w (ix1 e) else 0
  simp_rw [src_eq_iff hr]
  rw [sum_dense (fun e => dst ei e = ((n.val : Nat) : Int)) (srcK ei) (fun e => w (ix1 e))
    (fun k q => padRowsR h (ix2 k q)) (fun q => W (ix2 q j))]
  refine Finset.sum_congr rfl fun e _ => ?_
  have hp : ∀ q : Fin a, padRowsR h (ix2 (srcK ei e) q) = h (ix2 (srcN ei e) q) :=
    fun q => dif_pos (srcN ei e).isLt
  simp_rw [hp]

/-- Layer 1: the kernel aggregates the scalar input and then projects, the reference projects and then aggregates. -/
theorem mm_edgeAgg (ei : Edges) {ew : Vct 160000} {a b : Nat} {x : Mat 10000 a} {W : Mat a b}
    (hew : Real1 ew) (hx : Real2 x) (hW : Real2 W) : mm (edgeAgg ei ew x) W = edgeAgg ei ew (mm x W) := by
  obtain ⟨wf, rfl⟩ := exists_real hew
  obtain ⟨xf, rfl⟩ := exists_real hx
  obtain ⟨Wf, rfl⟩ := exists_real hW
  rw [edgeAgg_up, mm_up, mm_up, edgeAgg_up, mmR_edgeAggR]

/-- A dense layer at a node row: `((S · pad h) · W)` is the edge aggregation of `h · W`. -/
theorem dense {ei : Edges} (hr : InRange ei) {ew : Vct 160000} {a b : Nat} {h : Mat 10000 a} {W : Mat a b}
    (hew : Real1 ew) (hh : Real2 h) (hW : Real2 W) (n : Fin 10000) (hn : n.val < 10240) (j : Fin b) :
    mm (mm (Sop ei ew) (padRows h)) W (ix2 ⟨n.val, hn⟩ j) = edgeAgg ei ew (mm h W) (ix2 n j) := by
  obtain ⟨wf, rfl⟩ := exists_real hew
  obtain ⟨hf, rfl⟩ := exists_real hh
  obtain ⟨Wf, rfl⟩ := exists_real hW
  rw [Sop_up, padRows_up, mm_up, mm_up, mm_up, edgeAgg_up]
  exact congrArg Real.toEReal (dense_R hr wf hf Wf n hn j)

/-- The reference's first layer is the kernel's: aggregating then projecting equals projecting then aggregating. -/
theorem h1_eq_refLayer (x : Mat 10000 1) (ei : Edges) (ew : Vct 160000) (W1 : Mat 1 128) (b1 : Vct 128)
    (hx : Real2 x) (hew : Real1 ew) (hW1 : Real2 W1) :
    h1 x ei ew W1 b1 = refLayer ei ew x W1 b1 := by
  funext i
  show mm (edgeAgg ei ew x) W1 i + b1 (ix1 (i 1)) = edgeAgg ei ew (mm x W1) i + b1 (ix1 (i 1))
  rw [mm_edgeAgg ei hew hx hW1]

/-- A dense layer of the kernel on padded real features is the padded reference layer with the activation applied on
    the node rows: the node rows by `dense`, the padded rows zero on both sides. -/
theorem kerLayer_padRows {ei : Edges} (hr : InRange ei) {ew : Vct 160000} {a b : Nat} {h : Mat 10000 a} {W : Mat a b}
    (bias : Vct b) (act : EReal → EReal) (hew : Real1 ew) (hh : Real2 h) (hW : Real2 W) :
    kerLayer (Sop ei ew) (padRows h) W bias act = padRows (fun i => act (refLayer ei ew h W bias i)) := by
  funext i
  obtain ⟨k, j, rfl⟩ : ∃ k j, i = ix2 k j := ⟨i 0, i 1, eq_ix2 i⟩
  show (if k.val < 10000 then act (mm (mm (Sop ei ew) (padRows h)) W (ix2 k j) + bias (ix1 j)) else 0)
    = if hlt : k.val < 10000 then act (edgeAgg ei ew (mm h W) (ix2 ⟨k.val, hlt⟩ j) + bias (ix1 j)) else 0
  by_cases hlt : k.val < 10000
  · rw [if_pos hlt, dif_pos hlt]
    exact congrArg (fun t => act (t + bias (ix1 j))) (dense hr hew hh hW ⟨k.val, hlt⟩ k.isLt j)
  · rw [if_neg hlt, dif_neg hlt]

/-- The kernel's second layer is the reference's second layer, padded with zero rows. -/
theorem ker2_eq_padRows (x : Mat 10000 1) (ei : Edges) (ew : Vct 160000) (W1 : Mat 1 128) (b1 : Vct 128)
    (W2 : Mat 128 256) (b2 : Vct 256) (hr : InRange ei) (hx : Real2 x) (hew : Real1 ew) (hW1 : Real2 W1)
    (hb1 : Real1 b1) (hW2 : Real2 W2) :
    ker2 x ei ew W1 b1 W2 b2 = padRows (refLayer ei ew (refLayer ei ew x W1 b1) W2 b2) := by
  show kerLayer (Sop ei ew) (padRows (h1 x ei ew W1 b1)) W2 b2 id = _
  rw [h1_eq_refLayer x ei ew W1 b1 hx hew hW1,
    kerLayer_padRows hr b2 id hew (real_refLayer ei ew x W1 b1 hew hx hW1 hb1) hW2]
  rfl

/-- The kernel's dense-operator form equals the reference's edge-sum form. -/
theorem kerOut_eq_refOut (x : Cert.Spec.Mat 10000 1) (ei : Cert.Spec.Edges) (ew : Cert.Spec.Vct 160000)
    (W1 : Cert.Spec.Mat 1 128) (b1 : Cert.Spec.Vct 128) (W2 : Cert.Spec.Mat 128 256) (b2 : Cert.Spec.Vct 256)
    (W3 : Cert.Spec.Mat 256 512) (b3 : Cert.Spec.Vct 512)
    (hr : Cert.Spec.InRange ei) (hx : Cert.Spec.Real2 x) (hew : Cert.Spec.Real1 ew) (hW1 : Cert.Spec.Real2 W1)
    (hb1 : Cert.Spec.Real1 b1) (hW2 : Cert.Spec.Real2 W2) (hb2 : Cert.Spec.Real1 b2) (hW3 : Cert.Spec.Real2 W3)
    (hb3 : Cert.Spec.Real1 b3) :
    Cert.Spec.kerOut x ei ew W1 b1 W2 b2 W3 b3 = Cert.Spec.refOut x ei ew W1 b1 W2 b2 W3 b3 := by
  have hL1 : Real2 (refLayer ei ew x W1 b1) := real_refLayer ei ew x W1 b1 hew hx hW1 hb1
  have hL2 : Real2 (refLayer ei ew (refLayer ei ew x W1 b1) W2 b2) := real_refLayer ei ew _ W2 b2 hew hL1 hW2 hb2
  have h3 : ker3 x ei ew W1 b1 W2 b2 W3 b3
      = padRows (fun i => Ideal.logistic (refLayer ei ew (refLayer ei ew (refLayer ei ew x W1 b1) W2 b2) W3 b3 i)) := by
    show kerLayer (Sop ei ew) (ker2 x ei ew W1 b1 W2 b2) W3 b3 Ideal.logistic = _
    rw [ker2_eq_padRows x ei ew W1 b1 W2 b2 hr hx hew hW1 hb1 hW2, kerLayer_padRows hr b3 Ideal.logistic hew hL2 hW3]
  funext i
  obtain ⟨n, j, rfl⟩ : ∃ n j, i = ix2 n j := ⟨i 0, i 1, eq_ix2 i⟩
  show ker3 x ei ew W1 b1 W2 b2 W3 b3 (ix2 ⟨n.val, Nat.lt_trans n.isLt (by decide)⟩ j) = _
  rw [h3]
  exact dif_pos n.isLt

end Cert.Bridge

end
-- ==== Proof.Ref.RefValue.lean ====
/-
  The reference program's result, read at an index, is the function `Spec.refOut`.

  The reference computes three layers and then the logistic function. One layer projects the features by a matrix
  product, gathers the projected row of every edge's source, scales it by the edge's weight, scatter-adds the scaled rows
  by the edges' targets into an array of zeros, and adds the bias along the rows. Read at an entry `(n, j)`:
    * the scatter-add into zero is the sum, over the edges whose target is `n`, of the update's entry `(e, j)`;
    * the update's entry is the gathered entry times the weight of `e`, and the gathered entry is the projected
      features at `(s, j)`, `s` the gather's start index for `e`;
    * the start index is `select (a < 0) (a + 10000) a` of the source word `a` of `e`: under the hypothesis that every
      source is a node, `a` is not negative, the select returns `a`, and `a` is the row `Spec.srcN` names;
    * the projection is the sum over the contraction axis, which is `Spec.mm`.
  So each layer is `Spec.refLayer` of the layer before, and the chain `1 / (1 + exp (-x))` on top, whose two literals
  read as `1`, is `Ideal.logistic` by definition.
-/
import proofs.«408395_j7919919694206_3_alg».proof.Proof.Gen.ReferenceIdeal.Read
import proofs.«408395_j7919919694206_3_alg».proof.Proof.Spec
import proofs.«408395_j7919919694206_3_alg».proof.Proof.Math.ScatterGather
import Idealize.ShloMosaic.Lib.ValueIdx
import Idealize.ShloMosaic.PureOps.Ideal.Laws
import Idealize.ShloMosaic.Lib.StableHlo.Predicate

noncomputable section

open scoped BigOperators

namespace Cert.RefValue

open Idealize.ShloMosaic Idealize.ShloMosaic.ValueIdx Cert.ReferenceIdeal Cert.ReferenceIdeal.Read Cert.Spec

/-! ## Words: the start index of a gather under the range hypothesis -/

/-- A 32-bit word that reads as a non-negative integer when signed is below 2³¹ when unsigned. -/
theorem toNat_lt_of_toInt_nonneg (a : BitVec 32) (h : 0 ≤ a.toInt) : a.toNat < 2 ^ 31 := by
  rw [BitVec.toInt_eq_toNat_cond] at h
  split at h <;> omega

/-- The reference wraps a negative index by adding the row count, choosing by the sign: `select (a < 0) (a + rows) a`.
    On a word that is not negative the comparison is false and the select returns the word itself. -/
theorem select_of_nonneg (a b : BitVec 32) (h : 0 ≤ a.toInt) : Scalar.select (IntOp.cmpi .slt a 0#32) b a = a := by
  have hne : ¬ IntOp.cmpi .slt a 0#32 = 1#1 := by
    rw [StableHlo.Predicate.slt_iff_toNat (toNat_lt_of_toInt_nonneg a h) (by decide)]
    exact Nat.not_lt_zero _
  rw [eq_zero_of_ne_one hne, select_zero]

/-- A word equal to edge `e`'s source, read signed and cut to a natural number, is the row `srcN` names:
    under the range hypothesis the source is below 10000, so reducing it modulo 10000 changes nothing. -/
theorem row_eq_srcN (x1 : Edges) (e : Fin 160000) (w : BitVec 32) (hw : w = x1 (ix2 (0 : Fin 2) e))
    (h : w.toInt.toNat < 10000) : (⟨w.toInt.toNat, h⟩ : Fin 10000) = srcN x1 e := by
  subst hw
  refine Fin.ext ?_
  show _ = (x1 (ix2 (0 : Fin 2) e)).toInt.toNat % 10000
  rw [Nat.mod_eq_of_lt h]

/-! ## The edge list's two rows, as the slices and reshapes read them -/

/-- The first row of the edge list, sliced and flattened, at `e`: edge `e`'s source word. -/
theorem srcWord (x1 : (⟨S2x160000, .i32⟩ : BufTy).Contents (Elt Ideal)) (e : Fin 160000) :
    val_main_v1 (F := Ideal) x1 (ix1 e) = x1 (ix2 (0 : Fin 2) e) := by
  rw [val_main_v1_apply, val_main_v0_apply]
  refine congrArg x1 (funext fun a => Fin.ext ?_)
  match a with
  | ⟨0, _⟩ => rfl
  | ⟨1, _⟩ => exact Nat.mod_eq_of_lt e.isLt

/-- The second row of the edge list, sliced and flattened, at `e`: edge `e`'s target word. -/
theorem dstWord (x1 : (⟨S2x160000, .i32⟩ : BufTy).Contents (Elt Ideal)) (e : Fin 160000) :
    val_main_v3 (F := Ideal) x1 (ix1 e) = x1 (ix2 (1 : Fin 2) e) := by
  rw [val_main_v3_apply, val_main_v2_apply]
  refine congrArg x1 (funext fun a => Fin.ext ?_)
  match a with
  | ⟨0, _⟩ => rfl
  | ⟨1, _⟩ => exact Nat.mod_eq_of_lt e.isLt

/-! ## The first layer -/

/-- The column of gather start indices of the first layer at edge `e`: the edge's source word (the wrap of a negative index
    does not happen under the range hypothesis). -/
theorem gatherIdx1 (x1 : (⟨S2x160000, .i32⟩ : BufTy).Contents (Elt Ideal)) (hr : InRange x1) (e : Fin 160000) :
    val_main_v10 (F := Ideal) x1 (ix2 e (0 : Fin 1)) = x1 (ix2 (0 : Fin 2) e) := by
  rw [val_main_v10_apply, show idx_main_v10 (ix2 e (0 : Fin 1)) = ix1 e from funext fun a => match a with | ⟨0, _⟩ => rfl,
    val_main_v9_apply, val_main_v6_apply, val_main_v5_apply, val_main_c_apply, srcWord]
  exact select_of_nonneg _ _ (hr 0 e).1

/-- The column of scatter indices of the first layer at edge `e`: the edge's target word. -/
theorem scatterIdx1 (x1 : (⟨S2x160000, .i32⟩ : BufTy).Contents (Elt Ideal)) (e : Fin 160000) :
    val_main_v16 (F := Ideal) x1 (ix2 e (0 : Fin 1)) = x1 (ix2 (1 : Fin 2) e) := by
  rw [val_main_v16_apply, show idx_main_v16 (ix2 e (0 : Fin 1)) = ix1 e from funext fun a => match a with | ⟨0, _⟩ => rfl,
    dstWord]

/-- The edge weights broadcast along the feature axis: the weight of edge `e` in every column. -/
theorem weight1 (x2 : (⟨S160000, .f32⟩ : BufTy).Contents (Elt Ideal)) (e : Fin 160000) (j : Fin 128) :
    val_main_v13 (F := Ideal) x2 (ix2 e j) = x2 (ix1 e) := by
  rw [val_main_v13_apply, val_main_v12_apply]
  exact congrArg x2 (funext fun a => match a with | ⟨0, _⟩ => rfl)

/-- The bias broadcast along the node axis: entry `j` in every row. -/
theorem bias1 (x4 : (⟨S128, .f32⟩ : BufTy).Contents (Elt Ideal)) (n : Fin 10000) (j : Fin 128) :
    val_main_v19 (F := Ideal) x4 (ix2 n j) = x4 (ix1 j) := by
  rw [val_main_v19_apply, val_main_v18_apply]
  exact congrArg x4 (funext fun a => match a with | ⟨0, _⟩ => rfl)

/-- The array the scatter accumulates into is zero everywhere. -/
theorem zero1 (i : S10000x128.Idx) : val_main_v15 (F := Ideal) i = 0 := by
  rw [val_main_v15_apply, val_main_cst_apply]
  exact Ideal.ofBits_zero_f32

/-- The projection of the first layer is the matrix product. -/
theorem dot1 (x0 : (⟨S10000x1, .f32⟩ : BufTy).Contents (Elt Ideal)) (x3 : (⟨S1x128, .f32⟩ : BufTy).Contents (Elt Ideal)) :
    val_main_v4 (F := Ideal) x0 x3 = mm x0 x3 := by
  funext i
  obtain ⟨n, j, rfl⟩ : ∃ (n : Fin 10000) (j : Fin 128), i = ix2 n j := ⟨i 0, i 1, eq_ix2 i⟩
  rw [val_main_v4_apply]
  show _ = ∑ q : Fin 1, x0 (ix2 n q) * x3 (ix2 q j)
  refine Finset.sum_congr rfl fun k _ => ?_
  rw [show lidx_main_v4 (ix2 n j) k = ix2 n k from funext fun a => match a with | ⟨0, _⟩ => rfl | ⟨1, _⟩ => rfl,
    show ridx_main_v4 (ix2 n j) k = ix2 k j from funext fun a => match a with | ⟨0, _⟩ => rfl | ⟨1, _⟩ => rfl]

/-- Gathering the rows of `g` by source, scaling by the edge weights and scatter-adding by target into zero is the
    aggregation along the edges: the scatter-add is the sum over the edges that end at the row, the gather reads the
    source's row, and the two index columns are the edge list's rows. -/
theorem agg128 (x1 : (⟨S2x160000, .i32⟩ : BufTy).Contents (Elt Ideal)) (x2 : (⟨S160000, .f32⟩ : BufTy).Contents (Elt Ideal))
    (hr : InRange x1) (g z : FVec Ideal S10000x128 .f32) (si di : IVec S160000x1 32) (wv : FVec Ideal S160000x128 .f32)
    (hz : ∀ i, z i = 0) (hs : ∀ e : Fin 160000, si (ix2 e (0 : Fin 1)) = x1 (ix2 (0 : Fin 2) e))
    (hd : ∀ e : Fin 160000, di (ix2 e (0 : Fin 1)) = x1 (ix2 (1 : Fin 2) e))
    (hw : ∀ (e : Fin 160000) (j : Fin 128), wv (ix2 e j) = x2 (ix1 e)) (n : Fin 10000) (j : Fin 128) :
    Host.scatterAdd (F := Ideal) scatter_S10000x128_S160000x1_S160000x128_1_0_0_1 z di
        (mulf (Host.gather gather_S10000x128_S160000x1_S160000x128_1_0_n_n_0_1_1128 g si) wv) (ix2 n j)
      = edgeAgg x1 x2 g (ix2 n j) := by
  rw [Cert.SG.ref_scatter128, hz, zero_add]
  show _ = ∑ e : Fin 160000, if dst x1 e = ((n.val : Nat) : Int) then g (ix2 (srcN x1 e) j) * x2 (ix1 e) else 0
  refine Finset.sum_congr rfl fun e _ => ?_
  have h0 : 0 ≤ (si (ix2 e (0 : Fin 1))).toInt := by rw [hs e]; exact (hr 0 e).1
  have hN : (si (ix2 e (0 : Fin 1))).toInt < 10000 := by rw [hs e]; exact (hr 0 e).2
  rw [hd e, mulf_apply, hw e j, Cert.SG.ref_gather128 g si e j h0 hN, row_eq_srcN x1 e _ (hs e)]
  rfl

/-- The first layer of the reference is `refLayer` of the input. -/
theorem layer1_eq (x0 : (⟨S10000x1, .f32⟩ : BufTy).Contents (Elt Ideal)) (x1 : (⟨S2x160000, .i32⟩ : BufTy).Contents (Elt Ideal))
    (x2 : (⟨S160000, .f32⟩ : BufTy).Contents (Elt Ideal)) (x3 : (⟨S1x128, .f32⟩ : BufTy).Contents (Elt Ideal))
    (x4 : (⟨S128, .f32⟩ : BufTy).Contents (Elt Ideal)) (hr : InRange x1) :
    val_main_v20 (F := Ideal) x0 x1 x2 x3 x4 = refLayer x1 x2 x0 x3 x4 := by
  funext i
  obtain ⟨n, j, rfl⟩ : ∃ (n : Fin 10000) (j : Fin 128), i = ix2 n j := ⟨i 0, i 1, eq_ix2 i⟩
  rw [val_main_v20_apply, Ideal.addf_def, bias1]
  unfold val_main_v17 val_main_v14 val_main_v11
  rw [agg128 x1 x2 hr _ _ _ _ _ zero1 (gatherIdx1 x1 hr) (scatterIdx1 x1) (weight1 x2) n j, dot1]
  rfl

/-! ## The second layer -/

/-- The column of gather start indices of the second layer at edge `e`: the edge's source word. -/
theorem gatherIdx2 (x1 : (⟨S2x160000, .i32⟩ : BufTy).Contents (Elt Ideal)) (hr : InRange x1) (e : Fin 160000) :
    val_main_v27 (F := Ideal) x1 (ix2 e (0 : Fin 1)) = x1 (ix2 (0 : Fin 2) e) := by
  rw [val_main_v27_apply, show idx_main_v27 (ix2 e (0 : Fin 1)) = ix1 e from funext fun a => match a with | ⟨0, _⟩ => rfl,
    val_main_v26_apply, val_main_v23_apply, val_main_v22_apply, val_main_c_1_apply, srcWord]
  exact select_of_nonneg _ _ (hr 0 e).1

/-- The column of scatter indices of the second layer at edge `e`: the edge's target word. -/
theorem scatterIdx2 (x1 : (⟨S2x160000, .i32⟩ : BufTy).Contents (Elt Ideal)) (e : Fin 160000) :
    val_main_v33 (F := Ideal) x1 (ix2 e (0 : Fin 1)) = x1 (ix2 (1 : Fin 2) e) := by
  rw [val_main_v33_apply, show idx_main_v33 (ix2 e (0 : Fin 1)) = ix1 e from funext fun a => match a with | ⟨0, _⟩ => rfl,
    dstWord]

/-- The edge weights broadcast along the 256 feature columns. -/
theorem weight2 (x2 : (⟨S160000, .f32⟩ : BufTy).Contents (Elt Ideal)) (e : Fin 160000) (j : Fin 256) :
    val_main_v30 (F := Ideal) x2 (ix2 e j) = x2 (ix1 e) := by
  rw [val_main_v30_apply, val_main_v29_apply]
  exact congrArg x2 (funext fun a => match a with | ⟨0, _⟩ => rfl)

/-- The second bias broadcast along the node axis. -/
theorem bias2 (x6 : (⟨S256, .f32⟩ : BufTy).Contents (Elt Ideal)) (n : Fin 10000) (j : Fin 256) :
    val_main_v36 (F := Ideal) x6 (ix2 n j) = x6 (ix1 j) := by
  rw [val_main_v36_apply, val_main_v35_apply]
  exact congrArg x6 (funext fun a => match a with | ⟨0, _⟩ => rfl)

/-- The array the second scatter accumulates into is zero everywhere. -/
theorem zero2 (i : S10000x256.Idx) : val_main_v32 (F := Ideal) i = 0 := by
  rw [val_main_v32_apply, val_main_cst_3_apply]
  exact Ideal.ofBits_zero_f32

/-- The projection of the second layer is the matrix product of the first layer's result with the second weights. -/
theorem dot2 (x0 : (⟨S10000x1, .f32⟩ : BufTy).Contents (Elt Ideal)) (x1 : (⟨S2x160000, .i32⟩ : BufTy).Contents (Elt Ideal))
    (x2 : (⟨S160000, .f32⟩ : BufTy).Contents (Elt Ideal)) (x3 : (⟨S1x128, .f32⟩ : BufTy).Contents (Elt Ideal))
    (x4 : (⟨S128, .f32⟩ : BufTy).Contents (Elt Ideal)) (x5 : (⟨S128x256, .f32⟩ : BufTy).Contents (Elt Ideal)) :
    val_main_v21 (F := Ideal) x0 x1 x2 x3 x4 x5 = mm (val_main_v20 (F := Ideal) x0 x1 x2 x3 x4) x5 := by
  funext i
  obtain ⟨n, j, rfl⟩ : ∃ (n : Fin 10000) (j : Fin 256), i = ix2 n j := ⟨i 0, i 1, eq_ix2 i⟩
  rw [val_main_v21_apply]
  generalize val_main_v20 (F := Ideal) x0 x1 x2 x3 x4 = h
  show _ = ∑ q : Fin 128, h (ix2 n q) * x5 (ix2 q j)
  refine Finset.sum_congr rfl fun k _ => ?_
  rw [show lidx_main_v21 (ix2 n j) k = ix2 n k from funext fun a => match a with | ⟨0, _⟩ => rfl | ⟨1, _⟩ => rfl,
    show ridx_main_v21 (ix2 n j) k = ix2 k j from funext fun a => match a with | ⟨0, _⟩ => rfl | ⟨1, _⟩ => rfl]

/-- The aggregation along the edges at 256 columns, as `agg128`. -/
theorem agg256 (x1 : (⟨S2x160000, .i32⟩ : BufTy).Contents (Elt Ideal)) (x2 : (⟨S160000, .f32⟩ : BufTy).Contents (Elt Ideal))
    (hr : InRange x1) (g z : FVec Ideal S10000x256 .f32) (si di : IVec S160000x1 32) (wv : FVec Ideal S160000x256 .f32)
    (hz : ∀ i, z i = 0) (hs : ∀ e : Fin 160000, si (ix2 e (0 : Fin 1)) = x1 (ix2 (0 : Fin 2) e))
    (hd : ∀ e : Fin 160000, di (ix2 e (0 : Fin 1)) = x1 (ix2 (1 : Fin 2) e))
    (hw : ∀ (e : Fin 160000) (j : Fin 256), wv (ix2 e j) = x2 (ix1 e)) (n : Fin 10000) (j : Fin 256) :
    Host.scatterAdd (F := Ideal) scatter_S10000x256_S160000x1_S160000x256_1_0_0_1 z di
        (mulf (Host.gather gather_S10000x256_S160000x1_S160000x256_1_0_n_n_0_1_1256 g si) wv) (ix2 n j)
      = edgeAgg x1 x2 g (ix2 n j) := by
  rw [Cert.SG.ref_scatter256, hz, zero_add]
  show _ = ∑ e : Fin 160000, if dst x1 e = ((n.val : Nat) : Int) then g (ix2 (srcN x1 e) j) * x2 (ix1 e) else 0
  refine Finset.sum_congr rfl fun e _ => ?_
  have h0 : 0 ≤ (si (ix2 e (0 : Fin 1))).toInt := by rw [hs e]; exact (hr 0 e).1
  have hN : (si (ix2 e (0 : Fin 1))).toInt < 10000 := by rw [hs e]; exact (hr 0 e).2
  rw [hd e, mulf_apply, hw e j, Cert.SG.ref_gather256 g si e j h0 hN, row_eq_srcN x1 e _ (hs e)]
  rfl

/-- The second layer of the reference is `refLayer` of the first. -/
theorem layer2_eq (x0 : (⟨S10000x1, .f32⟩ : BufTy).Contents (Elt Ideal)) (x1 : (⟨S2x160000, .i32⟩ : BufTy).Contents (Elt Ideal))
    (x2 : (⟨S160000, .f32⟩ : BufTy).Contents (Elt Ideal)) (x3 : (⟨S1x128, .f32⟩ : BufTy).Contents (Elt Ideal))
    (x4 : (⟨S128, .f32⟩ : BufTy).Contents (Elt Ideal)) (x5 : (⟨S128x256, .f32⟩ : BufTy).Contents (Elt Ideal))
    (x6 : (⟨S256, .f32⟩ : BufTy).Contents (Elt Ideal)) (hr : InRange x1) :
    val_main_v37 (F := Ideal) x0 x1 x2 x3 x4 x5 x6 = refLayer x1 x2 (val_main_v20 (F := Ideal) x0 x1 x2 x3 x4) x5 x6 := by
  funext i
  obtain ⟨n, j, rfl⟩ : ∃ (n : Fin 10000) (j : Fin 256), i = ix2 n j := ⟨i 0, i 1, eq_ix2 i⟩
  rw [val_main_v37_apply, Ideal.addf_def, bias2]
  unfold val_main_v34 val_main_v31 val_main_v28
  rw [agg256 x1 x2 hr _ _ _ _ _ zero2 (gatherIdx2 x1 hr) (scatterIdx2 x1) (weight2 x2) n j, dot2]
  rfl

/-! ## The third layer -/

/-- The column of gather start indices of the third layer at edge `e`: the edge's source word. -/
theorem gatherIdx3 (x1 : (⟨S2x160000, .i32⟩ : BufTy).Contents (Elt Ideal)) (hr : InRange x1) (e : Fin 160000) :
    val_main_v44 (F := Ideal) x1 (ix2 e (0 : Fin 1)) = x1 (ix2 (0 : Fin 2) e) := by
  rw [val_main_v44_apply, show idx_main_v44 (ix2 e (0 : Fin 1)) = ix1 e from funext fun a => match a with | ⟨0, _⟩ => rfl,
    val_main_v43_apply, val_main_v40_apply, val_main_v39_apply, val_main_c_4_apply, srcWord]
  exact select_of_nonneg _ _ (hr 0 e).1

/-- The column of scatter indices of the third layer at edge `e`: the edge's target word. -/
theorem scatterIdx3 (x1 : (⟨S2x160000, .i32⟩ : BufTy).Contents (Elt Ideal)) (e : Fin 160000) :
    val_main_v50 (F := Ideal) x1 (ix2 e (0 : Fin 1)) = x1 (ix2 (1 : Fin 2) e) := by
  rw [val_main_v50_apply, show idx_main_v50 (ix2 e (0 : Fin 1)) = ix1 e from funext fun a => match a with | ⟨0, _⟩ => rfl,
    dstWord]

/-- The edge weights broadcast along the 512 feature columns. -/
theorem weight3 (x2 : (⟨S160000, .f32⟩ : BufTy).Contents (Elt Ideal)) (e : Fin 160000) (j : Fin 512) :
    val_main_v47 (F := Ideal) x2 (ix2 e j) = x2 (ix1 e) := by
  rw [val_main_v47_apply, val_main_v46_apply]
  exact congrArg x2 (funext fun a => match a with | ⟨0, _⟩ => rfl)

/-- The third bias broadcast along the node axis. -/
theorem bias3 (x8 : (⟨S512, .f32⟩ : BufTy).Contents (Elt Ideal)) (n : Fin 10000) (j : Fin 512) :
    val_main_v53 (F := Ideal) x8 (ix2 n j) = x8 (ix1 j) := by
  rw [val_main_v53_apply, val_main_v52_apply]
  exact congrArg x8 (funext fun a => match a with | ⟨0, _⟩ => rfl)

/-- The array the third scatter accumulates into is zero everywhere. -/
theorem zero3 (i : S10000x512.Idx) : val_main_v49 (F := Ideal) i = 0 := by
  rw [val_main_v49_apply, val_main_cst_6_apply]
  exact Ideal.ofBits_zero_f32

/-- The projection of the third layer is the matrix product of the second layer's result with the third weights. -/
theorem dot3 (x0 : (⟨S10000x1, .f32⟩ : BufTy).Contents (Elt Ideal)) (x1 : (⟨S2x160000, .i32⟩ : BufTy).Contents (Elt Ideal))
    (x2 : (⟨S160000, .f32⟩ : BufTy).Contents (Elt Ideal)) (x3 : (⟨S1x128, .f32⟩ : BufTy).Contents (Elt Ideal))
    (x4 : (⟨S128, .f32⟩ : BufTy).Contents (Elt Ideal)) (x5 : (⟨S128x256, .f32⟩ : BufTy).Contents (Elt Ideal))
    (x6 : (⟨S256, .f32⟩ : BufTy).Contents (Elt Ideal)) (x7 : (⟨S256x512, .f32⟩ : BufTy).Contents (Elt Ideal)) :
    val_main_v38 (F := Ideal) x0 x1 x2 x3 x4 x5 x6 x7 = mm (val_main_v37 (F := Ideal) x0 x1 x2 x3 x4 x5 x6) x7 := by
  funext i
  obtain ⟨n, j, rfl⟩ : ∃ (n : Fin 10000) (j : Fin 512), i = ix2 n j := ⟨i 0, i 1, eq_ix2 i⟩
  rw [val_main_v38_apply]
  generalize val_main_v37 (F := Ideal) x0 x1 x2 x3 x4 x5 x6 = h
  show _ = ∑ q : Fin 256, h (ix2 n q) * x7 (ix2 q j)
  refine Finset.sum_congr rfl fun k _ => ?_
  rw [show lidx_main_v38 (ix2 n j) k = ix2 n k from funext fun a => match a with | ⟨0, _⟩ => rfl | ⟨1, _⟩ => rfl,
    show ridx_main_v38 (ix2 n j) k = ix2 k j from funext fun a => match a with | ⟨0, _⟩ => rfl | ⟨1, _⟩ => rfl]

/-- The aggregation along the edges at 512 columns, as `agg128`. -/
theorem agg512 (x1 : (⟨S2x160000, .i32⟩ : BufTy).Contents (Elt Ideal)) (x2 : (⟨S160000, .f32⟩ : BufTy).Contents (Elt Ideal))
    (hr : InRange x1) (g z : FVec Ideal S10000x512 .f32) (si di : IVec S160000x1 32) (wv : FVec Ideal S160000x512 .f32)
    (hz : ∀ i, z i = 0) (hs : ∀ e : Fin 160000, si (ix2 e (0 : Fin 1)) = x1 (ix2 (0 : Fin 2) e))
    (hd : ∀ e : Fin 160000, di (ix2 e (0 : Fin 1)) = x1 (ix2 (1 : Fin 2) e))
    (hw : ∀ (e : Fin 160000) (j : Fin 512), wv (ix2 e j) = x2 (ix1 e)) (n : Fin 10000) (j : Fin 512) :
    Host.scatterAdd (F := Ideal) scatter_S10000x512_S160000x1_S160000x512_1_0_0_1 z di
        (mulf (Host.gather gather_S10000x512_S160000x1_S160000x512_1_0_n_n_0_1_1512 g si) wv) (ix2 n j)
      = edgeAgg x1 x2 g (ix2 n j) := by
  rw [Cert.SG.ref_scatter512, hz, zero_add]
  show _ = ∑ e : Fin 160000, if dst x1 e = ((n.val : Nat) : Int) then g (ix2 (srcN x1 e) j) * x2 (ix1 e) else 0
  refine Finset.sum_congr rfl fun e _ => ?_
  have h0 : 0 ≤ (si (ix2 e (0 : Fin 1))).toInt := by rw [hs e]; exact (hr 0 e).1
  have hN : (si (ix2 e (0 : Fin 1))).toInt < 10000 := by rw [hs e]; exact (hr 0 e).2
  rw [hd e, mulf_apply, hw e j, Cert.SG.ref_gather512 g si e j h0 hN, row_eq_srcN x1 e _ (hs e)]
  rfl

/-- The third layer of the reference is `refLayer` of the second. -/
theorem layer3_eq (x0 : (⟨S10000x1, .f32⟩ : BufTy).Contents (Elt Ideal)) (x1 : (⟨S2x160000, .i32⟩ : BufTy).Contents (Elt Ideal))
    (x2 : (⟨S160000, .f32⟩ : BufTy).Contents (Elt Ideal)) (x3 : (⟨S1x128, .f32⟩ : BufTy).Contents (Elt Ideal))
    (x4 : (⟨S128, .f32⟩ : BufTy).Contents (Elt Ideal)) (x5 : (⟨S128x256, .f32⟩ : BufTy).Contents (Elt Ideal))
    (x6 : (⟨S256, .f32⟩ : BufTy).Contents (Elt Ideal)) (x7 : (⟨S256x512, .f32⟩ : BufTy).Contents (Elt Ideal))
    (x8 : (⟨S512, .f32⟩ : BufTy).Contents (Elt Ideal)) (hr : InRange x1) :
    val_main_v54 (F := Ideal) x0 x1 x2 x3 x4 x5 x6 x7 x8
      = refLayer x1 x2 (val_main_v37 (F := Ideal) x0 x1 x2 x3 x4 x5 x6) x7 x8 := by
  funext i
  obtain ⟨n, j, rfl⟩ : ∃ (n : Fin 10000) (j : Fin 512), i = ix2 n j := ⟨i 0, i 1, eq_ix2 i⟩
  rw [val_main_v54_apply, Ideal.addf_def, bias3]
  unfold val_main_v51 val_main_v48 val_main_v45
  rw [agg512 x1 x2 hr _ _ _ _ _ zero3 (gatherIdx3 x1 hr) (scatterIdx3 x1) (weight3 x2) n j, dot3]
  rfl

/-! ## The logistic function on top -/

/-- The word of `1.0` reads as the extended real `1`. -/
theorem one_f32 : Ideal.ofBits .f32 0x3F800000#32 = 1 := IdealRules.sign_bit.ideal_onePat .f32

/-- THE REFERENCE IS `refOut`: the three layers are `refLayer` of one another, and the quotient of `1` by `1` plus the
    exponential of the negated third layer is the logistic function of it. -/
theorem ref_eq (x0 : (⟨S10000x1, .f32⟩ : BufTy).Contents (Elt Ideal)) (x1 : (⟨S2x160000, .i32⟩ : BufTy).Contents (Elt Ideal))
    (x2 : (⟨S160000, .f32⟩ : BufTy).Contents (Elt Ideal)) (x3 : (⟨S1x128, .f32⟩ : BufTy).Contents (Elt Ideal))
    (x4 : (⟨S128, .f32⟩ : BufTy).Contents (Elt Ideal)) (x5 : (⟨S128x256, .f32⟩ : BufTy).Contents (Elt Ideal))
    (x6 : (⟨S256, .f32⟩ : BufTy).Contents (Elt Ideal)) (x7 : (⟨S256x512, .f32⟩ : BufTy).Contents (Elt Ideal))
    (x8 : (⟨S512, .f32⟩ : BufTy).Contents (Elt Ideal)) (hr : InRange x1) :
    val_main_v60 (F := Ideal) x0 x1 x2 x3 x4 x5 x6 x7 x8 = refOut x0 x1 x2 x3 x4 x5 x6 x7 x8 := by
  funext i
  rw [val_main_v60_apply, val_main_v59_apply, val_main_cst_8_apply, val_main_v58_apply, val_main_v57_apply,
    val_main_cst_7_apply, val_main_v56_apply, val_main_v55_apply, layer3_eq x0 x1 x2 x3 x4 x5 x6 x7 x8 hr,
    layer2_eq x0 x1 x2 x3 x4 x5 x6 hr, layer1_eq x0 x1 x2 x3 x4 hr]
  simp only [Ideal.hostDivf_def, Ideal.addf_def, Ideal.hostUnary_exp_def, Ideal.hostNegf_def, Ideal.negf_def,
    Ideal.ofBits_def, one_f32]
  rfl

end Cert.RefValue

end
-- ==== Proof.Final.lean ====
/-
  The algebraic conjunct: the kernel and the reference, run at the extended reals from memories that agree on the
  arguments, end with equal results and unchanged arguments.

  The kernel's side is a chain of whole-array equations. The result buffer is the node rows of what the second pass
  writes; that array is one dense layer (with the logistic function) of the second pass's four inputs; two of those
  are what the first pass wrote, the operator's copy (which is the operator) and one dense layer of the first pass's
  four inputs; and the host prefix leaves the operator, the padded first layer, the weights and the bias rows. Read
  together this is `kerOut` of the arguments. The reference's result is `refOut` of the same arguments, and under
  the decoded precondition (every float entry real, every edge end a node) `kerOut = refOut`.
-/
import proofs.«408395_j7919919694206_3_alg».proof.Defs
import proofs.«408395_j7919919694206_3_alg».proof.Proof.Spec
import proofs.«408395_j7919919694206_3_alg».proof.Proof.KI.Launch
import proofs.«408395_j7919919694206_3_alg».proof.Proof.KI.Glue
import proofs.«408395_j7919919694206_3_alg».proof.Proof.KI.R0Value
import proofs.«408395_j7919919694206_3_alg».proof.Proof.KI.R0ValueS
import proofs.«408395_j7919919694206_3_alg».proof.Proof.KI.R1Value
import proofs.«408395_j7919919694206_3_alg».proof.Proof.Math.Pre
import proofs.«408395_j7919919694206_3_alg».proof.Proof.Math.Bridge
import proofs.«408395_j7919919694206_3_alg».proof.Proof.Ref.RefValue
import proofs.«408395_j7919919694206_3_alg».proof.Proof.Gen.KernelIdeal
import proofs.«408395_j7919919694206_3_alg».proof.Proof.Gen.ReferenceIdeal
import proofs.«408395_j7919919694206_3_alg».proof.Proof.Gen.ReferenceIdeal.Run
import proofs.«408395_j7919919694206_3_alg».proof.Proof.Gen.ReferenceIdeal.Read
import proofs.«408395_j7919919694206_3_alg».proof.Proof.Gen.Pre_finite_inputs
import Idealize.ShloMosaic.Lib.ValueIdx

noncomputable section

namespace Cert.Final

open Cert.KernelIdeal Cert.KernelIdeal.Gen
open Idealize.ShloMosaic Idealize.ShloMosaic.TcCoe Idealize.ShloMosaic.ValueIdx
open Idealize.SL.Sem
open Cert.Spec

variable (m : (ℓ : Loc nD τ sig) → Buf (Elt Ideal) ℓ) (c : Dev nD)

/-! ## The kernel's argument arrays on one core, at the shapes of the mathematics -/

abbrev a0 : Mat 10000 1 := m ((c.tc : Thread nD τ).loc main_arg0)
abbrev a1 : Edges := m ((c.tc : Thread nD τ).loc main_arg1)
abbrev a2 : Vct 160000 := m ((c.tc : Thread nD τ).loc main_arg2)
abbrev a3 : Mat 1 128 := m ((c.tc : Thread nD τ).loc main_arg3)
abbrev a4 : Vct 128 := m ((c.tc : Thread nD τ).loc main_arg4)
abbrev a5 : Mat 128 256 := m ((c.tc : Thread nD τ).loc main_arg5)
abbrev a6 : Vct 256 := m ((c.tc : Thread nD τ).loc main_arg6)
abbrev a7 : Mat 256 512 := m ((c.tc : Thread nD τ).loc main_arg7)
abbrev a8 : Vct 512 := m ((c.tc : Thread nD τ).loc main_arg8)

/-! ## What the first pass leaves -/

/-- The operator's copy the first pass writes is the operator. -/
theorem W4_S (hr : InRange (a1 m c)) :
    (Launch.W4 m c main_v40_1 : Mat 10240 10240) = Sop (a1 m c) (a2 m c) :=
  (Launch.W4_arr m c 5).trans ((R0VS.arrAt0_5 (Launch.E0 m) c).trans (Glue.V3_S m c hr))

/-- The bias row of the second layer, read as a vector. -/
theorem bias2 : (fun j => V3 m c main_v39 (ix2 (0 : Fin 1) (j 0)) : Vct 256) = a6 m c := by
  funext j
  rw [Glue.V3_b2 m c (j 0)]
  exact congrArg (a6 m c) (eq_ix1 j).symm

/-- The features the first pass writes are the kernel's second layer. -/
theorem W4_h2 (hr : InRange (a1 m c)) :
    (Launch.W4 m c main_v40_0 : Mat 10240 256)
      = ker2 (a0 m c) (a1 m c) (a2 m c) (a3 m c) (a4 m c) (a5 m c) (a6 m c) := by
  refine (Launch.W4_arr m c 4).trans ((R0V.arrAt0_4 (Launch.E0 m) c).trans ?_)
  show kerLayer (V3 m c main_v36) (V3 m c main_v21) (V3 m c main_v37)
    (fun j => V3 m c main_v39 (ix2 (0 : Fin 1) (j 0))) id = _
  rw [Glue.V3_S m c hr, Glue.V3_h1 m c hr, Glue.V3_W2 m c, bias2 m c]
  rfl

/-! ## What the second pass is entered with, and what it leaves -/

theorem E1_S (hr : InRange (a1 m c)) :
    (Launch.E1 m c main_v40_1 : Mat 10240 10240) = Sop (a1 m c) (a2 m c) :=
  (Glue.V5_S m c (Launch.outs4 m)).trans (W4_S m c hr)

theorem E1_h2 (hr : InRange (a1 m c)) :
    (Launch.E1 m c main_v40_0 : Mat 10240 256)
      = ker2 (a0 m c) (a1 m c) (a2 m c) (a3 m c) (a4 m c) (a5 m c) (a6 m c) :=
  (Glue.V5_h2 m c (Launch.outs4 m)).trans (W4_h2 m c hr)

/-- The bias row of the third layer, read as a vector. -/
theorem bias3 : (fun j => V5 m (Launch.outs4 m) c main_v41 (ix2 (0 : Fin 1) (j 0)) : Vct 512) = a8 m c := by
  funext j
  rw [Glue.V5_b3 m c (Launch.outs4 m) (j 0)]
  exact congrArg (a8 m c) (eq_ix1 j).symm

/-- The array the second pass writes is the kernel's third layer with the logistic function. -/
theorem W6_out (hr : InRange (a1 m c)) :
    (Launch.W6 m c main_v42 : Mat 10240 512)
      = ker3 (a0 m c) (a1 m c) (a2 m c) (a3 m c) (a4 m c) (a5 m c) (a6 m c) (a7 m c) (a8 m c) := by
  refine (Launch.W6_arr m c 4).trans ((R1V.arrAt1_4 (Launch.E1 m) c).trans ?_)
  show kerLayer (Launch.E1 m c main_v40_1) (Launch.E1 m c main_v40_0) (V5 m (Launch.outs4 m) c main_v38)
    (fun j => V5 m (Launch.outs4 m) c main_v41 (ix2 (0 : Fin 1) (j 0))) Ideal.logistic = _
  rw [E1_S m c hr, E1_h2 m c hr, Glue.V5_W3 m c (Launch.outs4 m), bias3 m c]
  rfl

/-! ## The kernel's result -/

/-- THE KERNEL'S VALUE: the result buffer holds the node rows of the third layer. -/
theorem ker_value (hr : InRange (a1 m c)) :
    (V7 m (Launch.outs m) c main_v43 : Mat 10000 512)
      = kerOut (a0 m c) (a1 m c) (a2 m c) (a3 m c) (a4 m c) (a5 m c) (a6 m c) (a7 m c) (a8 m c) := by
  funext i
  rw [Glue.V7_out m c (Launch.outs m) i, Launch.outs_six m main_v42 c, W6_out m c hr]
  rfl

/-! ## The algebraic conjunct -/

/-- Both programs run from memories that agree on the arguments, end with the arguments unchanged, and their results are
    equal: the kernel's is `kerOut` of its arguments, the reference's is `refOut` of the same arguments, and under the
    decoded precondition (real entries, every edge end a node) the two are equal. -/
theorem algebraic : Cert.algebraic_KernelIdeal_ReferenceIdeal := by
  intro m ρ m' ρ' hpre hagree
  have hd := fun c : Dev nD =>
    Cert.PreFacts.decode (a0 m c) (a1 m c) (a2 m c) (a3 m c) (a4 m c) (a5 m c) (a6 m c) (a7 m c) (a8 m c) (hpre c)
  refine ⟨fun c => kerOut (a0 m c) (a1 m c) (a2 m c) (a3 m c) (a4 m c) (a5 m c) (a6 m c) (a7 m c) (a8 m c), ?_, ?_⟩
  · exact (θ_run Cert.KernelIdeal.defs _ _).mono
      (fun _ h c => ⟨(h c).1.trans (ker_value m c (hd c).2.1), (h c).2⟩)
      (Launch.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨g0, g1, g2, g3, g4, g5, g6, g7, g8⟩ := hagree c
    obtain ⟨h0, hr, h2, h3, h4, h5, h6, h7, h8⟩ := hd c
    rw [Cert.ReferenceIdeal.Read.val_main_v60_eq, g0, g1, g2, g3, g4, g5, g6, g7, g8]
    exact (Cert.RefValue.ref_eq _ _ _ _ _ _ _ _ _ hr).trans
      (Cert.Bridge.kerOut_eq_refOut _ _ _ _ _ _ _ _ _ hr h0 h2 h3 h4 h5 h6 h7 h8).symm

end Cert.Final

end
-- ==== Proof.lean ====
/-
  Three layers of graph convolution over 10000 nodes and 160000 weighted edges, as one kernel program against
  its reference, under the precondition that every float input is finite and every edge's source and target is a node.

  The reference aggregates along the edges three times: gather the projected row of each edge's source, scale it by the
  edge's weight, sum over the edges ending at each node, add the bias; the logistic function at the end. The kernel sums
  the edge weights once into a dense operator S padded to 10240 rows and columns, computes the first layer from the
  scalar input directly, and runs two aggregation passes, each a tiled product S·h accumulated over the column tiles of a
  row tile, then projected through the weights, with the padded rows zeroed.

  Frames: each pass is a region of @main whose body runs at every grid point from the blocks the pipeline stages and the
  accumulator the point before left; the host operations between the regions are total. Values, at the extended reals:
  each pass's output array is the dense layer of its inputs (the accumulator's recursion summed over the column tiles),
  the host operations give S, the padded first layer and the casts, and the reference's run is the edge-sum layers.
  The two agree because every intermediate is a real number (so products distribute over the finite sums) and because,
  with every index a node, Σ_k S(n,k)·h(k,q) = Σ_{e : dst e = n} w e · h(src e, q). The ledger of idealizing rewrites
  is empty.
-/
import proofs.«408395_j7919919694206_3_alg».proof.Defs
import proofs.«408395_j7919919694206_3_alg».proof.Proof.Gen.Kernel
import proofs.«408395_j7919919694206_3_alg».proof.Proof.Gen.KernelIdeal
import proofs.«408395_j7919919694206_3_alg».proof.Proof.Gen.ReferenceIdeal
import proofs.«408395_j7919919694206_3_alg».proof.Proof.Gen.Pre_finite_inputs
import proofs.«408395_j7919919694206_3_alg».proof.Proof.Gen.ReferenceIdeal.Run
import proofs.«408395_j7919919694206_3_alg».proof.Proof.K.Launch
import proofs.«408395_j7919919694206_3_alg».proof.Proof.KI.Launch
import proofs.«408395_j7919919694206_3_alg».proof.Proof.Final

noncomputable section

namespace Cert.Proof

open Idealize.ShloMosaic Idealize.SL.Sem

/-- The word-level program runs and leaves its arguments unchanged. -/
theorem frame_kernel : Cert.frame_Kernel := fun m ρ _ => Cert.Kernel.Launch.frame (F := Bits) m ρ

/-- The idealized program runs and leaves its arguments unchanged. -/
theorem frame_kernel_ideal : Cert.frame_KernelIdeal := fun m ρ _ => Cert.KernelIdeal.Launch.frame (F := Ideal) m ρ

/-- The reference runs and leaves its arguments unchanged: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, Cert.Final.algebraic⟩

end Cert.Proof

end
